-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v39) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1000 : Shape := ⟨2, ![4096, 1000]⟩
abbrev S4096 : Shape := ⟨1, ![4096]⟩
abbrev S1000x512 : Shape := ⟨2, ![1000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_
  bcast_S_S1000x512 : S_.BroadcastsInDim S1000x512 (![] : Fin 0 → Fin S1000x512.rank)
  reducesTo_S1000x512_S_d0_1 : S1000x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 1000#32
  let main_v18 : IVec S4096 32 := broadcastInDim S4096 ![] bcast_S_S4096 main_c_6
  let main_v19 : IVec S4096 1 := cmpi .slt main_arg2 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  main_v21

def fn {F : FTy → Type} [FloatOps F] (main_arg0 : FVec F S4096x512 .f32) (main_arg1 : FVec F S4096x1000 .f32) (main_arg2 : IVec S4096 32) (main_arg3 : FVec F S1000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S1000x512 .f32 := Host.absf main_arg3
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg2 main_v14
  let main_c_5 : IVec S_ 1 := constantI S_ 1 1#1
  fn_part1 (F := F) main_arg2 main_v13 main_v15 main_c_5
-- ==== Kernel.lean ====
abbrev S4096x512 : Shape := ⟨2, ![4096, 512]⟩
abbrev S4096x1000 : Shape := ⟨2, ![4096, 1000]⟩
abbrev S4096 : Shape := ⟨1, ![4096]⟩
abbrev S1000x512 : Shape := ⟨2, ![1000, 512]⟩
abbrev S_ : Shape := ⟨0, ![]⟩
abbrev S4096x1 : Shape := ⟨2, ![4096, 1]⟩
abbrev S1x4096 : Shape := ⟨2, ![1, 4096]⟩
abbrev S1000 : Shape := ⟨1, ![1000]⟩
abbrev S512x4096 : Shape := ⟨2, ![512, 4096]⟩
abbrev S512x512 : Shape := ⟨2, ![512, 512]⟩
abbrev S512x1 : Shape := ⟨2, ![512, 1]⟩
abbrev S1x1024 : Shape := ⟨2, ![1, 1024]⟩
abbrev S512x1000 : Shape := ⟨2, ![512, 1000]⟩
abbrev S512 : Shape := ⟨1, ![512]⟩
abbrev S512x1024 : Shape := ⟨2, ![512, 1024]⟩

abbrev nBuf : Space → Nat
  | .hbm => 74
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x1000, .f32⟩
  | .hbm, ⟨2, _⟩ => ⟨S4096, .i32⟩
  | .hbm, ⟨3, _⟩ => ⟨S1000x512, .f32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S4096x1, .i32⟩
  | .hbm, ⟨10, _⟩ => ⟨S1x4096, .i32⟩
  | .hbm, ⟨11, _⟩ => ⟨S_, .i32⟩
  | .hbm, ⟨12, _⟩ => ⟨S1000, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S_, .i32⟩
  | .hbm, ⟨22, _⟩ => ⟨S4096, .i32⟩
  | .hbm, ⟨23, _⟩ => ⟨S1000, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i1⟩
  | .hbm, ⟨40, _⟩ => ⟨S4096, .f32⟩
  | .hbm, ⟨41, _⟩ => ⟨S4096x1, .f32⟩
  | .hbm, ⟨42, _⟩ => ⟨S1000x512, .bf16⟩
  | .hbm, ⟨43, _⟩ => ⟨S1000x512, .f32⟩
  | .hbm, ⟨44, _⟩ => ⟨S1000x512, .f32⟩
  | .hbm, ⟨45, _⟩ => ⟨S1000x512, .bf16⟩
  | .hbm, ⟨46, _⟩ => ⟨S4096x512, .bf16⟩
  | .hbm, ⟨47, _⟩ => ⟨S512x4096, .bf16⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S4096x512, .bf16⟩
  | .local _ .vmem, ⟨1, _⟩ => ⟨S512x4096, .bf16⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1, .i32⟩
  | .local _ .vmem, ⟨9, _⟩ => ⟨S512x1, .i32⟩
  | .local _ .vmem, ⟨10, _⟩ => ⟨S1x1024, .i32⟩
  | .local _ .vmem, ⟨11, _⟩ => ⟨S1x1024, .i32⟩
  | .local _ .vmem, ⟨12, _⟩ => ⟨S512x1, .f32⟩
  | .local _ .vmem, ⟨13, _⟩ => ⟨S512x1, .f32⟩
  | .local _ .vmem, ⟨14, _⟩ => ⟨S512x1000, .f32⟩
  | .local _ .vmem, ⟨15, _⟩ => ⟨S512x1000, .f32⟩
  | .local _ .vmem, ⟨16, _⟩ => ⟨S1000x512, .bf16⟩
  | .local _ .vmem, ⟨17, _⟩ => ⟨S1000x512, .bf16⟩
  | .local _ .vmem, ⟨18, _⟩ => ⟨S512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_cst_14 : Ref sig .tc := ⟨.hbm, 66, rfl⟩
abbrev main_v44 : Ref sig .tc := ⟨.hbm, 67, rfl⟩
abbrev main_cst_15 : Ref sig .tc := ⟨.hbm, 68, rfl⟩
abbrev main_v45 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c1024_i32 : BitVec 32 := 1024#32
  let v2 : BitVec 32 := Scalar.muli arg1 c1024_i32
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v7 : Index := Scalar.indexCast v1
  let c0 : Index := 0#32
  ![v7.toNat, 0]
def k0_off2 (i : grid0.Coords) : Fin 2 → Nat :=
  let c0_1 : Index := 0#32
  let arg1 : BitVec 32 := BitVec.ofNat 32 (i 1).val
  let c1024_i32 : BitVec 32 := 1024#32
  let v2 : BitVec 32 := Scalar.muli arg1 c1024_i32
  let v3 : BitVec 32 := v2
  let v10 : Index := Scalar.indexCast v3
  ![0, v10.toNat]
def k0_cond2 (i : grid0.Coords) : BitVec 1 :=
  let arg1 : BitVec 32 := BitVec.ofNat 32 (i 1).val
  let c3_i32 : BitVec 32 := 3#32
  let v59 : BitVec 1 := Scalar.cmpi .eq arg1 c3_i32
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1000x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1000x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  reducesTo_S4096x512_S4096_d1 : S4096x512.ReducesTo [1] S4096
  h_S_ : 0 < S_.numel
  shapeCasts_S4096_S4096x1 : S4096.ShapeCasts S4096x1
  shapeCasts_S4096_S1x4096 : S4096.ShapeCasts S1x4096
  bcast_S_S1000 : S_.BroadcastsInDim S1000 (![] : Fin 0 → Fin S1000.rank)
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  transposes_S4096x512_S512x4096_1_0 : S4096x512.Transposes [1, 0] S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  iota_S512x1000_d1_w32 : S512x1000.Iotas .tc 32 [1]
  natLt_1_32 : 1 < 32
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512x512_S512x512 : S512x512.ShapeCasts S512x512
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1024_d0_w32 : S512x1024.Iotas .tc 32 [0]
  iota_S512x1024_d1_w32 : S512x1024.Iotas .tc 32 [1]
  reduces_S512x1024_S512 : S512x1024.Reduces [1] S512
  shapeCasts_S512x1_S512 : S512x1.ShapeCasts S512
  inb_S512_S512_0 : ∀ a, (![0] : Fin 1 → Nat) a + S512.size a ≤ S512.size a
  h_S512 : 0 < S512.numel
  reducesTo_S4096x1_S_d0_1 : S4096x1.ReducesTo [0, 1] S_
  reducesTo_S4096_S_d0 : S4096.ReducesTo [0] S_
  scatter_S1000_S4096x1_S4096_n_0_0_1_wf : ScatterDims.WF S1000 S4096x1 S4096 [] [0] [0] 1
  gather_S1000_S4096x1_S4096_n_0_n_n_0_1_1_wf : GatherDims.WF S1000 S4096x1 S4096 [] [0] [] [0] [] 1 ![1]
  dot_S512x1000_S1000x512_S512x512_1_0_0_1_n_n_wf : DotDims.WF S512x1000 S1000x512 S512x512 [1] [0] [0] [1] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ a, (k0_off1 i) a + S512x512.size a ≤ S4096x512.size a
  k0_off2_inb : ∀ i : grid0.Coords, ∀ a, (k0_off2 i) a + S512x1024.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .bf16 = 32 ∨ (Rect.block (s := S4096x512) S4096x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .i32 = 32 ∨ (Rect.block (s := S4096x1) S512x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .i32 = 32 ∨ (Rect.block (s := S1x4096) S1x1024.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1000.size a ≤ S4096x1000.size a
  hwx0_8 : ∀ i : grid0.Coords, EltTy.bits .f32 = 32 ∨ (Rect.block (s := S4096x1000) S512x1000.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1000x512.size a ≤ S1000x512.size a
  hwx0_9 : ∀ i : grid0.Coords, EltTy.bits .bf16 = 32 ∨ (Rect.block (s := S1000x512) S1000x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1000x512.size a ≤ S1000x512.size a
  hwx0_10 : ∀ i : grid0.Coords, EltTy.bits .bf16 = 32 ∨ (Rect.block (s := S1000x512) S1000x512.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S4096.size a
  hwx0_11 : ∀ i : grid0.Coords, EltTy.bits .f32 = 32 ∨ (Rect.block (s := S4096) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S4096.size a
  hwx0_12 : ∀ i : grid0.Coords, EltTy.bits .f32 = 32 ∨ (Rect.block (s := S4096) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S4096.size a
  hwx0_13 : ∀ i : grid0.Coords, EltTy.bits .f32 = 32 ∨ (Rect.block (s := S4096) S512.size (cc0_transform_13 i) (hinb0_13 i)).WholeWords (EltTy.packing .f32)

variable [Facts₀]

def scatter_S1000_S4096x1_S4096_n_0_0_1 : ScatterDims S1000 S4096x1 S4096 where
  updateWindowDims := []
  insertedWindowDims := [0]
  scatterDimsToOperandDims := [0]
  indexVectorDim := 1
  wf := scatter_S1000_S4096x1_S4096_n_0_0_1_wf
def gather_S1000_S4096x1_S4096_n_0_n_n_0_1_1 : GatherDims S1000 S4096x1 S4096 where
  offsetDims := []
  collapsedSliceDims := [0]
  operandBatchingDims := []
  startIndicesBatchingDims := []
  startIndexMap := [0]
  indexVectorDim := 1
  sliceSizes := ![1]
  wf := gather_S1000_S4096x1_S4096_n_0_n_n_0_1_1_wf
def dot_S512x1000_S1000x512_S512x512_1_0_0_1_n_n : DotDims S512x1000 S1000x512 S512x512 where
  lhsContracting := [1]
  rhsContracting := [0]
  lhsNonContracting := [0]
  rhsNonContracting := [1]
  lhsBatch := []
  rhsBatch := []
  wf := dot_S512x1000_S1000x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v33) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v34) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28) S512x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg1) S512x1000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1000x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v32) S1000x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35_0) S512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v35_1) S512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v35_2) S512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x1000 : Shape := ⟨2, ![4096, 1000]⟩
abbrev S4096 : Shape := ⟨1, ![4096]⟩
abbrev S1000x512 : Shape := ⟨2, ![1000, 512]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1x4096 : Shape := ⟨2, ![1, 4096]⟩
abbrev S4096x4096 : Shape := ⟨2, ![4096, 4096]⟩
abbrev S512x4096 : Shape := ⟨2, ![512, 4096]⟩

abbrev nBuf : Space → Nat
  | .hbm => 144
  | .vmem => 0
  | .smem => 0
  | _ => 0

abbrev hbmTy0_0 (i : Nat) : BufTy := match i % 128 with
  | 0 => ⟨S4096x512, .f32⟩
  | 1 => ⟨S4096x1000, .f32⟩
  | 2 => ⟨S4096, .i32⟩
  | 3 => ⟨S1000x512, .f32⟩
  | 4 => ⟨S_, .f32⟩
  | 5 => ⟨S4096, .f32⟩
  | 6 => ⟨S_, .f32⟩
  | 7 => ⟨S4096, .f32⟩
  | 8 => ⟨S4096, .f32⟩
  | 9 => ⟨S4096x1, .f32⟩
  | 10 => ⟨S4096x1000, .f32⟩
  | 11 => ⟨S4096x1000, .f32⟩
  | 12 => ⟨S4096x1000, .f32⟩
  | 13 => ⟨S_, .f32⟩
  | 14 => ⟨S4096, .f32⟩
  | 15 => ⟨S4096x1, .f32⟩
  | 16 => ⟨S4096x1, .f32⟩
  | 17 => ⟨S4096x1000, .f32⟩
  | 18 => ⟨S4096x1000, .f32⟩
  | 19 => ⟨S4096x1, .i32⟩
  | 20 => ⟨S_, .i32⟩
  | 21 => ⟨S4096x1, .i32⟩
  | 22 => ⟨S4096x1, .i1⟩
  | 23 => ⟨S_, .i32⟩
  | 24 => ⟨S4096x1, .i32⟩
  | 25 => ⟨S4096x1, .i32⟩
  | 26 => ⟨S4096x1, .i32⟩
  | 27 => ⟨S4096x1x1, .i32⟩
  | 28 => ⟨S1, .i32⟩
  | 29 => ⟨S_, .i32⟩
  | 30 => ⟨S4096x1x1, .i32⟩
  | 31 => ⟨S4096x1x1, .i1⟩
  | 32 => ⟨S1x1x1, .i32⟩
  | 33 => ⟨S4096x1x1, .i32⟩
  | 34 => ⟨S4096x1x1, .i1⟩
  | 35 => ⟨S4096x1x1, .i1⟩
  | 36 => ⟨S_, .i1⟩
  | 37 => ⟨S4096x1, .i1⟩
  | 38 => ⟨S4096x1, .f32⟩
  | 39 => ⟨S_, .f32⟩
  | 40 => ⟨S4096x1, .f32⟩
  | 41 => ⟨S4096x1, .f32⟩
  | 42 => ⟨S4096, .f32⟩
  | 43 => ⟨S_, .f32⟩
  | 44 => ⟨S_, .f32⟩
  | 45 => ⟨S_, .f32⟩
  | 46 => ⟨S_, .f32⟩
  | 47 => ⟨S_, .f32⟩
  | 48 => ⟨S4096x512, .f32⟩
  | 49 => ⟨S_, .f32⟩
  | 50 => ⟨S4096, .f32⟩
  | 51 => ⟨S4096x1, .f32⟩
  | 52 => ⟨S1x4096, .f32⟩
  | 53 => ⟨S4096x4096, .f32⟩
  | 54 => ⟨S4096x4096, .f32⟩
  | 55 => ⟨S4096x4096, .f32⟩
  | 56 => ⟨S512x4096, .f32⟩
  | 57 => ⟨S4096x4096, .f32⟩
  | 58 => ⟨S_, .f32⟩
  | 59 => ⟨S4096x4096, .f32⟩
  | 60 => ⟨S4096x4096, .f32⟩
  | 61 => ⟨S4096x4096, .f32⟩
  | 62 => ⟨S_, .f32⟩
  | 63 => ⟨S4096x4096, .f32⟩
  | 64 => ⟨S4096x4096, .f32⟩
  | 65 => ⟨S4096x4096, .f32⟩
  | 66 => ⟨S4096x1, .i32⟩
  | 67 => ⟨S1x4096, .i32⟩
  | 68 => ⟨S4096x4096, .i32⟩
  | 69 => ⟨S4096x4096, .i32⟩
  | 70 => ⟨S4096x4096, .i1⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S4096x4096, .i1⟩
  | 77 => ⟨S4096x4096, .i1⟩
  | 78 => ⟨S4096x4096, .i1⟩
  | 79 => ⟨S4096x4096, .i1⟩
  | 80 => ⟨S_, .f32⟩
  | 81 => ⟨S_, .f32⟩
  | 82 => ⟨S4096x4096, .f32⟩
  | 83 => ⟨S4096x4096, .f32⟩
  | 84 => ⟨S_, .f32⟩
  | 85 => ⟨S4096, .f32⟩
  | 86 => ⟨S_, .f32⟩
  | 87 => ⟨S_, .f32⟩
  | 88 => ⟨S4096x4096, .f32⟩
  | 89 => ⟨S4096x4096, .f32⟩
  | 90 => ⟨S_, .f32⟩
  | 91 => ⟨S4096, .f32⟩
  | 92 => ⟨S_, .i1⟩
  | 93 => ⟨S4096, .i1⟩
  | 94 => ⟨S_, .i1⟩
  | 95 => ⟨S4096, .i1⟩
  | 96 => ⟨S4096, .i1⟩
  | 97 => ⟨S4096, .f32⟩
  | 98 => ⟨S_, .f32⟩
  | 99 => ⟨S4096, .f32⟩
  | 100 => ⟨S4096, .f32⟩
  | 101 => ⟨S_, .f32⟩
  | 102 => ⟨S_, .f32⟩
  | 103 => ⟨S4096, .f32⟩
  | 104 => ⟨S4096, .f32⟩
  | 105 => ⟨S_, .f32⟩
  | 106 => ⟨S4096, .f32⟩
  | 107 => ⟨S4096, .f32⟩
  | 108 => ⟨S4096, .i32⟩
  | 109 => ⟨S_, .i32⟩
  | 110 => ⟨S_, .i32⟩
  | 111 => ⟨S_, .i32⟩
  | 112 => ⟨S_, .i32⟩
  | 113 => ⟨S_, .f32⟩
  | 114 => ⟨S_, .f32⟩
  | 115 => ⟨S_, .f32⟩
  | 116 => ⟨S4096, .f32⟩
  | 117 => ⟨S4096, .f32⟩
  | 118 => ⟨S_, .f32⟩
  | 119 => ⟨S_, .f32⟩
  | 120 => ⟨S_, .f32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x512, .f32⟩

abbrev hbmTy0_1 (i : Nat) : BufTy := match i % 128 with
  | 0 => ⟨S4096x1, .i32⟩
  | 1 => ⟨S4096x512, .f32⟩
  | 2 => ⟨S4096x512, .f32⟩
  | 3 => ⟨S4096x512, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_cst_0 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_2 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_3 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_c : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_call2_v0 : Ref sig .tc := ⟨.hbm, 81, rfl⟩
abbrev main_call2_v1 : Ref sig .tc := ⟨.hbm, 82, rfl⟩
abbrev main_v35 : Ref sig .tc := ⟨.hbm, 83, rfl⟩
abbrev main_cst_5 : Ref sig .tc := ⟨.hbm, 84, rfl⟩
abbrev main_v36 : Ref sig .tc := ⟨.hbm, 85, rfl⟩
abbrev main_cst_6 : Ref sig .tc := ⟨.hbm, 86, rfl⟩
abbrev main_call3_v0 : Ref sig .tc := ⟨.hbm, 87, rfl⟩
abbrev main_call3_v1 : Ref sig .tc := ⟨.hbm, 88, rfl⟩
abbrev main_v37 : Ref sig .tc := ⟨.hbm, 89, rfl⟩
abbrev main_cst_7 : Ref sig .tc := ⟨.hbm, 90, rfl⟩
abbrev main_v38 : Ref sig .tc := ⟨.hbm, 91, rfl⟩
abbrev main_c_8 : Ref sig .tc := ⟨.hbm, 92, rfl⟩
abbrev main_v39 : Ref sig .tc := ⟨.hbm, 93, rfl⟩
abbrev main_c_9 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_10 : Ref sig .tc := ⟨.hbm, 98, rfl⟩
abbrev main_v43 : Ref sig .tc := ⟨.hbm, 99, rfl⟩
abbrev main_v44 : Ref sig .tc := ⟨.hbm, 100, rfl⟩
abbrev main_cst_11 : Ref sig .tc := ⟨.hbm, 101, rfl⟩
abbrev main_call4_v0 : Ref sig .tc := ⟨.hbm, 102, rfl⟩
abbrev main_call4_v1 : Ref sig .tc := ⟨.hbm, 103, rfl⟩
abbrev main_v45 : Ref sig .tc := ⟨.hbm, 104, rfl⟩
abbrev main_call5_cst : Ref sig .tc := ⟨.hbm, 105, rfl⟩
abbrev main_call5_v0 : Ref sig .tc := ⟨.hbm, 106, rfl⟩
abbrev main_v46 : Ref sig .tc := ⟨.hbm, 107, rfl⟩
abbrev main_v47 : Ref sig .tc := ⟨.hbm, 108, rfl⟩
abbrev main_c_12 : Ref sig .tc := ⟨.hbm, 109, rfl⟩
abbrev main_v48 : Ref sig .tc := ⟨.hbm, 110, rfl⟩
abbrev main_c_13 : Ref sig .tc := ⟨.hbm, 111, rfl⟩
abbrev main_v49 : Ref sig .tc := ⟨.hbm, 112, rfl⟩
abbrev main_v50 : Ref sig .tc := ⟨.hbm, 113, rfl⟩
abbrev main_cst_14 : Ref sig .tc := ⟨.hbm, 114, rfl⟩
abbrev main_call6_v0 : Ref sig .tc := ⟨.hbm, 115, rfl⟩
abbrev main_call6_v1 : Ref sig .tc := ⟨.hbm, 116, rfl⟩
abbrev main_v51 : Ref sig .tc := ⟨.hbm, 117, rfl⟩
abbrev main_cst_15 : Ref sig .tc := ⟨.hbm, 118, rfl⟩
abbrev main_v52 : Ref sig .tc := ⟨.hbm, 119, rfl⟩
abbrev main_v53 : Ref sig .tc := ⟨.hbm, 120, rfl⟩
abbrev main_c_16 : Ref sig .tc := ⟨.hbm, 121, rfl⟩
abbrev main_v54 : Ref sig .tc := ⟨.hbm, 122, rfl⟩
abbrev main_v55 : Ref sig .tc := ⟨.hbm, 123, rfl⟩
abbrev main_c_17 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_cst_18 : Ref sig .tc := ⟨.hbm, 132, rfl⟩
abbrev main_v63 : Ref sig .tc := ⟨.hbm, 133, rfl⟩
abbrev main_cst_19 : Ref sig .tc := ⟨.hbm, 134, rfl⟩
abbrev main_v64 : Ref sig .tc := ⟨.hbm, 135, rfl⟩
abbrev main_cst_20 : Ref sig .tc := ⟨.hbm, 136, rfl⟩
abbrev main_v65 : Ref sig .tc := ⟨.hbm, 137, rfl⟩
abbrev main_cst_21 : Ref sig .tc := ⟨.hbm, 138, rfl⟩
abbrev main_v66 : Ref sig .tc := ⟨.hbm, 139, rfl⟩
abbrev main_v67 : Ref sig .tc := ⟨.hbm, 140, rfl⟩
abbrev main_cst_22 : Ref sig .tc := ⟨.hbm, 141, rfl⟩
abbrev main_v68 : Ref sig .tc := ⟨.hbm, 142, rfl⟩
abbrev main_v69 : Ref sig .tc := ⟨.hbm, 143, rfl⟩

abbrev nD : Nat := 1
abbrev τ : Topo := Topo.v7x

variable {F : FTy → Type} [FloatOps F]

class Facts₀ : Prop where
  reducesTo_S4096x1000_S4096_d1 : S4096x1000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1000_0_1 : S4096x1.BroadcastsInDim S4096x1000 (![0, 1] : Fin 2 → Fin S4096x1000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  reducesTo_S4096x512_S4096_d1 : S4096x512.ReducesTo [1] S4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  natLt_1_32 : 1 < 32
  reducesTo_S4096x512_S_d0_1 : S4096x512.ReducesTo [0, 1] S_
  gather_S4096x1000_S4096x1x1_S4096x1_n_1_0_0_1_2_11_wf : GatherDims.WF S4096x1000 S4096x1x1 S4096x1 [] [1] [0] [1] [0] 2 ![1, 1]
  dot_S4096x512_S512x4096_S4096x4096_1_0_0_1_n_n_wf : DotDims.WF S4096x512 S512x4096 S4096x4096 [1] [0] [0] [1] [] []
  gather_S1000x512_S4096x1_S4096x512_1_0_n_n_0_1_1512_wf : GatherDims.WF S1000x512 S4096x1 S4096x512 [1] [0] [] [0] [] 1 ![1, 512]

variable [Facts₀]

def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def gather_S1000x512_S4096x1_S4096x512_1_0_n_n_0_1_1512 : GatherDims S1000x512 S4096x1 S4096x512 where
  offsetDims := [1]
  collapsedSliceDims := [0]
  operandBatchingDims := []
  startIndicesBatchingDims := []
  startIndexMap := [0]
  indexVectorDim := 1
  sliceSizes := ![1, 512]
  wf := gather_S1000x512_S4096x1_S4096x512_1_0_n_n_0_1_1512_wf

class Facts : Prop extends Facts₀ where

variable [Facts]
-- ==== Proof.RefRunStep.lean ====
/-
  Two facts about the fold of a line of host operations over the buffer contents. The fold over a line that begins with an
  operation is the fold over the rest of the line from the contents that operation leaves: whatever holds of the fold over the
  rest, from any contents that agree everywhere with what the operation leaves, holds of the whole. And the fold over two
  lines one after the other is the second's from what the first leaves.
-/
import Idealize.ShloMosaic.Lib.StableHlo.Run

namespace Cert.RefRun

open Idealize.ShloMosaic Idealize.ShloMosaic.StableHlo

/-- one operation of the fold, the contents after it named -/
theorem after_step {τ : Topo} {sig : RefSig} {Val : EltTy → Type} {Q : Valuation τ sig Val → Prop} {op : HloOp τ sig Val}
    {rest : List (HloOp τ sig Val)} {V : Valuation τ sig Val}
    (h : ∀ V1 : Valuation τ sig Val, (∀ b, V1 b = op.result V b) → Q (after rest V1)) : Q (after (op :: rest) V) :=
  h _ (fun _ => rfl)

/-- the fold over two lines one after the other -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

end Cert.RefRun
-- ==== Proof.RefRun.lean ====
/-
  The reference program's run: every weakly fair execution of its @main terminates, nothing faulting, with its three results at
  the values the operations compute one after the other from the argument arrays, and the arguments unchanged.
  The 140 host operations are taken in consecutive chunks; the buffer contents after a chunk are the chunk's operations applied
  to the contents before it.
-/
import proofs.«405195_j25804163514703_3_alg».proof.Proof.RefRead
import proofs.«405195_j25804163514703_3_alg».proof.Proof.Gen.ReferenceIdeal
import Idealize.ShloMosaic.Lib.StableHlo.Run
import proofs.«405195_j25804163514703_3_alg».proof.Proof.RefRunTable

noncomputable section

namespace Cert.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- all the operations, in order: the program's first part is the first three lists, its second part the fourth -/
abbrev ops : List (HloOp τ sig (Elt F)) := (opsA ++ (opsB1 ++ opsB2)) ++ opsD

/-! ## The program is the line of its operations -/

set_option maxRecDepth 8192 in
set_option maxHeartbeats 4000000 in
theorem main_part0_eq (c : Dev nD) : main_part0 (F := F) c = seq (opsA ++ (opsB1 ++ opsB2)) := rfl
set_option maxRecDepth 8192 in
set_option maxHeartbeats 4000000 in
theorem main_part1_eq (c : Dev nD) : main_part1 (F := F) c = seq opsD := rfl
set_option maxRecDepth 8192 in
theorem main_eq (c : Dev nD) : main (F := F) c = seq ops := by
  simp only [ops, seq_append (opsA ++ (opsB1 ++ opsB2)) opsD, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

/-! ## The side conditions of the whole line, from the four lists' -/

theorem ops_sub : (ops : List (HloOp τ sig (Elt F))).Forall fun op => op.bufs ⊆ tcRefs τ sig :=
  List.forall_iff_forall_mem.mpr fun op h => by
    simp only [ops, List.mem_append] at h
    rcases h with (h | h | h) | h
    exacts [List.forall_iff_forall_mem.mp opsA_sub op h, List.forall_iff_forall_mem.mp opsB1_sub op h,
      List.forall_iff_forall_mem.mp opsB2_sub op h, List.forall_iff_forall_mem.mp opsD_sub op h]

theorem ops_fresh : ∀ op ∈ (ops : List (HloOp τ sig (Elt F))), op.fresh = ∅ := fun op h => by
  simp only [ops, List.mem_append] at h
  rcases h with (h | h | h) | h
  exacts [List.forall_iff_forall_mem.mp opsA_fresh op h, List.forall_iff_forall_mem.mp opsB1_fresh op h,
    List.forall_iff_forall_mem.mp opsB2_fresh op h, List.forall_iff_forall_mem.mp opsD_fresh op h]

/-! ## The contents after the whole line

Each list is read from the contents the lists before it leave; what a list needs of those contents is what the list before
establishes: the cross-entropy after the first, the distances and the two label relations after the second, the validity mask
and the masked per-row loss after the third, and the arguments throughout. -/

/-- the contents after all the operations, at the three results and the four arguments -/
theorem read_all (V0 : Valuation τ sig (Elt F)) : read_opsD_post V0 (after ops V0) := by
  obtain ⟨a_v6, a_arg0, a_arg1, a_arg2, a_arg3⟩ := read_opsA V0 V0 rfl rfl rfl rfl
  obtain ⟨b_v21, b_v33, b_v34, b_v6, b_arg0, b_arg1, b_arg2, b_arg3⟩ :=
    read_opsB1 V0 (after opsA V0) a_v6 a_arg0 a_arg1 a_arg2 a_arg3
  obtain ⟨c_v41, c_v45, c_v6, c_arg0, c_arg1, c_arg2, c_arg3⟩ :=
    read_opsB2 V0 (after opsB1 (after opsA V0)) b_v21 b_v33 b_v34 b_v6 b_arg0 b_arg1 b_arg2 b_arg3
  have hD := read_opsD V0 (after opsB2 (after opsB1 (after opsA V0))) c_v41 c_v45 c_v6 c_arg0 c_arg1 c_arg2 c_arg3
  have e : after (ops (F := F)) V0 = after opsD (after opsB2 (after opsB1 (after opsA V0))) := by
    show after ((opsA ++ (opsB1 ++ opsB2)) ++ opsD) V0 = _
    rw [after_app, after_app, after_app]
  rw [e]
  exact hD

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = val_main_v69 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = val_main_v6 (F := F) (m ((c.tc : Thread nD τ).loc main_arg1)) (m ((c.tc : Thread nD τ).loc main_arg2))
      ∧ r.2.mem ((c.tc : Thread nD τ).loc main_v53) = val_main_v53 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨r_v69, r_v6, r_v53, r_arg0, r_arg1, r_arg2, r_arg3⟩ := read_all (F := F) (launchContents m c)
      exact ⟨(h c main_v69).trans r_v69, (h c main_v6).trans r_v6, (h c main_v53).trans r_v53, (h c main_arg0).trans r_arg0, (h c main_arg1).trans r_arg1, (h c main_arg2).trans r_arg2, (h c main_arg3).trans r_arg3⟩)
    (run_seq scopedRefs_eq scopedSems_eq defs main (fun _ => ops) main_eq (fun _ => ops_sub) m ρ (hfresh := fun _ => ops_fresh))

end Cert.RefRun

end
-- ==== Proof.Spec.lean ====
/-
  The two programs' results as functions of the four argument arrays, over the extended reals.

  Both programs compute three scalars from embeddings `e` [4096, 512], logits `lg` [4096, 1000], labels `lab` [4096] and
  class centers `cen` [1000, 512]:
    * a cross-entropy: the mean over rows of minus the log-softmax of the row's logits at the row's label;
    * a batch-hard triplet loss: with squared distances d2[r, c] = |e_r|^2 + |e_c|^2 - 2 <e_r, e_c>, the hardest positive of
      row r is the largest distance to another row with r's label, the hardest negative the smallest distance to a row with
      another label; a row is valid when both exist; the loss is the mean over valid rows of
      max (hardest positive - hardest negative + 1/2) 0;
    * a center loss: the mean over all entries of (e[r, k] - cen[lab r, k])^2;
  and the weighted total of the three.

  The kernel-shaped forms (suffix K) take the maximum and minimum of the SQUARED distances and apply x |-> sqrt (max x eps)
  afterwards, count a row's label to decide validity, pick the label's log-probability and the label's center by a sum against
  a one-hot row; the reference-shaped forms (suffix R) take distances first, decide validity by existence, and pick by index.
  Float literals that both programs carry as the same word are kept as words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SEmb : Shape := ⟨2, ![4096, 512]⟩
abbrev SLog : Shape := ⟨2, ![4096, 1000]⟩
abbrev SLab : Shape := ⟨1, ![4096]⟩
abbrev SCen : Shape := ⟨2, ![1000, 512]⟩

/-! ## The literals -/

/-- 2.0 -/
def two : EReal := Ideal.ofBits .f32 0x40000000#32
/-- the floor under a squared distance before its root, f32 (1e-12) -/
def eps : EReal := Ideal.ofBits .f32 0x2B8CBCCC#32
/-- the margin, 0.5 -/
def half : EReal := Ideal.ofBits .f32 0x3F000000#32
/-- 4096.0, the number of rows -/
def nRows : EReal := Ideal.ofBits .f32 0x45800000#32
/-- 2097152.0, the number of entries of the embeddings -/
def nEntries : EReal := Ideal.ofBits .f32 0x4A000000#32
/-- the three weights f32 (1 - 0.7 - 0.1), f32 (0.7), f32 (0.1) -/
def wCe : EReal := Ideal.ofBits .f32 0x3E4CCCCD#32
def wTrip : EReal := Ideal.ofBits .f32 0x3F333333#32
def wCenter : EReal := Ideal.ofBits .f32 0x3DCCCCCD#32

theorem ofBits_ninf_f32 : Ideal.ofBits .f32 0xFF800000#32 = ⊥ := by simp [Ideal.ofBits, Ideal.ieee]
theorem ofBits_pinf_f32 : Ideal.ofBits .f32 0x7F800000#32 = ⊤ := by simp [Ideal.ofBits, Ideal.ieee]

variable (e : SEmb.Idx → EReal) (lg : SLog.Idx → EReal) (lab : SLab.Idx → BitVec 32) (cen : SCen.Idx → EReal)

/-! ## Squared distances and the label relations (shared) -/

/-- |e_r|^2 -/
def sq (r : Fin 4096) : EReal := ∑ k : Fin 512, e (ix2 r k) * e (ix2 r k)
/-- <e_r, e_c> -/
def gram (r c : Fin 4096) : EReal := ∑ k : Fin 512, e (ix2 r k) * e (ix2 c k)
/-- the squared distance of rows r and c, grouped as both programs group it -/
def d2 (r c : Fin 4096) : EReal := (sq e r + sq e c) - two * gram e r c
/-- c is a positive of r: the same label, another row -/
def isPos (r c : Fin 4096) : Prop := lab (ix1 r) = lab (ix1 c) ∧ r ≠ c
/-- c is a negative of r: another label -/
def isNeg (r c : Fin 4096) : Prop := ¬ lab (ix1 r) = lab (ix1 c)

instance (r c : Fin 4096) : Decidable (isPos lab r c) := by unfold isPos; infer_instance
instance (r c : Fin 4096) : Decidable (isNeg lab r c) := by unfold isNeg; infer_instance

/-! ## The triplet loss, kernel-shaped -/

/-- the largest squared distance to a positive (bottom when there is none) -/
def posMaxK (r : Fin 4096) : EReal :=
  (Finset.univ : Finset (Fin 4096)).fold max ⊥ (fun c => if isPos lab r c then d2 e r c else ⊥)
/-- the smallest squared distance to a negative (top when there is none) -/
def negMinK (r : Fin 4096) : EReal :=
  (Finset.univ : Finset (Fin 4096)).fold min ⊤ (fun c => if isNeg lab r c then d2 e r c else ⊤)
/-- how many rows carry r's label -/
def cntSame (r : Fin 4096) : ℕ := (Finset.univ.filter fun t : Fin 4096 => lab (ix1 t) = lab (ix1 r)).card
/-- validity by the count: at least two rows with the label, and not all of them -/
def validK (r : Fin 4096) : Prop := 2 ≤ cntSame lab r ∧ cntSame lab r < 4096
instance (r : Fin 4096) : Decidable (validK lab r) := by unfold validK; infer_instance
def lossRowK (r : Fin 4096) : EReal :=
  max (if validK lab r then (Ideal.sqrt (max (posMaxK e lab r) eps) - Ideal.sqrt (max (negMinK e lab r) eps)) + half else 0) 0
def nValidK : EReal := max (∑ r : Fin 4096, (if validK lab r then (1 : EReal) else 0)) 1
def tripK : EReal := Ideal.div (∑ r : Fin 4096, lossRowK e lab r) (nValidK lab)

/-! ## The triplet loss, reference-shaped -/

def dist (r c : Fin 4096) : EReal := Ideal.sqrt (max (d2 e r c) eps)
def hardPosR (r : Fin 4096) : EReal :=
  (Finset.univ : Finset (Fin 4096)).fold max ⊥ (fun c => if isPos lab r c then dist e r c else ⊥)
def hardNegR (r : Fin 4096) : EReal :=
  (Finset.univ : Finset (Fin 4096)).fold min ⊤ (fun c => if isNeg lab r c then dist e r c else ⊤)
def validR (r : Fin 4096) : Prop := (∃ c : Fin 4096, isPos lab r c) ∧ (∃ c : Fin 4096, isNeg lab r c)
instance (r : Fin 4096) : Decidable (validR lab r) := by unfold validR; infer_instance
def lossRowR (r : Fin 4096) : EReal :=
  if validR lab r then max (if validR lab r then (hardPosR e lab r - hardNegR e lab r) + half else 0) 0 else 0
/-- the number of valid rows, at least one, as a real -/
def nValidR : EReal := (((max (Finset.univ.filter fun r : Fin 4096 => validR lab r).card 1 : ℕ) : ℝ) : EReal)
def tripR : EReal := Ideal.div (∑ r : Fin 4096, lossRowR e lab r) (nValidR lab)

/-! ## The cross-entropy -/

/-- the largest logit of row r -/
def rowMax (r : Fin 4096) : EReal := (Finset.univ : Finset (Fin 1000)).fold max ⊥ (fun c => lg (ix2 r c))
/-- the log-softmax of row r at class c, as both programs compute it: shifted by the row's maximum -/
def logp (r : Fin 4096) (c : Fin 1000) : EReal :=
  (lg (ix2 r c) - rowMax lg r) - Ideal.log (∑ c' : Fin 1000, Ideal.exp (lg (ix2 r c') - rowMax lg r))
/-- class c is row r's label (the class index as a 32-bit word) -/
def isLab (r : Fin 4096) (c : Fin 1000) : Prop := BitVec.ofNat 32 c.val = lab (ix1 r)
instance (r : Fin 4096) (c : Fin 1000) : Decidable (isLab lab r c) := by unfold isLab; infer_instance
/-- kernel-shaped: zero minus the sum of the one-hot row against the log-probabilities -/
def ceRowK (r : Fin 4096) : EReal := 0 - ∑ c : Fin 1000, (if isLab lab r c then (1 : EReal) else 0) * logp lg r c
def ceK : EReal := Ideal.div (∑ r : Fin 4096, ceRowK lg lab r) nRows
/-- the label of row r as a class index, clamped into range -/
def labIdx (r : Fin 4096) : Fin 1000 := ⟨min (lab (ix1 r)).toInt.toNat 999, by omega⟩
/-- reference-shaped: minus the mean of the picked log-probabilities -/
def ceR : EReal := -(Ideal.div (∑ r : Fin 4096, logp lg r (labIdx lab r)) nRows)

/-! ## The center loss -/

/-- kernel-shaped: the label's center as the one-hot row times the table, plus the same against the zero table that the split of
    the centers into a leading part and a remainder leaves at the ideal values -/
def pickK (r : Fin 4096) (k : Fin 512) : EReal :=
  (∑ c : Fin 1000, (if isLab lab r c then (1 : EReal) else 0) * cen (ix2 c k))
    + ∑ c : Fin 1000, (if isLab lab r c then (1 : EReal) else 0) * (cen (ix2 c k) - cen (ix2 c k))
def centerRowK (r : Fin 4096) : EReal :=
  ∑ k : Fin 512, (e (ix2 r k) - pickK lab cen r k) * (e (ix2 r k) - pickK lab cen r k)
def centerK : EReal := Ideal.div (∑ r : Fin 4096, centerRowK e lab cen r) nEntries
/-- reference-shaped: one sum over all entries -/
def centerR : EReal :=
  Ideal.div (∑ i : SEmb.Idx, (e i - cen (ix2 (labIdx lab ⟨(i 0).val, idx2_lt0 i⟩) ⟨(i 1).val, idx2_lt1 i⟩))
      * (e i - cen (ix2 (labIdx lab ⟨(i 0).val, idx2_lt0 i⟩) ⟨(i 1).val, idx2_lt1 i⟩))) nEntries

/-! ## The totals -/

def totalK : EReal := (wCe * ceK lg lab + wTrip * tripK e lab) + wCenter * centerK e lab cen
def totalR : EReal := (wCe * ceR lg lab + wTrip * tripR e lab) + wCenter * centerR e lab cen

/-! ## What the precondition gives -/

/-- every entry of an array is a real number -/
def Finite {s : Shape} (x : s.Idx → EReal) : Prop := ∀ i, ∃ v : ℝ, x i = (v : EReal)
/-- every label is a class index -/
def LabelsInRange : Prop := ∀ r : Fin 4096, 0 ≤ (lab (ix1 r)).toInt ∧ (lab (ix1 r)).toInt < 1000

end Cert.Spec

end
-- ==== Proof.PreFacts.lean ====
/-
  What the precondition says of the argument arrays: the three float arrays hold real numbers and every label is a class index.
-/
import proofs.«405195_j25804163514703_3_alg».proof.Proof.Spec
import proofs.«405195_j25804163514703_3_alg».proof.Pre_finite_inputs
import proofs.«405195_j25804163514703_3_alg».proof.Proof.Gen.Pre_finite_inputs
import Idealize.ShloMosaic.Lib.ReduceAll
import Idealize.ShloMosaic.Lib.StableHlo.Predicate

noncomputable section

namespace Cert.PreFacts

open Idealize.ShloMosaic Idealize.ShloMosaic.ValueIdx Cert.Spec

/-- the scalar shape has one index -/
instance : Subsingleton Cert.Pre_finite_inputs.S_.Idx := ⟨fun _ _ => funext fun d => d.elim0⟩

/-- an extended real whose absolute value max x (-x) compares below the word of +inf is a real number -/
theorem real_of_abs_lt_pinf (x : EReal)
    (h : Ideal.cmp .olt (max x (-x)) (Ideal.ofBits .f32 0x7F800000#32) = 1#1) : ∃ v : ℝ, x = (v : EReal) := by
  rw [ofBits_pinf_f32] at h
  change BitVec.ofBool (decide (max x (-x) < ⊤)) = 1#1 at h
  rw [StableHlo.Predicate.ofBool_eq_one_iff, decide_eq_true_eq, max_lt_iff] at h
  induction x using EReal.rec with
  | bot => exact absurd h.2 (by simp)
  | coe v => exact ⟨v, rfl⟩
  | top => exact absurd h.1 (by simp)

/-- a signed compare "at least zero" that holds says the word's signed value is not negative -/
theorem toInt_nonneg_of_sge (x : BitVec 32) (h : IntOp.cmpi .sge x 0#32 = 1#1) : 0 ≤ x.toInt := by
  unfold IntOp.cmpi at h
  simp only [BitVec.sle, StableHlo.Predicate.ofBool_eq_one_iff, decide_eq_true_eq] at h
  have h0 : (0#32 : BitVec 32).toInt = 0 := by decide
  omega

/-- a signed compare "below 1000" that holds says the word's signed value is below 1000 -/
theorem toInt_lt_of_slt (x : BitVec 32) (h : IntOp.cmpi .slt x 1000#32 = 1#1) : x.toInt < 1000 := by
  unfold IntOp.cmpi at h
  simp only [BitVec.slt, StableHlo.Predicate.ofBool_eq_one_iff, decide_eq_true_eq] at h
  have h0 : (1000#32 : BitVec 32).toInt = 1000 := by decide
  omega

/-- a conjunction of two one-bit arrays that is 1 at an index has both 1 there -/
theorem both_of_andi {s : Shape} (x y : IVec s 1) (i : s.Idx) (h : andi x y i = 1#1) : x i = 1#1 ∧ y i = 1#1 :=
  IntOp.andi_eq_one.1 h

section
open Cert.Pre_finite_inputs

/-- the all-axes conjunction of |x| < +inf being 1 says every entry of x is a real number -/
theorem finite_of_all {s : Shape} {axes : List (Fin s.rank)} (x : s.Idx → EReal) (hb : S_.BroadcastsInDim s (![] : Fin 0 → Fin s.rank))
    (hr : s.ReducesTo axes S_) (h0 : 0 < S_.numel)
    (h : Host.reduce IntOp.andi (cmpf .olt (Host.absf (F := Ideal) (φ := .f32) x)
        (broadcastInDim s ![] hb (constant (F := Ideal) S_ .f32 0x7F800000#32))) (constantI S_ 1 1#1) hr h0 ix0 = 1#1) :
    Finite x := fun i =>
  real_of_abs_lt_pinf (x i) (Host.reduce_andi_all _ _ hr h0 ix0 h i)

end

theorem of_pre [Cert.Pre_finite_inputs.Facts] (e : SEmb.Idx → EReal) (lg : SLog.Idx → EReal) (lab : SLab.Idx → BitVec 32) (cen : SCen.Idx → EReal)
    (h : Cert.Pre_finite_inputs.fn (F := Ideal) e lg lab cen = fun _ => 1#1) :
    Finite e ∧ Finite lg ∧ Finite cen ∧ LabelsInRange lab := by
  have h0 := congrFun h ix0
  dsimp only [Cert.Pre_finite_inputs.fn, Cert.Pre_finite_inputs.fn_part1] at h0
  obtain ⟨h17, h20⟩ := both_of_andi _ _ _ h0
  obtain ⟨h13, h16⟩ := both_of_andi _ _ _ h17
  obtain ⟨h8, h12⟩ := both_of_andi _ _ _ h13
  obtain ⟨h3, h7⟩ := both_of_andi _ _ _ h8
  refine ⟨finite_of_all e _ _ _ h3, finite_of_all lg _ _ _ h7, finite_of_all cen _ _ _ h12, fun r => ⟨?_, ?_⟩⟩
  · exact toInt_nonneg_of_sge _ (Host.reduce_andi_all _ _ _ _ ix0 h16 (ix1 r))
  · exact toInt_lt_of_slt _ (Host.reduce_andi_all _ _ _ _ ix0 h20 (ix1 r))

end Cert.PreFacts

end
-- ==== Proof.BridgeTrip.lean ====
/-
  The triplet loss: the kernel-shaped form equals the reference-shaped form, for any arrays.
  x |-> sqrt (max x eps) is monotone on the extended reals and maps top to top, so it commutes with a row's minimum over the
  negatives and, where a row has a positive, with its maximum over the positives (the columns that are no positive contribute
  sqrt eps, which is below the image of any positive's squared distance); a row has a positive exactly when its label occurs
  at least twice, and a negative exactly when its label does not fill all 4096 rows.
-/
import proofs.«405195_j25804163514703_3_alg».proof.Proof.Spec
import Mathlib.Data.Finset.Fold
import Mathlib.Data.Finset.Card
import Mathlib.Data.Finset.Filter
import Mathlib.Data.Fintype.Card
import Mathlib.Data.EReal.Basic
import Mathlib.Order.MinMax
import Mathlib.Analysis.Real.Sqrt
import Mathlib.Algebra.BigOperators.Ring.Finset

noncomputable section

namespace Cert.Bridge

open Idealize.ShloMosaic Idealize.ShloMosaic.ValueIdx Cert.Spec

/-! ## The root after the floor is monotone and fixes top -/

theorem sqrt_mono : Monotone Ideal.sqrt := by
  intro x y hxy
  induction x using EReal.rec with
  | bot => simp
  | top =>
    have hy : y = ⊤ := top_le_iff.mp hxy
    subst hy; exact le_rfl
  | coe a =>
    induction y using EReal.rec with
    | bot => exact absurd hxy (by simp)
    | top => simp
    | coe b =>
      have hab : a ≤ b := EReal.coe_le_coe_iff.mp hxy
      simp only [Ideal.sqrt_coe]
      split_ifs with h1 h2
      · exact le_rfl
      · exact bot_le
      · exfalso; linarith
      · exact EReal.coe_le_coe_iff.mpr (Real.sqrt_le_sqrt hab)

/-- the root of the squared distance floored at eps -/
def rootF (x : EReal) : EReal := Ideal.sqrt (max x eps)

theorem rootF_mono : Monotone rootF := fun _ _ h => sqrt_mono (max_le_max h le_rfl)

theorem rootF_top : rootF ⊤ = ⊤ := by
  unfold rootF
  rw [max_eq_left le_top]
  rfl

/-! ## A monotone map through a minimum from top and a maximum from bottom -/

theorem map_fold_min {ι : Type} [DecidableEq ι] (f : EReal → EReal) (hf : Monotone f) (htop : f ⊤ = ⊤)
    (s : Finset ι) (g : ι → EReal) :
    f (s.fold min ⊤ g) = s.fold min ⊤ (fun c => f (g c)) := by
  induction s using Finset.induction_on with
  | empty => simp [htop]
  | insert a s ha ih => rw [Finset.fold_insert ha, Finset.fold_insert ha, hf.map_min, ih]

theorem map_fold_max {ι : Type} (f : EReal → EReal) (hf : Monotone f)
    (s : Finset ι) (P : ι → Prop) [DecidablePred P] (g : ι → EReal) (c0 : ι) (hc0 : c0 ∈ s) (hP0 : P c0) :
    s.fold max ⊥ (fun c => if P c then f (g c) else ⊥)
      = f (s.fold max ⊥ (fun c => if P c then g c else ⊥)) := by
  apply le_antisymm
  · refine (Finset.fold_max_le _).mpr ⟨bot_le, fun c hc => ?_⟩
    split_ifs with h
    · exact hf ((Finset.le_fold_max _).mpr (Or.inr ⟨c, hc, by simp [h]⟩))
    · exact bot_le
  · have hbot : f ⊥ ≤ s.fold max ⊥ (fun c => if P c then f (g c) else ⊥) :=
      le_trans (hf (bot_le : (⊥ : EReal) ≤ g c0))
        ((Finset.le_fold_max _).mpr (Or.inr ⟨c0, hc0, le_of_eq (if_pos hP0).symm⟩))
    rcases (Finset.le_fold_max _).mp (le_refl (s.fold max ⊥ (fun c => if P c then g c else ⊥))) with h | ⟨x, hx, h⟩
    · rw [le_bot_iff.mp h]; exact hbot
    · by_cases hPx : P x
      · rw [if_pos hPx] at h
        exact le_trans (hf h) ((Finset.le_fold_max _).mpr (Or.inr ⟨x, hx, by simp [hPx]⟩))
      · rw [if_neg hPx] at h
        rw [le_bot_iff.mp h]; exact hbot

variable (e : SEmb.Idx → EReal) (lab : SLab.Idx → BitVec 32)

/-! ## Validity: the count against existence -/

theorem two_le_cnt_iff (r : Fin 4096) : 2 ≤ cntSame lab r ↔ ∃ c : Fin 4096, isPos lab r c := by
  unfold cntSame isPos
  constructor
  · intro h
    obtain ⟨a, ha, b, hb, hab⟩ := Finset.one_lt_card.mp h
    rw [Finset.mem_filter] at ha hb
    by_cases har : r = a
    · exact ⟨b, hb.2.symm, fun hrb => hab (har.symm.trans hrb)⟩
    · exact ⟨a, ha.2.symm, har⟩
  · rintro ⟨c, hl, hne⟩
    exact Finset.one_lt_card.mpr ⟨r, by simp, c, by simp [hl], hne⟩

theorem cnt_lt_iff (r : Fin 4096) : cntSame lab r < 4096 ↔ ∃ c : Fin 4096, isNeg lab r c := by
  unfold cntSame isNeg
  constructor
  · intro h
    by_contra hno
    push Not at hno
    have hall : (Finset.univ.filter fun t : Fin 4096 => lab (ix1 t) = lab (ix1 r)) = Finset.univ :=
      Finset.filter_true_of_mem (fun t _ => (hno t).symm)
    rw [hall, Finset.card_univ, Fintype.card_fin] at h
    exact lt_irrefl _ h
  · rintro ⟨c, hc⟩
    have hss : (Finset.univ.filter fun t : Fin 4096 => lab (ix1 t) = lab (ix1 r)) ⊂ Finset.univ :=
      Finset.filter_ssubset.mpr ⟨c, Finset.mem_univ c, fun h => hc h.symm⟩
    have := Finset.card_lt_card hss
    rwa [Finset.card_univ, Fintype.card_fin] at this

theorem validK_iff (r : Fin 4096) : validK lab r ↔ validR lab r := by
  unfold validK validR
  rw [two_le_cnt_iff, cnt_lt_iff]

/-! ## The number of valid rows -/

theorem nValid_eq : nValidK lab = nValidR lab := by
  unfold nValidK nValidR
  have hcongr : (∑ r : Fin 4096, (if validK lab r then (1 : EReal) else 0))
      = ∑ r : Fin 4096, (if validR lab r then (1 : EReal) else 0) :=
    Finset.sum_congr rfl (fun r _ => by simp only [validK_iff])
  rw [hcongr, Finset.sum_boole, Nat.cast_max, EReal.coe_strictMono.monotone.map_max, Nat.cast_one, EReal.coe_one,
    EReal.coe_natCast]

/-! ## The hardest negative and the hardest positive -/

theorem negMin_eq (r : Fin 4096) : Ideal.sqrt (max (negMinK e lab r) eps) = hardNegR e lab r := by
  unfold negMinK hardNegR
  have h := map_fold_min rootF rootF_mono rootF_top (Finset.univ : Finset (Fin 4096))
    (fun c => if isNeg lab r c then d2 e r c else ⊤)
  show rootF _ = _
  rw [h]
  congr 1
  funext c
  by_cases hc : isNeg lab r c
  · simp only [if_pos hc]; rfl
  · simp only [if_neg hc]; exact rootF_top

theorem posMax_eq (r : Fin 4096) (hp : ∃ c : Fin 4096, isPos lab r c) :
    Ideal.sqrt (max (posMaxK e lab r) eps) = hardPosR e lab r := by
  obtain ⟨c0, hc0⟩ := hp
  unfold posMaxK hardPosR
  have h := map_fold_max rootF rootF_mono (Finset.univ : Finset (Fin 4096)) (isPos lab r)
    (fun c => d2 e r c) c0 (Finset.mem_univ c0) hc0
  show rootF _ = _
  rw [← h]
  rfl

/-! ## The rows and the mean -/

theorem lossRow_eq (r : Fin 4096) : lossRowK e lab r = lossRowR e lab r := by
  unfold lossRowK lossRowR
  by_cases hv : validR lab r
  · have hk : validK lab r := (validK_iff lab r).mpr hv
    rw [if_pos hk, if_pos hv, if_pos hv, negMin_eq, posMax_eq e lab r hv.1]
  · have hk : ¬ validK lab r := fun h => hv ((validK_iff lab r).mp h)
    rw [if_neg hk, if_neg hv, max_self]

theorem trip_eq : tripK e lab = tripR e lab := by
  unfold tripK tripR
  rw [nValid_eq, Finset.sum_congr rfl (fun r _ => lossRow_eq e lab r)]

end Cert.Bridge

end
-- ==== Proof.BridgeCe.lean ====
/-
  The cross-entropy and the center loss: the kernel-shaped forms equal the reference-shaped forms when the logits and the
  centers are real numbers and every label is a class index. A one-hot row times a vector sums to the vector's entry at the
  label (0 * x = 0 for every extended real x); for real logits every log-probability is real, so the sign moves through the
  sum and the quotient; for real centers the remainder table cen - cen is zero.
-/
import proofs.«405195_j25804163514703_3_alg».proof.Proof.Spec

noncomputable section

namespace Cert.Bridge

open Idealize.ShloMosaic Idealize.ShloMosaic.ValueIdx Cert.Spec

variable (e : SEmb.Idx → EReal) (lg : SLog.Idx → EReal) (lab : SLab.Idx → BitVec 32) (cen : SCen.Idx → EReal)

namespace Ce

/-! ## The one-hot row picks the entry at the label -/

/-- a 32-bit word whose signed value lies in [0, 1000) has that value as its unsigned value -/
theorem word_facts (w : BitVec 32) (h0 : 0 ≤ w.toInt) (h1 : w.toInt < 1000) :
    w.toNat < 1000 ∧ w.toInt = (w.toNat : Int) := by
  have hlt := w.isLt
  rw [BitVec.toInt_eq_toNat_cond] at h0 h1 ⊢
  split_ifs at h0 h1 ⊢ <;> omega

/-- for labels in range, class c is row r's label exactly when c is the clamped label index -/
theorem isLab_iff (hlab : LabelsInRange lab) (r : Fin 4096) (c : Fin 1000) :
    isLab lab r c ↔ c = labIdx lab r := by
  obtain ⟨h0, h1⟩ := hlab r
  obtain ⟨hn, hi⟩ := word_facts _ h0 h1
  unfold isLab labIdx
  have hc := c.isLt
  constructor
  · intro h
    apply Fin.ext
    have h2 : (BitVec.ofNat 32 c.val).toNat = (lab (ix1 r)).toNat := by rw [h]
    rw [BitVec.toNat_ofNat, Nat.mod_eq_of_lt (by omega)] at h2
    simp only [hi]
    omega
  · intro h
    apply BitVec.eq_of_toNat_eq
    rw [BitVec.toNat_ofNat, Nat.mod_eq_of_lt (by omega)]
    have h3 := congrArg Fin.val h
    simp only [hi] at h3
    omega

/-- the one-hot row of r against any vector of extended reals is the vector's entry at r's label:
    1 * x = x and 0 * x = 0 hold for every extended real x -/
theorem onehot_sum (hlab : LabelsInRange lab) (r : Fin 4096) (v : Fin 1000 → EReal) :
    ∑ c : Fin 1000, (if isLab lab r c then (1 : EReal) else 0) * v c = v (labIdx lab r) := by
  rw [Finset.sum_eq_single (labIdx lab r)]
  · rw [if_pos ((isLab_iff lab hlab r _).mpr rfl), one_mul]
  · intro c _ hc
    rw [if_neg (fun h => hc ((isLab_iff lab hlab r c).mp h)), zero_mul]
  · intro h; exact absurd (Finset.mem_univ _) h

/-! ## The two divisors are nonzero reals -/

theorem nRows_eq : nRows = ((4096 : ℝ) : EReal) := by
  simp [nRows, Ideal.ofBits, Ideal.ieee]
  rw [← EReal.coe_mul]
  norm_num

/-- minus moves through the quotient by the number of rows -/
theorem neg_div_nRows (x : EReal) : Ideal.div (-x) nRows = -(Ideal.div x nRows) := by
  rw [nRows_eq, Ideal.div_coe (by norm_num), Ideal.div_coe (by norm_num), EReal.neg_mul]

/-! ## Sums and maxima of reals inside the extended reals -/

/-- the cast of a finite sum of reals is the sum of the casts -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- a fold of max from bottom over reals, over a set that is not empty, is a real -/
theorem fold_max_real {ι : Type*} (s : Finset ι) (g : ι → ℝ) :
    s = ∅ ∨ ∃ v : ℝ, s.fold max ⊥ (fun i => ((g i : ℝ) : EReal)) = (v : EReal) := by
  classical
  induction s using Finset.induction_on with
  | empty => left; rfl
  | insert a s ha ih =>
    right
    rw [Finset.fold_insert ha]
    rcases ih with h | ⟨v, h⟩
    · subst h; exact ⟨g a, by rw [Finset.fold_empty, max_bot_right]⟩
    · exact ⟨max (g a) v, by rw [h]; exact (EReal.coe_strictMono.monotone.map_max).symm⟩

/-! ## Every log-probability of real logits is real -/

theorem rowMax_real (L : SLog.Idx → ℝ) (r : Fin 4096) :
    ∃ m : ℝ, rowMax (fun i => ((L i : ℝ) : EReal)) r = (m : EReal) := by
  unfold rowMax
  rcases fold_max_real (Finset.univ : Finset (Fin 1000)) (fun c => L (ix2 r c)) with h | h
  · exact absurd h (Finset.univ_nonempty (α := Fin 1000)).ne_empty
  · exact h

/-- the shifted logits are real, their exponentials are positive reals, so is the sum of the 1000 of them, and the
    logarithm of a positive real is real -/
theorem logp_real (L : SLog.Idx → ℝ) (r : Fin 4096) (c : Fin 1000) :
    ∃ p : ℝ, logp (fun i => ((L i : ℝ) : EReal)) r c = (p : EReal) := by
  obtain ⟨m, hm⟩ := rowMax_real L r
  unfold logp
  rw [hm]
  simp only [← EReal.coe_sub, Ideal.exp_coe]
  rw [coe_sum, Ideal.log_coe]
  have hpos : 0 < ∑ c' : Fin 1000, Real.exp (L (ix2 r c') - m) :=
    Finset.sum_pos (fun i _ => Real.exp_pos _) ⟨0, Finset.mem_univ _⟩
  rw [if_neg (not_le.mpr hpos), ← EReal.coe_sub]
  exact ⟨_, rfl⟩

/-! ## The cross-entropy -/

theorem ce_eq_real (L : SLog.Idx → ℝ) (hlab : LabelsInRange lab) :
    ceK (fun i => ((L i : ℝ) : EReal)) lab = ceR (fun i => ((L i : ℝ) : EReal)) lab := by
  have hp : ∀ r : Fin 4096, ∃ p : ℝ, logp (fun i => ((L i : ℝ) : EReal)) r (labIdx lab r) = (p : EReal) :=
    fun r => logp_real L r _
  choose P hP using hp
  have hrow : ∀ r, ceRowK (fun i => ((L i : ℝ) : EReal)) lab r = ((-(P r) : ℝ) : EReal) := by
    intro r
    unfold ceRowK
    rw [onehot_sum lab hlab r, zero_sub, hP, EReal.coe_neg]
  unfold ceK ceR
  rw [← neg_div_nRows]
  refine congrArg (Ideal.div · nRows) ?_
  simp only [hrow, hP]
  rw [coe_sum, coe_sum, Finset.sum_neg_distrib, EReal.coe_neg]

end Ce

open Ce in
theorem ce_eq (hlg : Finite lg) (hlab : LabelsInRange lab) : ceK lg lab = ceR lg lab := by
  obtain ⟨L, rfl⟩ : ∃ L : SLog.Idx → ℝ, lg = fun i => ((L i : ℝ) : EReal) :=
    ⟨fun i => (hlg i).choose, funext fun i => (hlg i).choose_spec⟩
  exact ce_eq_real lab L hlab

/-! ## The center loss -/

namespace Ce

/-- a real minus itself is zero -/
theorem sub_self_real (x : EReal) (h : ∃ v : ℝ, x = (v : EReal)) : x - x = 0 := by
  obtain ⟨v, rfl⟩ := h
  rw [← EReal.coe_sub, sub_self, EReal.coe_zero]

/-- the one-hot pick of the centers, plus the pick of the zero table, is the label's center -/
theorem pickK_eq (hcen : Finite cen) (hlab : LabelsInRange lab) (r : Fin 4096) (k : Fin 512) :
    pickK lab cen r k = cen (ix2 (labIdx lab r) k) := by
  unfold pickK
  rw [onehot_sum lab hlab r, onehot_sum lab hlab r, sub_self_real _ (hcen _), add_zero]

end Ce

open Ce in
theorem center_eq (hcen : Finite cen) (hlab : LabelsInRange lab) : centerK e lab cen = centerR e lab cen := by
  unfold centerK centerR
  refine congrArg (Ideal.div · nEntries) ?_
  rw [sum_idx2]
  refine Finset.sum_congr rfl fun r _ => ?_
  unfold centerRowK
  refine Finset.sum_congr rfl fun k _ => ?_
  rw [pickK_eq lab cen hcen hlab]

end Cert.Bridge

end
-- ==== Proof.LibTakeAlong.lean ====
/-
  `stablehlo.gather` as `jnp.take_along_axis(x, idx, axis=1)` lowers it, read at an entry.

  For a matrix `x : [N, C]` and one column index per row, `idx : [N, 1]`, the lowering reshapes the indices to
  `[N, 1, 1]` and gathers with offset_dims `[]`, collapsed_slice_dims `[1]`, operand_batching_dims `[0]`,
  start_indices_batching_dims `[0]`, start_index_map `[1]`, index_vector_dim 2 and slice_sizes `[1, 1]`; the result
  is `[N, 1]`.  Axis 0 of the operand is a batching axis: result entry `(r, 0)` reads row `r` of the operand, the
  row of its own start index.  Axis 1 is the one the start index names: the column is the start index `idx[r, 0, 0]`,
  read as a signed integer and clamped into `[0, C - 1]`, as StableHLO clamps every start index so that the slice
  (here one element) fits.  Both slice sizes are 1, so no offset is added on either axis.

  `takeAlongDims N C wf` is that record of dimension numbers for any `N` and `C`; `gather_takeAlong_apply` reads
  `Host.gather` of it at a result index, and `gather_takeAlong_ix2` is the same at an index given by coordinates.
-/
import Idealize.ShloMosaic.Lib.ValueIdx

noncomputable section

namespace Cert.Proof.LibTakeAlong

open Idealize.ShloMosaic Idealize.ShloMosaic.ValueIdx

variable {α : Type}

/-- The dimension numbers of the batched gather for an operand `[N, C]`, start indices `[N, 1, 1]` and result
    `[N, 1]`. The well-formedness conditions are taken as a hypothesis `wf`, so the record exists for every `N` and `C`
    for which they hold. -/
abbrev takeAlongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[r, 0, 0]` at which result index `(r, 0)` reads its column. -/
abbrev takeAlongIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- On the batching axis the operand coordinate is the result's row. -/
theorem takeAlong_coord0 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 0 + (takeAlongDims N C wf).batchCoord y 0 + (takeAlongDims N C wf).offCoord y 0
      = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (takeAlongDims N C wf).operandBatchingDims from List.mem_singleton.mpr rfl)]
  rfl

/-- On the indexed axis the operand coordinate is the clamped start index. -/
theorem takeAlong_coord1 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 1 + (takeAlongDims N C wf).batchCoord y 1 + (takeAlongDims N C wf).offCoord y 1
      = min (idx (takeAlongIdx y)).toInt.toNat (C - 1) := by
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (takeAlongDims N C wf).startIndexMap from List.mem_singleton.mpr rfl)]
  have hsi : (takeAlongDims N C wf).siIdx y ⟨List.idxOf (1 : Fin 2) (takeAlongDims N C wf).startIndexMap,
      List.idxOf_lt_length_iff.2 (List.mem_singleton.mpr rfl)⟩ = takeAlongIdx y := by
    funext b; refine Fin.ext ?_
    match b with
    | ⟨0, _⟩ => rfl
    | ⟨1, hb⟩ =>
      have h1 : (y 1).val < 1 := idx2_lt1 y
      show (y 1).val = 0
      omega
    | ⟨2, _⟩ => rfl
  rw [hsi]
  rfl

/-- The batched gather at result index `y` is the operand at row `y 0` and at the column given by the start index
    `idx[y 0, 0, 0]`, taken as a signed integer and clamped into `[0, C − 1]`. -/
theorem gather_takeAlong_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeAlongDims N C wf) x idx y
      = x (ix2 (⟨(y 0).val, idx2_lt0 y⟩ : Fin N)
            (⟨min (idx (takeAlongIdx y)).toInt.toNat (C - 1), by omega⟩ : Fin C)) := by
  unfold Host.gather
  congr 1
  funext a
  refine Fin.ext ?_
  match a with
  | ⟨0, _⟩ => exact takeAlong_coord0 wf idx y
  | ⟨1, _⟩ => exact takeAlong_coord1 wf idx y

/-- The same at a result index given by its coordinates: row `r`, and the one column. -/
theorem gather_takeAlong_ix2 {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (r : Fin N) (c : Fin 1) :
    Host.gather (takeAlongDims N C wf) x idx (ix2 r c)
      = x (ix2 r (⟨min (idx (ix3 r (0 : Fin 1) (0 : Fin 1))).toInt.toNat (C - 1), by omega⟩ : Fin C)) := by
  rw [gather_takeAlong_apply hC wf x idx (ix2 r c)]
  have h : takeAlongIdx (ix2 r c) = ix3 r (0 : Fin 1) (0 : Fin 1) := by
    funext b; match b with | ⟨0, _⟩ => rfl | ⟨1, _⟩ => rfl | ⟨2, _⟩ => rfl
  refine congrArg x (funext fun a => Fin.ext ?_)
  match a with
  | ⟨0, _⟩ => rfl
  | ⟨1, _⟩ =>
    show min (idx (takeAlongIdx (ix2 r c))).toInt.toNat (C - 1) = min (idx (ix3 r (0 : Fin 1) (0 : Fin 1))).toInt.toNat (C - 1)
    rw [h]

end Cert.Proof.LibTakeAlong

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.RefCe.lean ====
/-
  The reference's cross-entropy and center loss, read off its operations, are the reference-shaped forms: with every label a class index the index arithmetic of the two gathers (wrap a negative index, test the range, clamp) is the identity.

  Cross-entropy. The log-softmax of a row is computed as: the row maximum folded from minus infinity, a maximum with
  minus infinity again (the identity), the shifted logits, their exponentials, the row sum (zero plus the sum), its
  logarithm, and the difference. The label's entry is picked by a batched gather whose column index is
  select (lab < 0) (lab + 1000) lab, the label itself when 0 ≤ lab; the range mask 0 ≤ idx ≤ 999 is then all ones,
  so the select against the fill value keeps the gathered entry. The mean is zero plus the sum over rows, divided by
  the row count, negated.

  Center loss. The same wrapped label indexes a row gather of the centers; the entries' squared differences are
  summed over every index (zero plus the sum) and divided by the entry count.
-/
import proofs.«405195_j25804163514703_3_alg».proof.Proof.Spec
import proofs.«405195_j25804163514703_3_alg».proof.Proof.RefRead
import proofs.«405195_j25804163514703_3_alg».proof.Proof.LibTakeAlong
import proofs.«405195_j25804163514703_3_alg».proof.Proof.LibIndex

noncomputable section

namespace Cert.RefValue

open Idealize.ShloMosaic Idealize.ShloMosaic.ValueIdx Cert.Spec Cert.ReferenceIdeal Cert.ReferenceIdeal.ReadP

/-! ## Signed compares of a class index, and the wrapped index -/

/-- a non-negative word is not below zero -/
theorem cmpi_slt_zero {x : BitVec 32} (h : 0 ≤ x.toInt) : IntOp.cmpi .slt x 0#32 = 0#1 := by
  unfold IntOp.cmpi
  have hb : x.slt 0#32 = false := by
    simp only [BitVec.slt, BitVec.toInt_zero, decide_eq_false_iff_not, not_lt]; exact h
  rw [hb]; rfl

/-- a non-negative word is at least zero -/
theorem cmpi_sge_zero {x : BitVec 32} (h : 0 ≤ x.toInt) : IntOp.cmpi .sge x 0#32 = 1#1 := by
  unfold IntOp.cmpi
  have hb : (0#32).sle x = true := by
    simp only [BitVec.sle, BitVec.toInt_zero, decide_eq_true_eq]; exact h
  rw [hb]; rfl

/-- a word below 1000 is at most 999 -/
theorem cmpi_sle_999 {x : BitVec 32} (h : x.toInt < 1000) : IntOp.cmpi .sle x 999#32 = 1#1 := by
  unfold IntOp.cmpi
  have h9 : (999#32 : BitVec 32).toInt = 999 := by decide
  have hb : x.sle 999#32 = true := by
    simp only [BitVec.sle, h9, decide_eq_true_eq]; omega
  rw [hb]; rfl

/-- select (x < 0) y x is x for a non-negative x -/
theorem wrap_eq {x : BitVec 32} (h : 0 ≤ x.toInt) (y : BitVec 32) :
    Scalar.select (IntOp.cmpi .slt x 0#32) y x = x := by
  rw [cmpi_slt_zero h]; exact select_zero _ _

theorem idx3_lt0 {n0 n1 n2 : Nat} (j : (⟨3, ![n0, n1, n2]⟩ : Shape).Idx) : (j 0).val < n0 := (j 0).isLt

/-! ## Folds and sums -/

instance : Std.Commutative (IntOp.andi (w := 1)) := ⟨fun x y => BitVec.and_comm x y⟩
instance : Std.Associative (IntOp.andi (w := 1)) := ⟨fun x y z => BitVec.and_assoc x y z⟩

/-- the conjunction, from one, of bits that are all one is one -/
theorem fold_andi_one {ι : Type} [DecidableEq ι] (s : Finset ι) (f : ι → BitVec 1) (h : ∀ k, f k = 1#1) :
    s.fold IntOp.andi 1#1 f = 1#1 := by
  induction s using Finset.induction_on with
  | empty => rfl
  | insert a s ha ih => rw [Finset.fold_insert ha, ih, h]; rfl

/-- a reduce with 'and' over one axis, from one, of a mask that is one everywhere is one -/
theorem and_reduce_one {s t : Shape} {a : Fin s.rank} (h' : s.ReducesTo [a] t) (h : s.Reduces [a] t)
    (hu : 0 < (⟨0, ![]⟩ : Shape).numel)
    (m : s.Idx → BitVec 1) (init : (⟨0, ![]⟩ : Shape).Idx → BitVec 1) (hinit : ∀ i, init i = 1#1)
    (hm : ∀ i, m i = 1#1) (j : t.Idx) :
    Host.reduce IntOp.andi m init h' hu j = 1#1 := by
  rw [Host.reduce_eq_fold_single _ _ _ h' h hu, hinit]
  exact fold_andi_one _ _ (fun k => hm _)

/-- the maximum of a row of the logits, folded from bottom over the row's columns -/
theorem rowMax_reduce (h' : SLog.ReducesTo [1] SLab) (hu : 0 < (⟨0, ![]⟩ : Shape).numel)
    (lg : SLog.Idx → EReal) (init : (⟨0, ![]⟩ : Shape).Idx → EReal) (hinit : ∀ i, init i = ⊥) (r : Fin 4096) :
    Host.reduce (FloatOps.maximumf (F := Ideal) (φ := .f32)) lg init h' hu (ix1 r) = rowMax lg r := by
  have h : SLog.Reduces [1] SLab := by decide
  rw [Host.reduce_eq_fold_single _ _ _ h' h hu, hinit]
  unfold rowMax
  have hfun : (lg ∘ h.lift (ix1 r)) = fun c : Fin 1000 => lg (ix2 r c) :=
    funext fun c => congrArg lg (funext fun a => Fin.ext (by match a with | ⟨0, _⟩ => rfl | ⟨1, _⟩ => rfl))
  rw [hfun]
  rfl

/-- a sum over the indices of a vector is the sum over its one coordinate -/
theorem sum_idx1 {M : Type} [AddCommMonoid M] {n : Nat} (f : (⟨1, ![n]⟩ : Shape).Idx → M) :
    ∑ j : (⟨1, ![n]⟩ : Shape).Idx, f j = ∑ r : Fin n, f (ix1 r) :=
  Fintype.sum_equiv ⟨fun j => (j 0 : Fin n), fun r => ix1 r, fun j => (eq_ix1 j).symm, fun _ => rfl⟩ _ _
    (fun j => congrArg f (eq_ix1 j))

/-! ## The log-softmax -/

section LogSoftmax
variable (lg : SLog.Idx → EReal)

/-- the row maximum, after the maximum with minus infinity -/
theorem call0_v2_eq (r : Fin 4096) : val_main_call0_v2 (F := Ideal) lg (ix1 r) = rowMax lg r := by
  have h0 : val_main_call0_v0 (F := Ideal) lg (ix1 r) = rowMax lg r := by
    unfold val_main_call0_v0
    exact rowMax_reduce _ _ lg _ (fun _ => ofBits_ninf_f32) r
  rw [val_main_call0_v2_apply, val_main_call0_v1_apply, val_main_call0_cst_0_apply, h0]
  show max (Ideal.ofBits .f32 0xFF800000#32) (rowMax lg r) = rowMax lg r
  rw [ofBits_ninf_f32, max_bot_left]

/-- the shifted logit -/
theorem call0_v5_eq (r : Fin 4096) (c : Fin 1000) :
    val_main_call0_v5 (F := Ideal) lg (ix2 r c) = lg (ix2 r c) - rowMax lg r := by
  have hi : idx_main_call0_v3 (idx_main_call0_v4 (ix2 r c)) = ix1 r :=
    funext fun a => by match a with | ⟨0, _⟩ => rfl
  rw [val_main_call0_v5_apply, val_main_call0_v4_apply, val_main_call0_v3_apply, hi, call0_v2_eq]
  rfl

/-- the row sum of the exponentials of the shifted logits -/
theorem call0_v7_eq (r : Fin 4096) :
    val_main_call0_v7 (F := Ideal) lg (ix1 r) = ∑ c : Fin 1000, Ideal.exp (lg (ix2 r c) - rowMax lg r) := by
  rw [val_main_call0_v7_apply, val_main_call0_cst_1_apply]
  show Ideal.ofBits .f32 0x00000000#32 + _ = _
  rw [Ideal.ofBits_zero_f32, zero_add]
  refine Finset.sum_congr rfl fun c _ => ?_
  have hi : idx_main_call0_v7 (ix1 r) c = ix2 r c :=
    funext fun a => by match a with | ⟨0, _⟩ => rfl | ⟨1, _⟩ => rfl
  rw [val_main_call0_v6_apply, hi, call0_v5_eq]
  rfl

/-- the log-softmax at row r and class c -/
theorem main_v0_eq (r : Fin 4096) (c : Fin 1000) : val_main_v0 (F := Ideal) lg (ix2 r c) = logp lg r c := by
  have hi : idx_main_call0_v8 (idx_main_call0_v10 (ix2 r c)) = ix1 r :=
    funext fun a => by match a with | ⟨0, _⟩ => rfl
  rw [val_main_v0_apply, val_main_call0_v10_apply, val_main_call0_v9_apply, val_main_call0_v8_apply, hi,
    call0_v7_eq, call0_v5_eq]
  rfl

end LogSoftmax

/-! ## The label's log-probability -/

section Pick
variable (lg : SLog.Idx → EReal) (lab : SLab.Idx → BitVec 32) (hlab : LabelsInRange lab)
include hlab

/-- the wrapped column index is the label -/
theorem call1_v4_eq (i : S4096x1.Idx) :
    val_main_call1_v4 (F := Ideal) lab i = lab (ix1 ⟨(i 0).val, idx2_lt0 i⟩) := by
  have hi : idx_main_v1 i = ix1 ⟨(i 0).val, idx2_lt0 i⟩ := funext fun a => by match a with | ⟨0, _⟩ => rfl
  rw [val_main_call1_v4_apply, val_main_call1_v1_apply, val_main_call1_v0_apply, val_main_call1_c_apply,
    val_main_v1_apply, hi]
  exact wrap_eq (hlab _).1 _

/-- the same after the reshape to three axes -/
theorem call1_v5_eq (i : S4096x1x1.Idx) :
    val_main_call1_v5 (F := Ideal) lab i = lab (ix1 ⟨(i 0).val, idx3_lt0 i⟩) := by
  rw [val_main_call1_v5_apply, call1_v4_eq lab hlab]
  refine congrArg lab (funext fun a => ?_)
  match a with
  | ⟨0, _⟩ =>
    refine Fin.ext ?_
    have h1 : (i 1).val < 1 := (i 1).isLt
    have h2 : (i 2).val < 1 := (i 2).isLt
    show (((i 0).val * 1 + (i 1).val) * 1 + (i 2).val) / 1 = (i 0).val
    omega

/-- the range test 0 ≤ idx ≤ 999 holds everywhere -/
theorem call1_v11_eq (i : S4096x1x1.Idx) : val_main_call1_v11 (F := Ideal) lab i = 1#1 := by
  rw [val_main_call1_v11_apply, val_main_call1_v7_apply, val_main_call1_v10_apply, val_main_call1_v6_apply,
    val_main_call1_c_2_apply, val_main_call1_v9_apply, val_main_call1_v8_apply, val_main_call1_c_1_apply,
    call1_v5_eq lab hlab, cmpi_sge_zero (hlab _).1, cmpi_sle_999 (hlab _).2]
  rfl

/-- so the mask, its conjunction over the unit axis, is one everywhere -/
theorem call1_v12_eq (j : S4096x1.Idx) : val_main_call1_v12 (F := Ideal) lab j = 1#1 := by
  unfold val_main_call1_v12
  exact and_reduce_one _ (by decide) _ _ _ (fun _ => rfl) (call1_v11_eq lab hlab) j

/-- the gathered entry of row r is the log-probability of the row's label -/
theorem call1_v13_eq (r : Fin 4096) (c : Fin 1) :
    val_main_call1_v13 (F := Ideal) lg lab (ix2 r c) = logp lg r (labIdx lab r) := by
  unfold val_main_call1_v13
  refine (Cert.Proof.LibTakeAlong.gather_takeAlong_ix2 (N := 4096) (C := 1000) (by decide)
    Gen.gather_S4096x1000_S4096x1x1_S4096x1_n_1_0_0_1_2_11_wf (val_main_v0 (F := Ideal) lg)
    (val_main_call1_v5 (F := Ideal) lab) r c).trans ?_
  refine (main_v0_eq lg r _).trans (congrArg (logp lg r) (Fin.ext ?_))
  show min (val_main_call1_v5 (F := Ideal) lab (ix3 r (0 : Fin 1) (0 : Fin 1))).toInt.toNat 999
    = min (lab (ix1 r)).toInt.toNat 999
  rw [call1_v5_eq lab hlab]

/-- the picked log-probability of row r -/
theorem main_v3_eq (r : Fin 4096) : val_main_v3 (F := Ideal) lg lab (ix1 r) = logp lg r (labIdx lab r) := by
  have hi : idx_main_v3 (ix1 r) = ix2 r (0 : Fin 1) :=
    funext fun a => by
      match a with
      | ⟨0, _⟩ => exact Fin.ext (by show r.val / 1 = r.val; omega)
      | ⟨1, _⟩ => rfl
  rw [val_main_v3_apply, val_main_v2_apply, call1_v12_eq lab hlab, select_one, hi, call1_v13_eq lg lab hlab]

end Pick

theorem ref_ce (lg : SLog.Idx → EReal) (lab : SLab.Idx → BitVec 32) (hlab : LabelsInRange lab) :
    ReadP.val_main_v6 (F := Ideal) lg lab = fun _ => ceR lg lab := by
  funext i0
  have hsum : ∑ j : S4096.Idx, val_main_v3 (F := Ideal) lg lab j = ∑ r : Fin 4096, logp lg r (labIdx lab r) :=
    (sum_idx1 _).trans (Finset.sum_congr rfl fun r _ => main_v3_eq lg lab hlab r)
  rw [val_main_v6_apply, val_main_v5_apply, val_main_v4_apply, val_main_cst_apply, val_main_cst_0_apply, hsum]
  show -(Ideal.div (Ideal.ofBits .f32 0x00000000#32 + ∑ r : Fin 4096, logp lg r (labIdx lab r))
    (Ideal.ofBits .f32 0x45800000#32)) = ceR lg lab
  rw [Ideal.ofBits_zero_f32, zero_add]
  rfl

/-! ## The center loss -/

section Center
variable (lab : SLab.Idx → BitVec 32) (hlab : LabelsInRange lab) (cen : SCen.Idx → EReal)
include hlab

/-- the wrapped row index is the label -/
theorem main_v58_eq (r : Fin 4096) : val_main_v58 (F := Ideal) lab (ix1 r) = lab (ix1 r) := by
  rw [val_main_v58_apply, val_main_v55_apply, val_main_v54_apply, val_main_c_16_apply]
  exact wrap_eq (hlab r).1 _

/-- the gathered row of the centers is the row of the label -/
theorem main_v60_eq (t : Fin 4096) (j : Fin 512) :
    val_main_v60 (F := Ideal) lab cen (ix2 t j) = cen (ix2 (labIdx lab t) j) := by
  unfold val_main_v60
  refine (Cert.LibIndex.rowGather_apply (N := 1000) (T := 4096) (C := 512) (by decide)
    Gen.gather_S1000x512_S4096x1_S4096x512_1_0_n_n_0_1_1512_wf cen (val_main_v59 (F := Ideal) lab) t j).trans ?_
  refine congrArg cen (congrArg (fun p => ix2 p j) (Fin.ext ?_))
  have hi : idx_main_v59 (ix2 t (0 : Fin 1)) = ix1 t := funext fun a => by match a with | ⟨0, _⟩ => rfl
  show min (val_main_v59 (F := Ideal) lab (ix2 t (0 : Fin 1))).toInt.toNat 999 = min (lab (ix1 t)).toInt.toNat 999
  rw [val_main_v59_apply, hi, main_v58_eq lab hlab]

end Center

theorem ref_center (e : SEmb.Idx → EReal) (lab : SLab.Idx → BitVec 32) (cen : SCen.Idx → EReal) (hlab : LabelsInRange lab) :
    ReadP.val_main_v64 (F := Ideal) e lab cen = fun _ => centerR e lab cen := by
  funext i0
  have hsum : ∑ j : S4096x512.Idx, val_main_v62 (F := Ideal) e lab cen j
      = ∑ i : SEmb.Idx, (e i - cen (ix2 (labIdx lab ⟨(i 0).val, idx2_lt0 i⟩) ⟨(i 1).val, idx2_lt1 i⟩))
          * (e i - cen (ix2 (labIdx lab ⟨(i 0).val, idx2_lt0 i⟩) ⟨(i 1).val, idx2_lt1 i⟩)) := by
    refine Finset.sum_congr rfl fun j _ => ?_
    obtain ⟨t, k, rfl⟩ : ∃ (t : Fin 4096) (k : Fin 512), j = ix2 t k := ⟨j 0, j 1, eq_ix2 j⟩
    rw [val_main_v62_apply, val_main_v61_apply, main_v60_eq lab hlab cen]
    rfl
  rw [val_main_v64_apply, val_main_v63_apply, val_main_cst_18_apply, val_main_cst_19_apply, hsum]
  show Ideal.div (Ideal.ofBits .f32 0x00000000#32 + _) (Ideal.ofBits .f32 0x4A000000#32) = centerR e lab cen
  rw [Ideal.ofBits_zero_f32, zero_add]
  rfl

end Cert.RefValue

end
-- ==== Proof.RefTrip.lean ====
/-
  The reference's triplet loss, read off its operations, is the reference-shaped form.

  The chain: the rows' sums of squares and the Gram matrix give the squared distances and, floored and rooted, the
  distances; the label comparison and the two coordinate counters give the positive and the negative relation as bits;
  the row maximum of the distances masked to the positives (bottom elsewhere) is the hardest positive, the row minimum of
  those masked to the negatives (top elsewhere) the hardest negative; a row is valid when the 'or' of each relation's bits
  along the row is set; the number of valid rows is the word sum of the widened validity bits, at least one, read as a real;
  the loss is the sum of the valid rows' clamped margins over that number.
-/
import proofs.«405195_j25804163514703_3_alg».proof.Proof.Spec
import proofs.«405195_j25804163514703_3_alg».proof.Proof.RefRead
import Idealize.ShloMosaic.PureOps.Reduce
import Idealize.ShloMosaic.PureOps.Ideal.Laws
import Idealize.ShloMosaic.Lib.ValueIdx
import Mathlib.Data.Finset.Basic
import Mathlib.Data.Finset.Filter
import Mathlib.Data.Finset.Fold
import Mathlib.Data.Finset.Card
import Mathlib.Data.Finset.BooleanAlgebra
import Mathlib.Data.Fintype.Card
import Mathlib.Data.Int.Cast.Basic
import Mathlib.Algebra.BigOperators.Group.Finset.Defs

noncomputable section

namespace Cert.RefValue

open Idealize.ShloMosaic Idealize.ShloMosaic.ValueIdx Cert.Spec Cert.ReferenceIdeal Cert.ReferenceIdeal.Gen Cert.ReferenceIdeal.ReadP

namespace Trip

/-! ## Folds of one-bit 'or' and of word addition -/

instance : Std.Commutative (IntOp.ori (w := 1)) := ⟨fun x y => BitVec.or_comm x y⟩
instance : Std.Associative (IntOp.ori (w := 1)) := ⟨fun x y z => BitVec.or_assoc x y z⟩
instance : Std.Commutative (IntOp.addi (w := 32)) := ⟨fun x y => BitVec.add_comm x y⟩
instance : Std.Associative (IntOp.addi (w := 32)) := ⟨fun x y z => BitVec.add_assoc x y z⟩

/-- a fold of 'or' from the zero bit is the one bit exactly when some term is -/
theorem fold_ori_eq_one_iff {ι : Type} [DecidableEq ι] (s : Finset ι) (f : ι → BitVec 1) :
    s.fold IntOp.ori 0#1 f = 1#1 ↔ ∃ c ∈ s, f c = 1#1 := by
  induction s using Finset.induction_on with
  | empty => simp
  | insert a s ha ih =>
    have key : ∀ x y : BitVec 1, IntOp.ori x y = 1#1 ↔ x = 1#1 ∨ y = 1#1 := by decide
    rw [Finset.fold_insert ha, key, ih]
    constructor
    · rintro (h | ⟨c, hc, h⟩)
      · exact ⟨a, Finset.mem_insert_self a s, h⟩
      · exact ⟨c, Finset.mem_insert_of_mem hc, h⟩
    · rintro ⟨c, hc, h⟩
      rcases Finset.mem_insert.1 hc with rfl | hc
      · exact Or.inl h
      · exact Or.inr ⟨c, hc, h⟩

/-- a fold of word addition from zero of words each one or zero is the count of the ones, as a word -/
theorem fold_addi_indicator {ι : Type} [DecidableEq ι] (s : Finset ι) (p : ι → Prop) [DecidablePred p] :
    s.fold IntOp.addi 0#32 (fun c => if p c then 1#32 else 0#32) = BitVec.ofNat 32 (s.filter p).card := by
  induction s using Finset.induction_on with
  | empty => rfl
  | insert a s ha ih =>
    rw [Finset.fold_insert ha, ih, Finset.filter_insert]
    by_cases h : p a
    · rw [if_pos h, if_pos h, Finset.card_insert_of_notMem (fun hm => ha (Finset.mem_filter.1 hm).1), Nat.add_comm,
        BitVec.ofNat_add]
      rfl
    · rw [if_neg h, if_neg h]
      exact BitVec.zero_add _

/-- the signed maximum with one of a small count, read back as an integer -/
theorem toInt_maxsi_ofNat_one (n : ℕ) (hn : n ≤ 4096) :
    (IntOp.maxsi (BitVec.ofNat 32 n) 1#32).toInt = ((max n 1 : ℕ) : ℤ) := by
  have h1 : (BitVec.ofNat 32 n).toInt = (n : ℤ) := by
    rw [BitVec.toInt_eq_toNat_of_lt (by rw [BitVec.toNat_ofNat]; omega), BitVec.toNat_ofNat]
    omega
  have h2 : (1#32 : BitVec 32).toInt = 1 := by decide
  unfold IntOp.maxsi
  rw [BitVec.slt_eq_decide, h1, h2]
  by_cases h : (1 : ℤ) < (n : ℤ)
  · rw [if_pos (by simpa using h), h1]; congr 1; omega
  · rw [if_neg (by simpa using h), h2]
    have : max n 1 = 1 := by omega
    rw [this]; rfl

/-! ## Reading the one-axis folds at literal shapes -/

theorem fold_op_congr {α β : Type} (op op' : β → β → β) [Std.Commutative op] [Std.Associative op] [Std.Commutative op']
    [Std.Associative op'] (h : op = op') (b : β) (f : α → β) (s : Finset α) : s.fold op b f = s.fold op' b f := by
  subst h; rfl

theorem lift_row (h : S4096x4096.Reduces [1] S4096) (r c : Fin 4096) : h.lift (ix1 r) c = ix2 r c := by
  funext a; apply Fin.ext; match a with | ⟨0, _⟩ => rfl | ⟨1, _⟩ => rfl

/-- the entries of a vector, by coordinate -/
def idxEquiv1 {n : Nat} : Fin n ≃ (⟨1, ![n]⟩ : Shape).Idx :=
  ⟨fun r => ix1 r, fun j => j 0, fun _ => rfl, fun j => (eq_ix1 j).symm⟩

theorem fold_univ_equiv {α β γ : Type} [Fintype α] [Fintype β] (e : α ≃ β) (op : γ → γ → γ) [Std.Commutative op]
    [Std.Associative op] (b : γ) (f : β → γ) :
    (Finset.univ : Finset β).fold op b f = (Finset.univ : Finset α).fold op b (fun a => f (e a)) := by
  rw [← Finset.univ_map_equiv_to_embedding e, Finset.fold_map]; rfl

/-- a reduce along the columns of a square array, at row r: the fold over the columns -/
theorem reduce_row {α : Type} (f : α → α → α) [Std.Commutative f] [Std.Associative f] (x : S4096x4096.Idx → α)
    (init : S_.Idx → α) (r : Fin 4096) :
    Host.reduce f x init reducesTo_S4096x4096_S4096_d1 h_S_ (ix1 r)
      = (Finset.univ : Finset (Fin 4096)).fold f (init ix0) (fun c => x (ix2 r c)) := by
  have h : S4096x4096.Reduces [1] S4096 := by decide
  rw [Host.reduce_eq_fold_single f x init reducesTo_S4096x4096_S4096_d1 h h_S_ (ix1 r)]
  have e1 : init (Shape.Idx.first h_S_) = init ix0 := congrArg init (eq_ix0 _)
  have e2 : (x ∘ h.lift (ix1 r)) = fun c : Fin 4096 => x (ix2 r c) := funext fun c => congrArg x (lift_row h r c)
  rw [e1, e2]
  rfl

/-- a reduce of a vector to a scalar: the fold over its entries -/
theorem reduce_all {α : Type} (f : α → α → α) [Std.Commutative f] [Std.Associative f] (x : S4096.Idx → α)
    (init : S_.Idx → α) (i : S_.Idx) :
    Host.reduce f x init reducesTo_S4096_S_d0 h_S_ i
      = (Finset.univ : Finset (Fin 4096)).fold f (init ix0) (fun r => x (ix1 r)) := by
  rw [Host.reduce_eq_fold, Finset.filter_true_of_mem fun j _ => funext fun b => b.elim0,
    show init (Shape.Idx.first h_S_) = init ix0 from congrArg init (eq_ix0 _)]
  exact fold_univ_equiv (idxEquiv1 (n := 4096)) f _ x

/-- a sum over the indices of a vector is the sum over its coordinates -/
theorem sum_idx1 {M : Type} [AddCommMonoid M] {n : Nat} (f : (⟨1, ![n]⟩ : Shape).Idx → M) :
    ∑ j, f j = ∑ r : Fin n, f (ix1 r) :=
  Fintype.sum_equiv ⟨fun j => j 0, fun r => ix1 r, fun j => (eq_ix1 j).symm, fun _ => rfl⟩ _ _
    (fun j => congrArg f (eq_ix1 j))

/-! ## Bits and selects -/

theorem cmpi_eq_one_iff {w : Nat} (x y : BitVec w) : IntOp.cmpi .eq x y = 1#1 ↔ x = y := by
  show BitVec.ofBool (x == y) = 1#1 ↔ x = y
  by_cases h : x = y
  · subst h; simp
  · have hb : (x == y) = false := by simpa using h
    rw [hb]; simp [h]

theorem andi_eq_one_iff (x y : BitVec 1) : IntOp.andi x y = 1#1 ↔ x = 1#1 ∧ y = 1#1 := by
  revert x y; decide

theorem not_eq_one_iff (x : BitVec 1) : ~~~x = 1#1 ↔ ¬ x = 1#1 := by
  revert x; decide

theorem select_iff {α : Type} {b : BitVec 1} {p : Prop} [Decidable p] (h : b = 1#1 ↔ p) (x y : α) :
    Scalar.select b x y = if p then x else y := by
  unfold Scalar.select
  by_cases hp : p
  · rw [if_pos hp]; exact if_pos (h.2 hp)
  · rw [if_neg hp]; exact if_neg (fun hb => hp (h.1 hb))

section Stages

variable (e : SEmb.Idx → EReal) (lab : SLab.Idx → BitVec 32)

/-! ## The squared distances -/

theorem sq_at (r : Fin 4096) : val_main_v8 (F := Ideal) e (ix1 r) = Spec.sq e r := by
  rw [val_main_v8_apply, val_main_cst_1_apply, Ideal.ofBits_def, Ideal.ofBits_zero_f32, zero_add]
  unfold Spec.sq
  refine Finset.sum_congr rfl fun k _ => ?_
  rw [val_main_v7_apply, Ideal.mulf_def]
  have hi : idx_main_v8 (ix1 r) k = ix2 r k := by
    funext a; match a with | ⟨0, _⟩ => rfl | ⟨1, _⟩ => rfl
  rw [hi]

theorem gram_at (r c : Fin 4096) : val_main_v15 (F := Ideal) e (ix2 r c) = Spec.gram e r c := by
  rw [val_main_v15_apply]
  unfold Spec.gram
  refine Finset.sum_congr rfl fun k _ => ?_
  rw [val_main_v14_apply]
  have hl : lidx_main_v15 (ix2 r c) k = ix2 r k := by
    funext a; match a with | ⟨0, _⟩ => rfl | ⟨1, _⟩ => rfl
  have hr : idx_main_v14 (ridx_main_v15 (ix2 r c) k) = ix2 c k := by
    funext a; match a with | ⟨0, _⟩ => rfl | ⟨1, _⟩ => rfl
  rw [hl, hr]

theorem dist_at (r c : Fin 4096) : val_main_v21 (F := Ideal) e (ix2 r c) = Spec.dist e r c := by
  have h1 : idx_main_v9 (idx_main_v11 (ix2 r c)) = ix1 r := by
    funext a; match a with | ⟨0, _⟩ => rfl
  have h2 : idx_main_v10 (idx_main_v12 (ix2 r c)) = ix1 c := by
    funext a; match a with | ⟨0, _⟩ => rfl
  rw [val_main_v21_apply, Ideal.hostUnary_sqrt_def, val_main_v20_apply, Ideal.maximumf_def, val_main_v18_apply,
    Ideal.subf_def, val_main_v13_apply, Ideal.addf_def, val_main_v11_apply, val_main_v9_apply, val_main_v12_apply,
    val_main_v10_apply, val_main_v17_apply, Ideal.mulf_def, val_main_v16_apply, val_main_cst_2_apply, val_main_v19_apply,
    val_main_cst_3_apply, h1, h2, sq_at, sq_at, gram_at]
  rfl

/-! ## The label relations as bits -/

theorem same_bit (r c : Fin 4096) : val_main_v26 (F := Ideal) lab (ix2 r c) = 1#1 ↔ lab (ix1 r) = lab (ix1 c) := by
  have h1 : idx_main_v22 (idx_main_v24 (ix2 r c)) = ix1 r := by
    funext a; match a with | ⟨0, _⟩ => rfl
  have h2 : idx_main_v23 (idx_main_v25 (ix2 r c)) = ix1 c := by
    funext a; match a with | ⟨0, _⟩ => rfl
  rw [val_main_v26_apply, val_main_v24_apply, val_main_v22_apply, val_main_v25_apply, val_main_v23_apply, h1, h2]
  exact cmpi_eq_one_iff _ _

theorem diag_bit (r c : Fin 4096) : val_main_v31 (F := Ideal) (ix2 r c) = 1#1 ↔ r = c := by
  rw [val_main_v31_apply, val_main_v30_apply, val_main_v27_apply, val_main_v28_apply, val_main_v29_apply, val_main_c_apply,
    cmpi_eq_one_iff]
  show BitVec.ofNat 32 r.val + 0#32 = BitVec.ofNat 32 c.val ↔ r = c
  rw [BitVec.add_zero]
  constructor
  · intro h
    have hv := congrArg BitVec.toNat h
    have hr := r.isLt
    have hc := c.isLt
    rw [BitVec.toNat_ofNat, BitVec.toNat_ofNat, Nat.mod_eq_of_lt (by omega), Nat.mod_eq_of_lt (by omega)] at hv
    exact Fin.ext hv
  · rintro rfl; rfl

theorem pos_bit (r c : Fin 4096) : val_main_v33 (F := Ideal) lab (ix2 r c) = 1#1 ↔ isPos lab r c := by
  rw [val_main_v33_apply, andi_eq_one_iff, val_main_v32_apply, not_eq_one_iff, same_bit, diag_bit]
  rfl

theorem neg_bit (r c : Fin 4096) : val_main_v34 (F := Ideal) lab (ix2 r c) = 1#1 ↔ isNeg lab r c := by
  rw [val_main_v34_apply, not_eq_one_iff, same_bit]
  rfl

/-! ## The hardest positive and negative -/

theorem hardPos_at (r : Fin 4096) : val_main_v36 (F := Ideal) e lab (ix1 r) = hardPosR e lab r := by
  unfold val_main_v36
  refine (reduce_row FloatOps.maximumf _ _ r).trans ?_
  unfold hardPosR
  rw [val_main_cst_5_apply, Ideal.ofBits_def, ofBits_ninf_f32]
  refine (fold_op_congr _ max rfl _ _ _).trans (Finset.fold_congr fun c _ => ?_)
  rw [val_main_v35_apply, select_iff (pos_bit lab r c), dist_at, val_main_call2_v1_apply, val_main_call2_v0_apply,
    val_main_cst_4_apply, Ideal.ofBits_def, ofBits_ninf_f32]

theorem hardNeg_at (r : Fin 4096) : val_main_v38 (F := Ideal) e lab (ix1 r) = hardNegR e lab r := by
  unfold val_main_v38
  refine (reduce_row FloatOps.minimumf _ _ r).trans ?_
  unfold hardNegR
  rw [val_main_cst_7_apply, Ideal.ofBits_def, ofBits_pinf_f32]
  refine (fold_op_congr _ min rfl _ _ _).trans (Finset.fold_congr fun c _ => ?_)
  rw [val_main_v37_apply, select_iff (neg_bit lab r c), dist_at, val_main_call3_v1_apply, val_main_call3_v0_apply,
    val_main_cst_6_apply, Ideal.ofBits_def, ofBits_pinf_f32]

/-! ## Validity -/

theorem any_pos (r : Fin 4096) : val_main_v39 (F := Ideal) lab (ix1 r) = 1#1 ↔ ∃ c : Fin 4096, isPos lab r c := by
  unfold val_main_v39
  rw [reduce_row IntOp.ori _ _ r, val_main_c_8_apply, fold_ori_eq_one_iff]
  constructor
  · rintro ⟨c, _, h⟩; exact ⟨c, (pos_bit lab r c).1 h⟩
  · rintro ⟨c, h⟩; exact ⟨c, Finset.mem_univ c, (pos_bit lab r c).2 h⟩

theorem any_neg (r : Fin 4096) : val_main_v40 (F := Ideal) lab (ix1 r) = 1#1 ↔ ∃ c : Fin 4096, isNeg lab r c := by
  unfold val_main_v40
  rw [reduce_row IntOp.ori _ _ r, val_main_c_9_apply, fold_ori_eq_one_iff]
  constructor
  · rintro ⟨c, _, h⟩; exact ⟨c, (neg_bit lab r c).1 h⟩
  · rintro ⟨c, h⟩; exact ⟨c, Finset.mem_univ c, (neg_bit lab r c).2 h⟩

theorem valid_bit (r : Fin 4096) : val_main_v41 (F := Ideal) lab (ix1 r) = 1#1 ↔ validR lab r := by
  rw [val_main_v41_apply, andi_eq_one_iff, any_pos, any_neg]
  rfl

/-! ## The number of valid rows -/

theorem valid_word (r : Fin 4096) :
    val_main_v47 (F := Ideal) lab (ix1 r) = if validR lab r then 1#32 else 0#32 := by
  rw [val_main_v47_apply]
  by_cases h : validR lab r
  · rw [if_pos h, (valid_bit lab r).2 h]; rfl
  · rw [if_neg h, eq_zero_of_ne_one (fun hb => h ((valid_bit lab r).1 hb))]; rfl

theorem count_at (i : S_.Idx) :
    val_main_v48 (F := Ideal) lab i = BitVec.ofNat 32 (Finset.univ.filter fun r : Fin 4096 => validR lab r).card := by
  unfold val_main_v48
  rw [reduce_all IntOp.addi _ _ i, val_main_c_12_apply,
    show (fun r : Fin 4096 => val_main_v47 (F := Ideal) lab (ix1 r)) = fun r => if validR lab r then 1#32 else 0#32 from
      funext (valid_word lab)]
  exact fold_addi_indicator _ _

theorem nValid_at (i : S_.Idx) : val_main_v50 (F := Ideal) lab i = nValidR lab := by
  rw [val_main_v50_apply, val_main_v49_apply, val_main_c_13_apply, count_at]
  show (((IntOp.maxsi (BitVec.ofNat 32 _) 1#32).toInt : ℝ) : EReal) = _
  rw [toInt_maxsi_ofNat_one _ (le_of_le_of_eq (Finset.card_le_univ _) (Fintype.card_fin 4096)), Int.cast_natCast]
  rfl

/-! ## The rows' losses, their sum and the quotient -/

theorem lossRow_at (r : Fin 4096) : val_main_v51 (F := Ideal) e lab (ix1 r) = lossRowR e lab r := by
  rw [val_main_v51_apply, select_iff (valid_bit lab r), val_main_v46_apply, Ideal.maximumf_def, val_main_v45_apply,
    select_iff (valid_bit lab r), val_main_v44_apply, Ideal.addf_def, val_main_v42_apply, Ideal.subf_def, hardPos_at,
    hardNeg_at, val_main_v43_apply, val_main_cst_10_apply, val_main_call4_v1_apply, val_main_call4_v0_apply,
    val_main_cst_11_apply, val_main_call5_v0_apply, val_main_call5_cst_apply, val_main_call6_v1_apply,
    val_main_call6_v0_apply, val_main_cst_14_apply]
  simp only [Ideal.ofBits_def, Ideal.ofBits_zero_f32]
  rfl

theorem sum_at (i : S_.Idx) : val_main_v52 (F := Ideal) e lab i = ∑ r : Fin 4096, lossRowR e lab r := by
  rw [val_main_v52_apply, val_main_cst_15_apply, Ideal.ofBits_def, Ideal.ofBits_zero_f32, zero_add, sum_idx1]
  exact Finset.sum_congr rfl fun r _ => lossRow_at e lab r

end Stages

end Trip

open Trip in
theorem ref_trip (e : SEmb.Idx → EReal) (lab : SLab.Idx → BitVec 32) :
    ReadP.val_main_v53 (F := Ideal) e lab = fun _ => tripR e lab := by
  funext i
  rw [val_main_v53_apply, Ideal.hostDivf_def, sum_at, nValid_at]
  rfl

end Cert.RefValue

end
-- ==== Proof.RefTotal.lean ====
/-
  The reference's three results are the reference-shaped forms: the cross-entropy, the triplet loss, and the total
  0.2w * ce + 0.7w * trip + 0.1w * center over the three weight words.
-/
import proofs.«405195_j25804163514703_3_alg».proof.Proof.Spec
import proofs.«405195_j25804163514703_3_alg».proof.Proof.RefCe
import proofs.«405195_j25804163514703_3_alg».proof.Proof.RefTrip
import proofs.«405195_j25804163514703_3_alg».proof.Proof.RefRead

noncomputable section

namespace Cert.RefValue

open Idealize.ShloMosaic Idealize.ShloMosaic.ValueIdx Cert.Spec Cert.ReferenceIdeal Cert.ReferenceIdeal.ReadP

theorem ref_total (e : SEmb.Idx → EReal) (lg : SLog.Idx → EReal) (lab : SLab.Idx → BitVec 32) (cen : SCen.Idx → EReal)
    (hlab : LabelsInRange lab) :
    ReadP.val_main_v69 (F := Ideal) e lg lab cen = fun _ => totalR e lg lab cen := by
  funext i
  rw [val_main_v69_apply, val_main_v67_apply, val_main_v68_apply, val_main_v65_apply, val_main_v66_apply,
    ref_ce lg lab hlab, ref_trip e lab, ref_center e lab cen hlab]
  rfl

end Cert.RefValue

end
-- ==== Proof.LibVecGather.lean ====
/-
  Reading a gather of scalars, and two small broadcasts, at an index.
  `x[idx]` of a flat array `x : [N]` at an index column `idx : [T, 1]` lowers to a gather whose result element `t` is the
  operand at the start index `idx[t, 0]`, read signed and clamped into `[0, N − 1]` (a negative index reads entry `0`,
  an index past the end reads the last entry). A vector broadcast to a one-column matrix along axis 0 reads, at `(t, z)`,
  the vector at `t`. A one-element vector broadcast to `[1, 1]` and on to `[N, 1]` reads its one element everywhere.
-/
import Idealize.ShloMosaic.PureOps.Ideal
import Idealize.ShloMosaic.Lib.ValueIdx
import Idealize.ShloMosaic.Lib.Pipeline.Value

noncomputable section

namespace Cert.LibVecGather

open Idealize.ShloMosaic Idealize.ShloMosaic.ValueIdx

/-- The dimension numbers of a gather of scalars: operand `[N]`, indices `[T, 1]`, result `[T]`; result element `t` is the
    operand's entry at the start index `idx[t, 0]` (slice size `[1]`, the one operand axis collapsed). -/
abbrev vecGatherDims (N T : Nat)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result position `t` reads its start index at `(t, 0)`: the result's one axis is a batch axis and supplies the indices'
    axis 0; the index vector (axis 1, of extent 1) has only the component `0`. -/
theorem vecGather_siIdx {N T : Nat} (wf : GatherDims.WF ⟨1, ![N]⟩ ⟨2, ![T, 1]⟩ ⟨1, ![T]⟩ [] [0] [] [0] [] 1 ![1])
    (t : Fin T) (c : Fin (vecGatherDims N T wf).startIndexMap.length) :
    (vecGatherDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- THE GATHER OF SCALARS READ AT `t`: the operand at the start index `idx[t, 0]`, read signed and clamped into `[0, N − 1]`. -/
theorem vecGather_apply {α : Type} {N T w : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (t : Fin T) :
    Host.gather (vecGatherDims N T wf) x idx (ix1 t)
      = x (ix1 (⟨min (idx (ix2 t (0 : Fin 1))).toInt.toNat (N - 1), by omega⟩ : Fin N)) := by
  unfold Host.gather
  congr 1
  funext a
  obtain rfl : a = 0 := Subsingleton.elim _ _
  refine Fin.ext ?_
  -- the operand's one coordinate is slice start + batching coordinate + offset; the last two are 0
  show (vecGatherDims N T wf).start (ix1 t) idx 0 + (vecGatherDims N T wf).batchCoord (ix1 t) 0
      + (vecGatherDims N T wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl),
    vecGather_siIdx]
  rfl

/-- A vector of `T ≠ 1` entries broadcast along axis 0 to a `[T, 1]` column reads, at `(t, z)`, its entry `t`. -/
theorem column_apply {α : Type} {T : Nat} (hT : T ≠ 1)
    (h : (⟨1, ![T]⟩ : Shape).BroadcastsInDim ⟨2, ![T, 1]⟩ (![0] : Fin 1 → Fin 2))
    (v : (⟨1, ![T]⟩ : Shape).Idx → α) (t : Fin T) (z : Fin 1) :
    broadcastInDim ⟨2, ![T, 1]⟩ ![0] h v (ix2 t z) = v (ix1 t) :=
  broadcastInDim_apply _ h v (ix2 t z) (ix1 t) (fun a => match a with
    | ⟨0, _⟩ => by show t.val = if T = 1 then 0 else t.val; rw [if_neg hT])

/-- A one-element vector broadcast to `[1, 1]` (as the column axis) and then to `[N, 1]` reads its element everywhere. -/
theorem bias_apply {α : Type} {N : Nat}
    (h1 : (⟨1, ![1]⟩ : Shape).BroadcastsInDim ⟨2, ![1, 1]⟩ (![1] : Fin 1 → Fin 2))
    (h2 : (⟨2, ![1, 1]⟩ : Shape).BroadcastsInDim ⟨2, ![N, 1]⟩ (![0, 1] : Fin 2 → Fin 2))
    (b : (⟨1, ![1]⟩ : Shape).Idx → α) (i : (⟨2, ![N, 1]⟩ : Shape).Idx) :
    broadcastInDim ⟨2, ![N, 1]⟩ ![0, 1] h2 (broadcastInDim ⟨2, ![1, 1]⟩ ![1] h1 b) i = b (ix1 (0 : Fin 1)) := by
  rw [broadcastInDim_apply _ h2 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ h1 b _ (ix1 (0 : Fin 1)) (fun a => match a with
    | ⟨0, _⟩ => by show 0 = if (1 : Nat) = 1 then 0 else ((ix2 (0 : Fin 1) (0 : Fin 1)) 1).val; rw [if_pos rfl])

end Cert.LibVecGather

end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.KHost.lean ====
/-
  The arrays the kernel's region finds, read at an index: what the host operations before the launch compute from the four
  argument arrays. The row sums of squares as a column and as a row, the labels as a column and as a row, the validity flag
  of each row (its label occurs at least twice and not in all rows, counted by an accumulating scatter of ones and read back by
  a gather at the label), the centers and their remainder table, the embeddings and their transpose.
-/
import proofs.«405195_j25804163514703_3_alg».proof.Proof.Spec
import proofs.«405195_j25804163514703_3_alg».proof.Proof.LibIndex
import proofs.«405195_j25804163514703_3_alg».proof.Proof.LibVecGather
import proofs.«405195_j25804163514703_3_alg».proof.Proof.LibSlice
import proofs.«405195_j25804163514703_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.Lib.IdealHost

noncomputable section

namespace Cert.KHost

open Idealize.ShloMosaic Idealize.ShloMosaic.ValueIdx Idealize.ShloMosaic.TcCoe Idealize.SL.Sem Cert.Spec Cert.KernelIdeal Cert.KernelIdeal.Gen

variable (m : (ℓ : Loc nD τ sig) → Buf (Elt Ideal) ℓ)

/-- the four argument arrays of core c, as the specification's arrays -/
abbrev embOf (c : Dev nD) : SEmb.Idx → EReal := m ((c : Thread nD τ).loc main_arg0)
abbrev logOf (c : Dev nD) : SLog.Idx → EReal := m ((c : Thread nD τ).loc main_arg1)
abbrev labOf (c : Dev nD) : SLab.Idx → BitVec 32 := m ((c : Thread nD τ).loc main_arg2)
abbrev cenOf (c : Dev nD) : SCen.Idx → EReal := m ((c : Thread nD τ).loc main_arg3)

/-- the inserted index of the row reduction: row r, column k -/
private theorem lift_row (h : S4096x512.Reduces [1] S4096) (r : Fin 4096) (k : Fin 512) :
    h.lift (ix1 r) k = ix2 r k := by
  funext a
  refine Fin.ext ?_
  match a with
  | ⟨0, _⟩ => rfl
  | ⟨1, _⟩ => rfl

/-- the row sums of squares as a vector: the reduction over the columns of the elementwise square, from the zero word -/
private theorem sqVec_apply (e : S4096x512.Idx → EReal) (r : Fin 4096) :
    (Host.reduceAdd (F := Ideal) (mulf (F := Ideal) (φ := .f32) e e) (constant (F := Ideal) S_ .f32 0x00000000#32)
        reducesTo_S4096x512_S4096_d1 h_S_ : S4096.Idx → EReal) (ix1 r) = sq e r := by
  have hR : S4096x512.Reduces [1] S4096 := by decide
  rw [hostReduceAdd_apply, Ideal.hostReduceAdd_single _ hR, constant_apply, Ideal.ofBits_zero_f32, zero_add]
  unfold Spec.sq
  refine Finset.sum_congr rfl (fun k _ => ?_)
  exact congrArg (fun i => e i * e i) (lift_row hR r k)

theorem V_sqCol (c : Dev nD) (r : Fin 4096) :
    (V m c main_v2 : S4096x1.Idx → EReal) (ix2 r (0 : Fin 1)) = sq (embOf m c) r := by
  have e : (V m c main_v2 : S4096x1.Idx → EReal)
      = shapeCast S4096x1 (Host.reduceAdd (F := Ideal) (mulf (F := Ideal) (embOf m c) (embOf m c))
          (constant (F := Ideal) S_ .f32 0x00000000#32) reducesTo_S4096x512_S4096_d1 h_S_) shapeCasts_S4096_S4096x1 := by
    show StableHlo.after hostOps0 (fun b => m (c, b)) (Proc.devRef .tc main_v2) = _
    after_results
    rfl
  rw [e, Cert.LibSlice.col_of_vec_apply]
  exact sqVec_apply (embOf m c) r

theorem V_sqRow (c : Dev nD) (r : Fin 4096) :
    (V m c main_v3 : S1x4096.Idx → EReal) (ix2 (0 : Fin 1) r) = sq (embOf m c) r := by
  have e : (V m c main_v3 : S1x4096.Idx → EReal)
      = shapeCast S1x4096 (Host.reduceAdd (F := Ideal) (mulf (F := Ideal) (embOf m c) (embOf m c))
          (constant (F := Ideal) S_ .f32 0x00000000#32) reducesTo_S4096x512_S4096_d1 h_S_) shapeCasts_S4096_S1x4096 := by
    show StableHlo.after hostOps0 (fun b => m (c, b)) (Proc.devRef .tc main_v3) = _
    after_results
    rfl
  rw [e, Cert.LibSlice.row_of_vec_apply]
  exact sqVec_apply (embOf m c) r

theorem V_labCol (c : Dev nD) (r : Fin 4096) :
    (V m c main_v4 : S4096x1.Idx → BitVec 32) (ix2 r (0 : Fin 1)) = labOf m c (ix1 r) := by
  have e : (V m c main_v4 : S4096x1.Idx → BitVec 32)
      = shapeCast S4096x1 (labOf m c) shapeCasts_S4096_S4096x1 := by
    show StableHlo.after hostOps0 (fun b => m (c, b)) (Proc.devRef .tc main_v4) = _
    after_results
    rfl
  rw [e]
  exact Cert.LibSlice.col_of_vec_apply _ _ r

theorem V_labRow (c : Dev nD) (r : Fin 4096) :
    (V m c main_v5 : S1x4096.Idx → BitVec 32) (ix2 (0 : Fin 1) r) = labOf m c (ix1 r) := by
  have e : (V m c main_v5 : S1x4096.Idx → BitVec 32)
      = shapeCast S1x4096 (labOf m c) shapeCasts_S4096_S1x4096 := by
    show StableHlo.after hostOps0 (fun b => m (c, b)) (Proc.devRef .tc main_v5) = _
    after_results
    rfl
  rw [e]
  exact Cert.LibSlice.row_of_vec_apply _ _ r

/-! ## An accumulating scatter of words, read at an index -/

/-- AN ACCUMULATING SCATTER OF WORDS READ AT i: the operand's entry plus the sum of the updates whose position lands on i.
    The scatter is the left fold, over the update positions in order, of "add the update at its landing position, drop it
    when it has none"; by induction on the list of positions, for any start value. Addition of words is associative, and a
    position that lands elsewhere leaves entry i as it was, so entry i collects exactly the updates landing on it. -/
private theorem scatterAdd_apply {s si u : Shape} {w : Nat} (d : ScatterDims s si u) (x : s.Idx → BitVec 32) (idx : IVec si w)
    (upd : u.Idx → BitVec 32) (i : s.Idx) :
    Host.scatter d IntOp.addi x idx upd i
      = x i + (((List.finRange u.numel).filter (fun n => decide (d.resultIdx? (u.rowMajor.symm n) idx = some i))).map
          (fun n => upd (u.rowMajor.symm n))).sum := by
  unfold Host.scatter
  generalize List.finRange u.numel = L
  induction L generalizing x with
  | nil => simp
  | cons n L ih =>
    rw [List.foldl_cons, ih]
    cases hn : d.resultIdx? (u.rowMajor.symm n) idx with
    | none =>
      simp [List.filter_cons, hn]
    | some i0 =>
      by_cases hi : i = i0
      · subst hi
        simp [List.filter_cons, hn, IntOp.addi, BitVec.add_assoc]
      · have hne : ¬ (some i0 = some i) := fun h => hi (Option.some.inj h).symm
        simp [List.filter_cons, hn, hi, hne]

/-- A sum of ones is the number of terms, as a word. -/
private theorem sum_map_one {κ : Type} (L : List κ) : (L.map (fun _ => (1#32 : BitVec 32))).sum = BitVec.ofNat 32 L.length := by
  induction L with
  | nil => rfl
  | cons n L ih =>
    rw [List.map_cons, List.sum_cons, ih, List.length_cons]
    apply BitVec.eq_of_toNat_eq
    simp only [BitVec.toNat_add, BitVec.toNat_ofNat]
    omega

/-- The positions of a range that satisfy a predicate, counted as a list and as a finite set. -/
private theorem length_filter_finRange {N : Nat} (p : Fin N → Prop) [DecidablePred p] :
    ((List.finRange N).filter (fun n => decide (p n))).length = (Finset.univ.filter p).card := by
  rw [← List.toFinset_card_of_nodup ((List.nodup_finRange N).filter _), List.toFinset_filter, List.toFinset_finRange]
  congr 1
  ext n
  simp

/-- The scatter's printed record is the scatter of scalars: operand [1000], indices [4096, 1], updates [4096]. -/
private theorem scatter_eq :
    scatter_S1000_S4096x1_S4096_n_0_0_1 = Cert.LibIndex.vecScatterDims 1000 4096 scatter_S1000_S4096x1_S4096_n_0_0_1_wf := rfl

/-- The gather's printed record is the gather of scalars: operand [1000], indices [4096, 1], result [4096]. -/
private theorem gather_eq :
    gather_S1000_S4096x1_S4096_n_0_n_n_0_1_1 = Cert.LibVecGather.vecGatherDims 1000 4096 gather_S1000_S4096x1_S4096_n_0_n_n_0_1_1_wf := rfl

/-- THE COUNTING SCATTER READ AT n: zeros, plus a one for every update position whose start index, read signed, is n:
    the number of such positions as a word. -/
private theorem countScatter_apply (idx : IVec S4096x1 32) (n : Fin 1000) :
    Host.scatter scatter_S1000_S4096x1_S4096_n_0_0_1 IntOp.addi
        (broadcastInDim S1000 ![] bcast_S_S1000 (constantI S_ 32 0#32))
        idx
        (broadcastInDim S4096 ![] bcast_S_S4096 (constantI S_ 32 1#32)) (ix1 n)
      = BitVec.ofNat 32 (Finset.univ.filter (fun t : Fin 4096 => (idx (ix2 t (0 : Fin 1))).toInt = (n.val : Int))).card := by
  rw [scatterAdd_apply]
  -- every update is the one word, the start value the zero word
  rw [show (fun k : Fin S4096.numel => (broadcastInDim S4096 ![] bcast_S_S4096 (constantI S_ 32 1#32) : IVec S4096 32)
        (S4096.rowMajor.symm k)) = fun _ => 1#32 from funext fun k => broadcastInDim_scalar_apply _ _ _,
    sum_map_one, broadcastInDim_scalar_apply, constantI_apply, BitVec.zero_add,
    length_filter_finRange (fun k => scatter_S1000_S4096x1_S4096_n_0_0_1.resultIdx? (S4096.rowMajor.symm k) idx = some (ix1 n))]
  congr 1
  -- an update position is its one coordinate t, and it lands on n exactly when the start index at t is n
  refine Finset.card_nbij' (fun k => ((S4096.rowMajor.symm k) 0 : Fin 4096)) (fun t => S4096.rowMajor (ix1 t)) ?_ ?_ ?_ ?_
  · intro k hk
    have hk' := (Finset.mem_filter.mp (Finset.mem_coe.mp hk)).2
    rw [eq_ix1 (S4096.rowMajor.symm k), scatter_eq] at hk'
    exact Finset.mem_coe.mpr (Finset.mem_filter.mpr ⟨Finset.mem_univ _, (Cert.LibIndex.vecScatter_lands_iff _ idx _ n).mp hk'⟩)
  · intro t ht
    have ht' := (Finset.mem_filter.mp (Finset.mem_coe.mp ht)).2
    refine Finset.mem_coe.mpr (Finset.mem_filter.mpr ⟨Finset.mem_univ _, ?_⟩)
    rw [Equiv.symm_apply_apply, scatter_eq]
    exact (Cert.LibIndex.vecScatter_lands_iff _ idx t n).mpr ht'
  · intro k _
    exact (congrArg S4096.rowMajor (eq_ix1 (S4096.rowMajor.symm k)).symm).trans (Equiv.apply_symm_apply _ _)
  · intro t _
    exact congrFun (Equiv.symm_apply_apply S4096.rowMajor (ix1 t)) 0

/-! ## The validity flag -/

/-- The index column the scatter and the gather read: the label, a negative one raised by the class count, as a column. -/
private def idxCol (lab : IVec S4096 32) : IVec S4096x1 32 :=
  broadcastInDim S4096x1 ![0] bcast_S4096_S4096x1_0
    (select (cmpi .slt lab (broadcastInDim S4096 ![] bcast_S_S4096 (constantI S_ 32 0#32)))
      (addi lab (broadcastInDim S4096 ![] bcast_S_S4096 (constantI S_ 32 1000#32))) lab)

/-- How many rows carry each class: zeros, with a one added at every row's label. -/
private def counts (lab : IVec S4096 32) : IVec S1000 32 :=
  Host.scatter scatter_S1000_S4096x1_S4096_n_0_0_1 IntOp.addi
    (broadcastInDim S1000 ![] bcast_S_S1000 (constantI S_ 32 0#32)) (idxCol lab)
    (broadcastInDim S4096 ![] bcast_S_S4096 (constantI S_ 32 1#32))

/-- Each row's count: the counts read back at the row's label. -/
private def labelCounts (lab : IVec S4096 32) : IVec S4096 32 :=
  Host.gather gather_S1000_S4096x1_S4096_n_0_n_n_0_1_1 (counts lab) (idxCol lab)

/-- The flag as a bit: the count is at least 2 and below 4096. -/
private def validBits (lab : IVec S4096 32) : IVec S4096 1 :=
  andi (cmpi .sge (labelCounts lab) (broadcastInDim S4096 ![] bcast_S_S4096 (constantI S_ 32 2#32)))
    (cmpi .slt (labelCounts lab) (broadcastInDim S4096 ![] bcast_S_S4096 (constantI S_ 32 4096#32)))

/-- A label that is a class index is not negative, so the index column holds the label itself. -/
private theorem idxCol_apply (lab : IVec S4096 32) (hlab : LabelsInRange lab) (t : Fin 4096) :
    idxCol lab (ix2 t (0 : Fin 1)) = lab (ix1 t) := by
  unfold idxCol
  rw [Cert.LibVecGather.column_apply (by decide) bcast_S4096_S4096x1_0 _ t (0 : Fin 1), select_apply]
  unfold Scalar.select
  rw [if_neg]
  intro h
  have h0 := (hlab t).1
  have h' : IntOp.cmpi .slt (lab (ix1 t)) (0#32) = 1#1 := h
  simp only [IntOp.cmpi, StableHlo.Predicate.ofBool_eq_one_iff, BitVec.slt, decide_eq_true_eq] at h'
  have hz : (0#32 : BitVec 32).toInt = 0 := by decide
  omega

/-- Each row's count is the number of rows with its label, as a word. -/
private theorem labelCounts_apply (lab : IVec S4096 32) (hlab : LabelsInRange lab) (r : Fin 4096) :
    labelCounts lab (ix1 r) = BitVec.ofNat 32 (cntSame lab r) := by
  unfold labelCounts counts
  rw [gather_eq, Cert.LibVecGather.vecGather_apply (by decide : 0 < 1000), countScatter_apply]
  congr 2
  -- the rows whose start index is r's: the rows with r's label
  refine Finset.filter_congr (fun t _ => ?_)
  rw [idxCol_apply lab hlab t]
  show (lab (ix1 t)).toInt = ((min (idxCol lab (ix2 r (0 : Fin 1))).toInt.toNat (1000 - 1) : ℕ) : ℤ) ↔ lab (ix1 t) = lab (ix1 r)
  rw [idxCol_apply lab hlab r]
  have hr := hlab r
  constructor
  · intro h
    exact BitVec.eq_of_toInt_eq (by omega)
  · intro h
    rw [h]
    omega

/-- A one-bit word is 0 or 1. -/
private theorem bit_cases (b : BitVec 1) : b = 0#1 ∨ b = 1#1 := by
  have h : b.toNat < 2 := b.isLt
  rcases (by omega : b.toNat = 0 ∨ b.toNat = 1) with h0 | h1
  · exact Or.inl (BitVec.eq_of_toNat_eq h0)
  · exact Or.inr (BitVec.eq_of_toNat_eq h1)

/-- The conjunction of two bits that decide P and Q, as a number: 1 when both hold, else 0. -/
private theorem andi_bits_toNat (b1 b2 : BitVec 1) (P Q : Prop) [Decidable P] [Decidable Q]
    (h1 : b1 = 1#1 ↔ P) (h2 : b2 = 1#1 ↔ Q) : (IntOp.andi b1 b2).toNat = if P ∧ Q then 1 else 0 := by
  have f1 : b1 = if P then 1#1 else 0#1 := by
    by_cases hP : P
    · rw [if_pos hP]; exact h1.mpr hP
    · rw [if_neg hP]; exact (bit_cases b1).resolve_right (fun h => hP (h1.mp h))
  have f2 : b2 = if Q then 1#1 else 0#1 := by
    by_cases hQ : Q
    · rw [if_pos hQ]; exact h2.mpr hQ
    · rw [if_neg hQ]; exact (bit_cases b2).resolve_right (fun h => hQ (h2.mp h))
  rw [f1, f2]
  by_cases hP : P <;> by_cases hQ : Q <;> simp [hP, hQ, IntOp.andi]

/-- The flag bit of row r, as a number: 1 when the row is valid by the count, else 0. -/
private theorem validBits_toNat (lab : IVec S4096 32) (hlab : LabelsInRange lab) (r : Fin 4096) :
    (validBits lab (ix1 r)).toNat = if validK lab r then 1 else 0 := by
  have hle : cntSame lab r ≤ 4096 := by
    unfold cntSame
    exact (Finset.card_filter_le _ _).trans (by simp)
  have hn : (BitVec.ofNat 32 (cntSame lab r)).toNat = cntSame lab r := by
    rw [BitVec.toNat_ofNat]; omega
  have h1 : IntOp.cmpi .sge (BitVec.ofNat 32 (cntSame lab r)) (2#32) = 1#1 ↔ 2 ≤ cntSame lab r := by
    rw [StableHlo.Predicate.sge_iff_toNat (by omega) (by decide), hn]; rfl
  have h2 : IntOp.cmpi .slt (BitVec.ofNat 32 (cntSame lab r)) (4096#32) = 1#1 ↔ cntSame lab r < 4096 := by
    rw [StableHlo.Predicate.slt_iff_toNat (by omega) (by decide), hn]; rfl
  show (IntOp.andi (IntOp.cmpi .sge (labelCounts lab (ix1 r)) (broadcastInDim S4096 ![] bcast_S_S4096 (constantI S_ 32 2#32) (ix1 r)))
      (IntOp.cmpi .slt (labelCounts lab (ix1 r)) (broadcastInDim S4096 ![] bcast_S_S4096 (constantI S_ 32 4096#32) (ix1 r)))).toNat = _
  rw [labelCounts_apply lab hlab r, broadcastInDim_scalar_apply, broadcastInDim_scalar_apply, constantI_apply, constantI_apply]
  exact andi_bits_toNat _ _ _ _ h1 h2

theorem V_valid (c : Dev nD) (hlab : LabelsInRange (labOf m c)) (r : Fin 4096) :
    (V m c main_v28 : S4096x1.Idx → EReal) (ix2 r (0 : Fin 1)) = if validK (labOf m c) r then (1 : EReal) else 0 := by
  have e : (V m c main_v28 : S4096x1.Idx → EReal)
      = shapeCast S4096x1 (uitofp (F := Ideal) .f32 (validBits (labOf m c))) shapeCasts_S4096_S4096x1 := by
    show StableHlo.after hostOps0 (fun b => m (c, b)) (Proc.devRef .tc main_v28) = _
    after_results_simp
    unfold validBits labelCounts counts idxCol
    rfl
  rw [e, Cert.LibSlice.col_of_vec_apply]
  show (((validBits (labOf m c) (ix1 r)).toNat : ℝ) : EReal) = _
  rw [validBits_toNat (labOf m c) hlab r]
  by_cases hv : validK (labOf m c) r
  · rw [if_pos hv, if_pos hv]; simp
  · rw [if_neg hv, if_neg hv]; simp

theorem V_cenHi (c : Dev nD) (i : S1000x512.Idx) : (V m c main_v29 : S1000x512.Idx → EReal) i = cenOf m c i := by
  have e : (V m c main_v29 : S1000x512.Idx → EReal)
      = truncf (F := Ideal) .bf16 (cenOf m c : FVec Ideal S1000x512 .f32) bitsLt_bf16_f32 := by
    show StableHlo.after hostOps0 (fun b => m (c, b)) (Proc.devRef .tc main_v29) = _
    after_results
  rw [e]
  rfl

theorem V_cenLo (c : Dev nD) (i : S1000x512.Idx) : (V m c main_v32 : S1000x512.Idx → EReal) i = cenOf m c i - cenOf m c i := by
  have e : (V m c main_v32 : S1000x512.Idx → EReal)
      = truncf (F := Ideal) .bf16 (subf (F := Ideal) (cenOf m c : FVec Ideal S1000x512 .f32)
          (extf (F := Ideal) .f32 (truncf (F := Ideal) .bf16 (cenOf m c : FVec Ideal S1000x512 .f32) bitsLt_bf16_f32) bitsLt_bf16_f32))
          bitsLt_bf16_f32 := by
    show StableHlo.after hostOps0 (fun b => m (c, b)) (Proc.devRef .tc main_v32) = _
    after_results
  rw [e]
  rfl

theorem V_embBf (c : Dev nD) (i : S4096x512.Idx) : (V m c main_v33 : S4096x512.Idx → EReal) i = embOf m c i := by
  have e : (V m c main_v33 : S4096x512.Idx → EReal)
      = truncf (F := Ideal) .bf16 (embOf m c : FVec Ideal S4096x512 .f32) bitsLt_bf16_f32 := by
    show StableHlo.after hostOps0 (fun b => m (c, b)) (Proc.devRef .tc main_v33) = _
    after_results
  rw [e]
  rfl

theorem V_embT (c : Dev nD) (k : Fin 512) (r : Fin 4096) :
    (V m c main_v34 : S512x4096.Idx → EReal) (ix2 k r) = embOf m c (ix2 r k) := by
  have e : (V m c main_v34 : S512x4096.Idx → EReal)
      = transpose S512x4096 [1, 0] (truncf (F := Ideal) .bf16 (embOf m c : FVec Ideal S4096x512 .f32) bitsLt_bf16_f32)
          transposes_S4096x512_S512x4096_1_0 := by
    show StableHlo.after hostOps0 (fun b => m (c, b)) (Proc.devRef .tc main_v34) = _
    after_results
  rw [e, transpose_apply [1, 0] _ transposes_S4096x512_S512x4096_1_0 (ix2 k r) (ix2 r k) (fun b => match b with
    | ⟨0, _⟩ => rfl
    | ⟨1, _⟩ => rfl)]
  rfl

end Cert.KHost

end
-- ==== Proof.KBlocks.lean ====
/-
  The blocks the kernel's windows stage at a grid point, read at an index of the array the region finds: point t of the 8 x 4 grid is row tile t / 4 and column tile t % 4; a row-blocked window reads rows (t / 4) * 512 + p, a column-blocked one columns (t % 4) * 1024 + q, a resident window the whole array; and the two sub-rectangles the body loads from the resident embeddings and their transpose. Then the arithmetic of splitting a maximum or a minimum over 4096 columns into four tiles of 1024.
-/
import proofs.«405195_j25804163514703_3_alg».proof.Proof.Spec
import proofs.«405195_j25804163514703_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Mathlib.Data.Finset.Fold

noncomputable section

namespace Cert.KBlocks

open Idealize.ShloMosaic Idealize.ShloMosaic.ValueIdx Idealize.ShloMosaic.TcCoe Idealize.SL.Sem Cert.Spec Cert.KernelIdeal Cert.KernelIdeal.Gen

/-- the global row of row p of row tile t / 4, and the global column of column q of column tile t % 4 -/
def gRow (t : Fin cfg0.N) (p : Fin 512) : Fin 4096 := ⟨(t.val / 4) * 512 + p.val, by
  have h : t.val < 32 := lt_of_lt_of_eq t.isLt (show cfg0.N = 32 from N_0); have := p.isLt; omega⟩
def gCol (t : Fin cfg0.N) (q : Fin 1024) : Fin 4096 := ⟨(t.val % 4) * 1024 + q.val, by have := q.isLt; omega⟩

/-- the grid's coordinates of point t -/
theorem coords0 (t : Fin cfg0.N) : ((grid0.coords t) 0).val = t.val / 4 :=
  (by decide +kernel : ∀ t : Fin grid0.N, ((grid0.coords t) 0).val = t.val / 4) t
theorem coords1 (t : Fin cfg0.N) : ((grid0.coords t) 1).val = t.val % 4 :=
  (by decide +kernel : ∀ t : Fin grid0.N, ((grid0.coords t) 1).val = t.val % 4) t

/-! ## The windows' block indices: a resident window stays at block (0, 0), a row-blocked one is at block (t / 4, 0), a
    column-blocked one at block (0, t % 4) -/

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val / 4 ∧ win0_2.index t 1 = 0 :=
  (by decide +kernel : ∀ t : Fin grid0.N, win0_2.index t 0 = t.val / 4 ∧ win0_2.index t 1 = 0)
theorem index3 : ∀ t : Fin cfg0.N, win0_3.index t 0 = t.val / 4 ∧ win0_3.index t 1 = 0 :=
  (by decide +kernel : ∀ t : Fin grid0.N, win0_3.index t 0 = t.val / 4 ∧ win0_3.index t 1 = 0)
theorem index4 : ∀ t : Fin cfg0.N, win0_4.index t 0 = 0 ∧ win0_4.index t 1 = t.val % 4 :=
  (by decide +kernel : ∀ t : Fin grid0.N, win0_4.index t 0 = 0 ∧ win0_4.index t 1 = t.val % 4)
theorem index5 : ∀ t : Fin cfg0.N, win0_5.index t 0 = t.val / 4 ∧ win0_5.index t 1 = 0 :=
  (by decide +kernel : ∀ t : Fin grid0.N, win0_5.index t 0 = t.val / 4 ∧ win0_5.index t 1 = 0)
theorem index6 : ∀ t : Fin cfg0.N, win0_6.index t 0 = 0 ∧ win0_6.index t 1 = t.val % 4 :=
  (by decide +kernel : ∀ t : Fin grid0.N, win0_6.index t 0 = 0 ∧ win0_6.index t 1 = t.val % 4)
theorem index7 : ∀ t : Fin cfg0.N, win0_7.index t 0 = t.val / 4 ∧ win0_7.index t 1 = 0 :=
  (by decide +kernel : ∀ t : Fin grid0.N, win0_7.index t 0 = t.val / 4 ∧ win0_7.index t 1 = 0)
theorem index8 : ∀ t : Fin cfg0.N, win0_8.index t 0 = t.val / 4 ∧ win0_8.index t 1 = 0 :=
  (by decide +kernel : ∀ t : Fin grid0.N, win0_8.index t 0 = t.val / 4 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)

variable (m : (ℓ : Loc nD τ sig) → Buf (Elt Ideal) ℓ)

/-- window 0, the resident embeddings (bf16 copy), and window 1, their transpose: the whole arrays -/
theorem iblk0 (c : Dev nD) (t : Fin cfg0.N) (y : S4096x512.Idx) :
    (iblk m c 0 t : S4096x512.Idx → EReal) y = (V m c main_v33 : S4096x512.Idx → EReal) y := by
  unfold iblk
  rw [View.read_apply]
  show V m c main_v33 _ = V m c main_v33 _
  congr 1
  funext a
  apply Fin.ext
  match a with
  | ⟨0, _⟩ => show win0_0.index t 0 * 4096 + 1 * (y 0).val = (y 0).val; rw [(index0 t).1]; omega
  | ⟨1, _⟩ => show win0_0.index t 1 * 512 + 1 * (y 1).val = (y 1).val; rw [(index0 t).2]; omega
theorem iblk1 (c : Dev nD) (t : Fin cfg0.N) (y : S512x4096.Idx) :
    (iblk m c 1 t : S512x4096.Idx → EReal) y = (V m c main_v34 : S512x4096.Idx → EReal) y := by
  unfold iblk
  rw [View.read_apply]
  show V m c main_v34 _ = V m c main_v34 _
  congr 1
  funext a
  apply Fin.ext
  match a with
  | ⟨0, _⟩ => show win0_1.index t 0 * 512 + 1 * (y 0).val = (y 0).val; rw [(index1 t).1]; omega
  | ⟨1, _⟩ => show win0_1.index t 1 * 4096 + 1 * (y 1).val = (y 1).val; rw [(index1 t).2]; omega
/-- window 2: the row tile of the embeddings -/
theorem iblk2 (c : Dev nD) (t : Fin cfg0.N) (p : Fin 512) (k : Fin 512) :
    (iblk m c 2 t : S512x512.Idx → EReal) (ix2 p k) = (V m c main_arg0 : S4096x512.Idx → EReal) (ix2 (gRow t p) k) := by
  unfold iblk
  rw [View.read_apply]
  show V m c main_arg0 _ = V m c main_arg0 _
  congr 1
  funext a
  apply Fin.ext
  match a with
  | ⟨0, _⟩ => show win0_2.index t 0 * 512 + 1 * p.val = (t.val / 4) * 512 + p.val; rw [(index2 t).1]; omega
  | ⟨1, _⟩ => show win0_2.index t 1 * 512 + 1 * k.val = k.val; rw [(index2 t).2]; omega
/-- window 3: the row tile of the column of squared norms -/
theorem iblk3 (c : Dev nD) (t : Fin cfg0.N) (p : Fin 512) :
    (iblk m c 3 t : S512x1.Idx → EReal) (ix2 p (0 : Fin 1)) = (V m c main_v2 : S4096x1.Idx → EReal) (ix2 (gRow t p) (0 : Fin 1)) := by
  unfold iblk
  rw [View.read_apply]
  show V m c main_v2 _ = V m c main_v2 _
  congr 1
  funext a
  apply Fin.ext
  match a with
  | ⟨0, _⟩ => show win0_3.index t 0 * 512 + 1 * p.val = (t.val / 4) * 512 + p.val; rw [(index3 t).1]; omega
  | ⟨1, _⟩ => show win0_3.index t 1 * 1 + 1 * 0 = 0; rw [(index3 t).2]
/-- window 4: the column tile of the row of squared norms -/
theorem iblk4 (c : Dev nD) (t : Fin cfg0.N) (q : Fin 1024) :
    (iblk m c 4 t : S1x1024.Idx → EReal) (ix2 (0 : Fin 1) q) = (V m c main_v3 : S1x4096.Idx → EReal) (ix2 (0 : Fin 1) (gCol t q)) := by
  unfold iblk
  rw [View.read_apply]
  show V m c main_v3 _ = V m c main_v3 _
  congr 1
  funext a
  apply Fin.ext
  match a with
  | ⟨0, _⟩ => show win0_4.index t 0 * 1 + 1 * 0 = 0; rw [(index4 t).1]
  | ⟨1, _⟩ => show win0_4.index t 1 * 1024 + 1 * q.val = (t.val % 4) * 1024 + q.val; rw [(index4 t).2]; omega
/-- windows 5 and 6: the labels as a column (row tile) and as a row (column tile) -/
theorem iblk5 (c : Dev nD) (t : Fin cfg0.N) (p : Fin 512) :
    (iblk m c 5 t : S512x1.Idx → BitVec 32) (ix2 p (0 : Fin 1)) = (V m c main_v4 : S4096x1.Idx → BitVec 32) (ix2 (gRow t p) (0 : Fin 1)) := by
  unfold iblk
  rw [View.read_apply]
  show V m c main_v4 _ = V m c main_v4 _
  congr 1
  funext a
  apply Fin.ext
  match a with
  | ⟨0, _⟩ => show win0_5.index t 0 * 512 + 1 * p.val = (t.val / 4) * 512 + p.val; rw [(index5 t).1]; omega
  | ⟨1, _⟩ => show win0_5.index t 1 * 1 + 1 * 0 = 0; rw [(index5 t).2]
theorem iblk6 (c : Dev nD) (t : Fin cfg0.N) (q : Fin 1024) :
    (iblk m c 6 t : S1x1024.Idx → BitVec 32) (ix2 (0 : Fin 1) q) = (V m c main_v5 : S1x4096.Idx → BitVec 32) (ix2 (0 : Fin 1) (gCol t q)) := by
  unfold iblk
  rw [View.read_apply]
  show V m c main_v5 _ = V m c main_v5 _
  congr 1
  funext a
  apply Fin.ext
  match a with
  | ⟨0, _⟩ => show win0_6.index t 0 * 1 + 1 * 0 = 0; rw [(index6 t).1]
  | ⟨1, _⟩ => show win0_6.index t 1 * 1024 + 1 * q.val = (t.val % 4) * 1024 + q.val; rw [(index6 t).2]; omega
/-- window 7: the row tile of the validity column -/
theorem iblk7 (c : Dev nD) (t : Fin cfg0.N) (p : Fin 512) :
    (iblk m c 7 t : S512x1.Idx → EReal) (ix2 p (0 : Fin 1)) = (V m c main_v28 : S4096x1.Idx → EReal) (ix2 (gRow t p) (0 : Fin 1)) := by
  unfold iblk
  rw [View.read_apply]
  show V m c main_v28 _ = V m c main_v28 _
  congr 1
  funext a
  apply Fin.ext
  match a with
  | ⟨0, _⟩ => show win0_7.index t 0 * 512 + 1 * p.val = (t.val / 4) * 512 + p.val; rw [(index7 t).1]; omega
  | ⟨1, _⟩ => show win0_7.index t 1 * 1 + 1 * 0 = 0; rw [(index7 t).2]
/-- window 8: the row tile of the logits -/
theorem iblk8 (c : Dev nD) (t : Fin cfg0.N) (p : Fin 512) (cl : Fin 1000) :
    (iblk m c 8 t : S512x1000.Idx → EReal) (ix2 p cl) = (V m c main_arg1 : S4096x1000.Idx → EReal) (ix2 (gRow t p) cl) := by
  unfold iblk
  rw [View.read_apply]
  show V m c main_arg1 _ = V m c main_arg1 _
  congr 1
  funext a
  apply Fin.ext
  match a with
  | ⟨0, _⟩ => show win0_8.index t 0 * 512 + 1 * p.val = (t.val / 4) * 512 + p.val; rw [(index8 t).1]; omega
  | ⟨1, _⟩ => show win0_8.index t 1 * 1000 + 1 * cl.val = cl.val; rw [(index8 t).2]; omega
/-- windows 9 and 10: the resident tables -/
theorem iblk9 (c : Dev nD) (t : Fin cfg0.N) (y : S1000x512.Idx) :
    (iblk m c 9 t : S1000x512.Idx → EReal) y = (V m c main_v29 : S1000x512.Idx → EReal) y := by
  unfold iblk
  rw [View.read_apply]
  show V m c main_v29 _ = V m c main_v29 _
  congr 1
  funext a
  apply Fin.ext
  match a with
  | ⟨0, _⟩ => show win0_9.index t 0 * 1000 + 1 * (y 0).val = (y 0).val; rw [(index9 t).1]; omega
  | ⟨1, _⟩ => show win0_9.index t 1 * 512 + 1 * (y 1).val = (y 1).val; rw [(index9 t).2]; omega
theorem iblk10 (c : Dev nD) (t : Fin cfg0.N) (y : S1000x512.Idx) :
    (iblk m c 10 t : S1000x512.Idx → EReal) y = (V m c main_v32 : S1000x512.Idx → EReal) y := by
  unfold iblk
  rw [View.read_apply]
  show V m c main_v32 _ = V m c main_v32 _
  congr 1
  funext a
  apply Fin.ext
  match a with
  | ⟨0, _⟩ => show win0_10.index t 0 * 1000 + 1 * (y 0).val = (y 0).val; rw [(index10 t).1]; omega
  | ⟨1, _⟩ => show win0_10.index t 1 * 512 + 1 * (y 1).val = (y 1).val; rw [(index10 t).2]; omega

/-- the body's two loads from the resident arrays start at row (i 0) * 512 and at column (i 1) * 1024 -/
theorem off1_val (t : Fin cfg0.N) : k0_off1 (grid0.coords t) = ![(t.val / 4) * 512, 0] :=
  (by decide +kernel : ∀ t : Fin grid0.N, k0_off1 (grid0.coords t) = ![(t.val / 4) * 512, 0]) t
theorem off2_val (t : Fin cfg0.N) : k0_off2 (grid0.coords t) = ![0, (t.val % 4) * 1024] :=
  (by decide +kernel : ∀ t : Fin grid0.N, k0_off2 (grid0.coords t) = ![0, (t.val % 4) * 1024]) t

/-! ## Splitting a fold over 4096 columns into four tiles -/

/-- column tile j's part of a row's maximum -/
def tileMax (f : Fin 4096 → EReal) (j : Fin 4) : EReal :=
  (Finset.univ : Finset (Fin 1024)).fold max ⊥ (fun q => f ⟨j.val * 1024 + q.val, by have := j.isLt; have := q.isLt; omega⟩)
def tileMin (f : Fin 4096 → EReal) (j : Fin 4) : EReal :=
  (Finset.univ : Finset (Fin 1024)).fold min ⊤ (fun q => f ⟨j.val * 1024 + q.val, by have := j.isLt; have := q.isLt; omega⟩)

/-- every column x is column x % 1024 of tile x / 1024 -/
theorem split_col (x : Fin 4096) :
    ∃ (j : Fin 4) (q : Fin 1024) (h : j.val * 1024 + q.val < 4096), x = ⟨j.val * 1024 + q.val, h⟩ := by
  have hx := x.isLt
  refine ⟨⟨x.val / 1024, by omega⟩, ⟨x.val % 1024, Nat.mod_lt _ (by norm_num)⟩, ?_, ?_⟩
  · show x.val / 1024 * 1024 + x.val % 1024 < 4096; omega
  · apply Fin.ext; show x.val = x.val / 1024 * 1024 + x.val % 1024; omega

/-- a tile's maximum bounds its entries, is bounded by the whole maximum, and by the four tiles' running maximum -/
theorem le_tileMax (f : Fin 4096 → EReal) (j : Fin 4) (q : Fin 1024) (h : j.val * 1024 + q.val < 4096) :
    f ⟨j.val * 1024 + q.val, h⟩ ≤ tileMax f j := by
  unfold tileMax
  exact (Finset.le_fold_max _).mpr (Or.inr ⟨q, Finset.mem_univ _, le_rfl⟩)
theorem tileMax_le_fold (f : Fin 4096 → EReal) (j : Fin 4) :
    tileMax f j ≤ (Finset.univ : Finset (Fin 4096)).fold max ⊥ f := by
  unfold tileMax
  exact (Finset.fold_max_le _).mpr ⟨bot_le, fun q _ => (Finset.le_fold_max _).mpr (Or.inr ⟨_, Finset.mem_univ _, le_rfl⟩)⟩
theorem tileMax_le_four (f : Fin 4096 → EReal) : ∀ j : Fin 4,
    tileMax f j ≤ max (max (max (max ⊥ (tileMax f 0)) (tileMax f 1)) (tileMax f 2)) (tileMax f 3)
  | ⟨0, _⟩ => le_max_of_le_left (le_max_of_le_left (le_max_of_le_left (le_max_right _ _)))
  | ⟨1, _⟩ => le_max_of_le_left (le_max_of_le_left (le_max_right _ _))
  | ⟨2, _⟩ => le_max_of_le_left (le_max_right _ _)
  | ⟨3, _⟩ => le_max_right _ _

theorem fold_max_tiles (f : Fin 4096 → EReal) :
    (Finset.univ : Finset (Fin 4096)).fold max ⊥ f = max (max (max (max ⊥ (tileMax f 0)) (tileMax f 1)) (tileMax f 2)) (tileMax f 3) := by
  apply le_antisymm
  · refine (Finset.fold_max_le _).mpr ⟨bot_le, fun x _ => ?_⟩
    obtain ⟨j, q, h, rfl⟩ := split_col x
    exact (le_tileMax f j q h).trans (tileMax_le_four f j)
  · exact max_le (max_le (max_le (max_le bot_le (tileMax_le_fold f 0)) (tileMax_le_fold f 1)) (tileMax_le_fold f 2)) (tileMax_le_fold f 3)

/-- the same for the minimum -/
theorem tileMin_le (f : Fin 4096 → EReal) (j : Fin 4) (q : Fin 1024) (h : j.val * 1024 + q.val < 4096) :
    tileMin f j ≤ f ⟨j.val * 1024 + q.val, h⟩ := by
  unfold tileMin
  exact (Finset.fold_min_le _).mpr (Or.inr ⟨q, Finset.mem_univ _, le_rfl⟩)
theorem fold_le_tileMin (f : Fin 4096 → EReal) (j : Fin 4) :
    (Finset.univ : Finset (Fin 4096)).fold min ⊤ f ≤ tileMin f j := by
  unfold tileMin
  exact (Finset.le_fold_min _).mpr ⟨le_top, fun q _ => (Finset.fold_min_le _).mpr (Or.inr ⟨_, Finset.mem_univ _, le_rfl⟩)⟩
theorem four_le_tileMin (f : Fin 4096 → EReal) : ∀ j : Fin 4,
    min (min (min (min ⊤ (tileMin f 0)) (tileMin f 1)) (tileMin f 2)) (tileMin f 3) ≤ tileMin f j
  | ⟨0, _⟩ => min_le_of_left_le (min_le_of_left_le (min_le_of_left_le (min_le_right _ _)))
  | ⟨1, _⟩ => min_le_of_left_le (min_le_of_left_le (min_le_right _ _))
  | ⟨2, _⟩ => min_le_of_left_le (min_le_right _ _)
  | ⟨3, _⟩ => min_le_right _ _

theorem fold_min_tiles (f : Fin 4096 → EReal) :
    (Finset.univ : Finset (Fin 4096)).fold min ⊤ f = min (min (min (min ⊤ (tileMin f 0)) (tileMin f 1)) (tileMin f 2)) (tileMin f 3) := by
  apply le_antisymm
  · exact le_min (le_min (le_min (le_min le_top (fold_le_tileMin f 0)) (fold_le_tileMin f 1)) (fold_le_tileMin f 2)) (fold_le_tileMin f 3)
  · refine (Finset.le_fold_min _).mpr ⟨le_top, fun x _ => ?_⟩
    obtain ⟨j, q, h, rfl⟩ := split_col x
    exact (four_le_tileMin f j).trans (tileMin_le f j q h)

end Cert.KBlocks

end
-- ==== Proof.KTail.lean ====
/-
  The host operations after the kernel's region, read at the ideal values: the three results as functions of the three per-row arrays the region leaves and of the validity column it was given. Each is a sum over the 4096 rows divided by a count, and the total is their weighted sum.
-/
import proofs.«405195_j25804163514703_3_alg».proof.Proof.Spec
import proofs.«405195_j25804163514703_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

noncomputable section

namespace Cert.KTail

open Idealize.ShloMosaic Idealize.ShloMosaic.ValueIdx Idealize.ShloMosaic.TcCoe Idealize.SL.Sem Cert.Spec Cert.KernelIdeal Cert.KernelIdeal.Gen
open Idealize.ShloMosaic.Pipeline (Dat)

variable (m : (ℓ : Loc nD τ sig) → Buf (Elt Ideal) ℓ)

/-- the three per-row arrays the region leaves, and the validity column it was given, on core c -/
abbrev lossArr (c : Dev nD) : S4096.Idx → EReal := (dats m 0 c).arrAt 11 cfg0.N
abbrev ceArr (c : Dev nD) : S4096.Idx → EReal := (dats m 0 c).arrAt 12 cfg0.N
abbrev centerArr (c : Dev nD) : S4096.Idx → EReal := (dats m 0 c).arrAt 13 cfg0.N
abbrev validCol (c : Dev nD) : S4096x1.Idx → EReal := V m c main_v28

def tripOf (c : Dev nD) : EReal :=
  Ideal.div (∑ r : Fin 4096, lossArr m c (ix1 r)) (max (∑ r : Fin 4096, validCol m c (ix2 r (0 : Fin 1))) 1)
def ceOf (c : Dev nD) : EReal := Ideal.div (∑ r : Fin 4096, ceArr m c (ix1 r)) nRows
def centerOf (c : Dev nD) : EReal := Ideal.div (∑ r : Fin 4096, centerArr m c (ix1 r)) nEntries

/-! ## Sums over a rank-1 index set and over a one-column rank-2 index set -/

/-- a rank-1 index set is its coordinate range -/
def idxEquiv1 {n : Nat} : (⟨1, ![n]⟩ : Shape).Idx ≃ Fin n where
  toFun i := i 0
  invFun r := ix1 r
  left_inv i := (eq_ix1 i).symm
  right_inv _ := rfl

theorem sum_idx1 {n : Nat} (f : (⟨1, ![n]⟩ : Shape).Idx → EReal) : ∑ i, f i = ∑ r : Fin n, f (ix1 r) := by
  rw [← Equiv.sum_comp (idxEquiv1 (n := n)).symm f]
  rfl

theorem sum_col {n : Nat} (f : (⟨2, ![n, 1]⟩ : Shape).Idx → EReal) : ∑ i, f i = ∑ r : Fin n, f (ix2 r (0 : Fin 1)) := by
  rw [sum_idx2]
  exact Finset.sum_congr rfl fun r _ => Fin.sum_univ_one _

/-! ## The host sums at the ideal values -/

/-- the sum of a per-row array from the zero word, at the one index of the scalar shape -/
theorem rowSum_apply (x : S4096.Idx → EReal) (j : S_.Idx) :
    Host.reduceAdd (F := Ideal) (φ := .f32) x (constant S_ .f32 0x00000000#32) reducesTo_S4096_S_d0 h_S_ j = ∑ r : Fin 4096, x (ix1 r) := by
  rw [hostReduceAdd_apply, Ideal.hostReduceAdd_total _ (fun b => b.elim0), constant_apply, Ideal.ofBits_zero_f32, zero_add, sum_idx1]

/-- the sum of a one-column array over both axes from the zero word -/
theorem colSum_apply (x : S4096x1.Idx → EReal) (j : S_.Idx) :
    Host.reduceAdd (F := Ideal) (φ := .f32) x (constant S_ .f32 0x00000000#32) reducesTo_S4096x1_S_d0_1 h_S_ j = ∑ r : Fin 4096, x (ix2 r (0 : Fin 1)) := by
  rw [hostReduceAdd_apply, Ideal.hostReduceAdd_total _ (fun b => b.elim0), constant_apply, Ideal.ofBits_zero_f32, zero_add, sum_col]

/-! ## The region's exit contents at the four arrays the tail reads -/

theorem read11 (c : Dev nD) :
    Pipeline.withArrays (cfgs 0).spec c (V0 m c) (fun w => (dats m 0 c).arrAt w (cfgs 0).N) (Proc.devRef .tc main_v35_0) = lossArr m c :=
  Pipeline.withArrays_arr spec0 launch0.win.arr_inj c _ _ 11
theorem read12 (c : Dev nD) :
    Pipeline.withArrays (cfgs 0).spec c (V0 m c) (fun w => (dats m 0 c).arrAt w (cfgs 0).N) (Proc.devRef .tc main_v35_1) = ceArr m c :=
  Pipeline.withArrays_arr spec0 launch0.win.arr_inj c _ _ 12
theorem read13 (c : Dev nD) :
    Pipeline.withArrays (cfgs 0).spec c (V0 m c) (fun w => (dats m 0 c).arrAt w (cfgs 0).N) (Proc.devRef .tc main_v35_2) = centerArr m c :=
  Pipeline.withArrays_arr spec0 launch0.win.arr_inj c _ _ 13
theorem read7 (c : Dev nD) :
    Pipeline.withArrays (cfgs 0).spec c (V0 m c) (fun w => (dats m 0 c).arrAt w (cfgs 0).N) (Proc.devRef .tc main_v28) = validCol m c :=
  (Pipeline.withArrays_arr spec0 launch0.win.arr_inj c _ _ 7).trans (((dats m 0 c).arrAt_in 7 rfl _).trans (A_eq m c 7))

/-! ## The three results -/

theorem tail_trip (c : Dev nD) :
    (Pipeline.afterTail₀ cfgs (dats m) 0 (V0 m) [hostOps1] c main_v39 : S_.Idx → EReal) = fun _ => tripOf m c := by
  unfold Pipeline.afterTail₀
  simp only [List.flatten_cons, List.flatten_nil, List.append_nil]
  after_results
  rw [read11, read7]
  funext j
  rw [hostDivf_apply, maximumf_apply, rowSum_apply, colSum_apply, constant_apply, Ideal.ofBits_one_f32]
  rfl

theorem tail_ce (c : Dev nD) :
    (Pipeline.afterTail₀ cfgs (dats m) 0 (V0 m) [hostOps1] c main_v41 : S_.Idx → EReal) = fun _ => ceOf m c := by
  unfold Pipeline.afterTail₀
  simp only [List.flatten_cons, List.flatten_nil, List.append_nil]
  after_results
  rw [read12]
  funext j
  rw [hostDivf_apply, rowSum_apply, constant_apply]
  rfl

theorem tail_total (c : Dev nD) :
    (Pipeline.afterTail₀ cfgs (dats m) 0 (V0 m) [hostOps1] c main_v48 : S_.Idx → EReal)
      = fun _ => (wCe * ceOf m c + wTrip * tripOf m c) + wCenter * centerOf m c := by
  unfold Pipeline.afterTail₀
  simp only [List.flatten_cons, List.flatten_nil, List.append_nil]
  after_results_simp
  rw [read11, read12, read13, read7]
  funext j
  simp only [addf_apply, mulf_apply, hostDivf_apply, maximumf_apply, rowSum_apply, colSum_apply, constant_apply, Ideal.ofBits_one_f32]
  rfl

end Cert.KTail

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.KPayTrip.lean ====
/-
  The kernel body's arithmetic for the pairwise tile, read at an index at the ideal values: the tile of squared distances, the two label masks, the running maximum over positives and minimum over negatives of one tile, and the final per-row loss.
-/
import proofs.«405195_j25804163514703_3_alg».proof.Proof.Spec
import proofs.«405195_j25804163514703_3_alg».proof.Proof.LibPlainDot
import proofs.«405195_j25804163514703_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KPay

open Idealize.ShloMosaic Idealize.ShloMosaic.ValueIdx Cert.Spec Cert.KernelIdeal Cert.KernelIdeal.Gen

/-! ## Column and row layout operations read at an index -/

section Layout
variable {α : Type}

/-- a [512] vector viewed as a [512, 1] column reads, at (p, u), the vector at p -/
theorem shapeCast_col_apply (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- a [512, 1] column viewed as a [512] vector reads, at p, the column at (p, 0) -/
theorem shapeCast_uncol_apply (x : S512x1.Idx → α) (h : S512x1.ShapeCasts S512) (p : Fin 512) :
    shapeCast S512 x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- a [512, 1] column spread over 1024 lanes reads, at (p, q), the column at (p, 0) -/
theorem broadcastTo_col_apply (x : S512x1.Idx → α) (h : S512x1.Broadcasts S512x1024) (p : Fin 512) (q : Fin 1024) :
    broadcastTo S512x1024 x h (ix2 p q) = x (ix2 p (0 : Fin 1)) :=
  broadcastTo_apply x h _ _ fun a => match a with | ⟨0, _⟩ => rfl | ⟨1, _⟩ => rfl

/-- a [1, 1024] row spread over 512 sublanes reads, at (p, q), the row at (0, q) -/
theorem broadcastTo_row_apply (x : S1x1024.Idx → α) (h : S1x1024.Broadcasts S512x1024) (p : Fin 512) (q : Fin 1024) :
    broadcastTo S512x1024 x h (ix2 p q) = x (ix2 (0 : Fin 1) q) :=
  broadcastTo_apply x h _ _ fun a => match a with | ⟨0, _⟩ => rfl | ⟨1, _⟩ => rfl

end Layout

/-! ## Words -/

/-- an equality comparison of two words is the bit of their equality -/
theorem cmpi_eq_word {w : Nat} (x y : BitVec w) : IntOp.cmpi .eq x y = if x = y then 1#1 else 0#1 := by
  show BitVec.ofBool (x == y) = _
  by_cases h : x = y
  · rw [if_pos h, show (x == y) = true from beq_iff_eq.mpr h]; rfl
  · rw [if_neg h, show (x == y) = false from beq_eq_false_iff_ne.mpr h]; rfl

/-- a one-bit word flipped is one exactly when it was not -/
theorem xori_one_eq_one_iff (b : BitVec 1) : IntOp.xori b 1#1 = 1#1 ↔ ¬ b = 1#1 := by
  revert b; decide

/-! ## The global row and column ids of a tile entry -/

/-- two numbers below 2^32 are equal exactly when their 32-bit words are -/
theorem ofNat32_inj_of_lt {m n : Nat} (hm : m < 2 ^ 32) (hn : n < 2 ^ 32) : BitVec.ofNat 32 m = BitVec.ofNat 32 n ↔ m = n := by
  constructor
  · intro h
    have h' := congrArg BitVec.toNat h
    rw [BitVec.toNat_ofNat, BitVec.toNat_ofNat, Nat.mod_eq_of_lt hm, Nat.mod_eq_of_lt hn] at h'
    exact h'
  · intro h; rw [h]

/-- block a of width c plus offset b, as words, is the word of the number a * c + b -/
theorem word_block (a b c : Nat) : IntOp.addi (Scalar.muli (BitVec.ofNat 32 a) (BitVec.ofNat 32 c)) (BitVec.ofNat 32 b) = BitVec.ofNat 32 (a * c + b) := by
  show BitVec.ofNat 32 a * BitVec.ofNat 32 c + BitVec.ofNat 32 b = _
  rw [← BitVec.ofNat_mul, ← BitVec.ofNat_add]

/-! ## A lane maximum and a lane minimum of the tile, read at a row -/

/-- a minimum over one axis, at the ideal values: the fold of min from the accumulator word's value over that axis's coordinates -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- row p of the tile with lane q put back is the index (p, q) -/
theorem lift_row (h : S512x1024.Reduces [1] S512) (p : Fin 512) (q : Fin 1024) : h.lift (ix1 p) q = ix2 p q :=
  funext fun a => Fin.ext (match a with | ⟨0, _⟩ => rfl | ⟨1, _⟩ => rfl)

/-- the lane maximum from minus infinity, at row p: the fold of max from bottom over the row's 1024 entries -/
theorem rowMax_apply (src : FVec Ideal S512x1024 .f32) (h : S512x1024.Reduces [1] S512) (hφ : FKind.Formats .f32)
    (hacc : (0xFF800000#32 : BitVec 32) = FKind.maximumf.neutral .f32 hφ) (p : Fin 512) :
    multiReduction .maximumf [1] S512 src 0xFF800000#32 h hφ hacc (ix1 p)
      = (Finset.univ : Finset (Fin 1024)).fold max ⊥ (fun q => src (ix2 p q)) := by
  refine (Ideal.multiReduction_maximumf_single src _ h hφ hacc (ix1 p)).trans ?_
  rw [show FloatOps.ofBits (F := Ideal) .f32 0xFF800000#32 = (⊥ : EReal) from ofBits_ninf_f32]
  exact congrArg (fun f => Finset.fold max (⊥ : EReal) f (Finset.univ : Finset (Fin 1024)))
    (funext fun q => congrArg src (lift_row h p q))

/-- the lane minimum from plus infinity, at row p: the fold of min from top over the row's 1024 entries -/
theorem rowMin_apply (src : FVec Ideal S512x1024 .f32) (h : S512x1024.Reduces [1] S512) (hφ : FKind.Formats .f32)
    (hacc : (0x7F800000#32 : BitVec 32) = FKind.minimumf.neutral .f32 hφ) (p : Fin 512) :
    multiReduction .minimumf [1] S512 src 0x7F800000#32 h hφ hacc (ix1 p)
      = (Finset.univ : Finset (Fin 1024)).fold min ⊤ (fun q => src (ix2 p q)) := by
  refine (multiReduction_minimumf_single src _ h hφ hacc (ix1 p)).trans ?_
  rw [show FloatOps.ofBits (F := Ideal) .f32 0x7F800000#32 = (⊤ : EReal) from ofBits_pinf_f32]
  exact congrArg (fun f => Finset.fold min (⊤ : EReal) f (Finset.univ : Finset (Fin 1024)))
    (funext fun q => congrArg src (lift_row h p q))

/-- the margin word is the real number one half -/
theorem half_eq : half = ((1 / 2 : ℝ) : EReal) := by
  simp [half, Ideal.ofBits, Ideal.ieee]
  rw [← EReal.coe_mul]
  norm_num

/-! ## The payloads -/

/-- the tile of squared distances at (p, q): the row block's |e_p|^2 plus the column block's |e_q|^2 minus twice the product of
    the row block of the embeddings with the column block of their transpose -/
theorem pay13_apply (v8 : Vec Ideal S512x512 .bf16) (v11 : Vec Ideal S512x1024 .bf16) (v14 : Vec Ideal S512x1 .f32) (v16 : Vec Ideal S1x1024 .f32)
    (p : Fin 512) (q : Fin 1024) :
    k0_pay13 (F := Ideal) v8 v11 v14 v16 (ix2 p q)
      = (v14 (ix2 p (0 : Fin 1)) + v16 (ix2 (0 : Fin 1) q)) - two * ∑ k : Fin 512, v8 (ix2 p k) * v11 (ix2 k q) := by
  unfold k0_pay13
  rw [shapeCast_self, shapeCast_self, shapeCast_self, shapeCast_self]
  rw [subf_apply, addf_apply, mulf_apply, broadcast_apply, broadcastTo_col_apply, broadcastTo_row_apply]
  have hm := Cert.LibPlainDot.matmul_zero_apply (M := 512) (K := 512) (N := 1024) (φ₁ := .bf16) (φ₂ := .bf16)
    dot_S512x512_S512x1024_S512x1024_1_0_0_1_n_n_wf none v8 v11 p q
  exact congrArg (fun z => (v14 (ix2 p (0 : Fin 1)) + v16 (ix2 (0 : Fin 1) q)) - two * z) hm

/-- the equal-label mask at (p, q) -/
theorem pay14_apply (v24 : Vec Ideal S512x1 .i32) (v26 : Vec Ideal S1x1024 .i32) (p : Fin 512) (q : Fin 1024) :
    k0_pay14 (F := Ideal) v24 v26 (ix2 p q) = if v24 (ix2 p (0 : Fin 1)) = v26 (ix2 (0 : Fin 1) q) then 1#1 else 0#1 := by
  unfold k0_pay14
  rw [shapeCast_self, shapeCast_self]
  show IntOp.cmpi .eq (broadcastTo S512x1024 v24 broadcasts_S512x1_S512x1024 (ix2 p q))
      (broadcastTo S512x1024 v26 broadcasts_S1x1024_S512x1024 (ix2 p q)) = _
  rw [broadcastTo_col_apply, broadcastTo_row_apply]
  exact cmpi_eq_word _ _

/-- the positive mask at (p, q) of the tile at grid point i: equal labels, and the global row i0 * 512 + p is not the global
    column i1 * 1024 + q -/
theorem pay15_apply (i : grid0.Coords) (v24 : Vec Ideal S512x1 .i32) (v26 : Vec Ideal S1x1024 .i32) (p : Fin 512) (q : Fin 1024) :
    k0_pay15 (F := Ideal) i v24 v26 (ix2 p q)
      = if v24 (ix2 p (0 : Fin 1)) = v26 (ix2 (0 : Fin 1) q) ∧ (i 0).val * 512 + p.val ≠ (i 1).val * 1024 + q.val then 1#1 else 0#1 := by
  unfold k0_pay15
  show IntOp.andi (k0_pay14 (F := Ideal) v24 v26 (ix2 p q))
      (IntOp.xori (IntOp.cmpi .eq
        (IntOp.addi (Scalar.muli (BitVec.ofNat 32 (i 0).val) (BitVec.ofNat 32 512)) (iota .tc S512x1024 32 [0] iota_S512x1024_d0_w32 (ix2 p q)))
        (IntOp.addi (Scalar.muli (BitVec.ofNat 32 (i 1).val) (BitVec.ofNat 32 1024)) (iota .tc S512x1024 32 [1] iota_S512x1024_d1_w32 (ix2 p q))))
        1#1) = _
  rw [pay14_apply, iota_single_apply, iota_single_apply]
  show IntOp.andi _ (IntOp.xori (IntOp.cmpi .eq
        (IntOp.addi (Scalar.muli (BitVec.ofNat 32 (i 0).val) (BitVec.ofNat 32 512)) (BitVec.ofNat 32 p.val))
        (IntOp.addi (Scalar.muli (BitVec.ofNat 32 (i 1).val) (BitVec.ofNat 32 1024)) (BitVec.ofNat 32 q.val))) 1#1) = _
  rw [word_block, word_block, cmpi_eq_word]
  have h0 : (i 0).val < 8 := (i 0).isLt
  have h1 : (i 1).val < 4 := (i 1).isLt
  have hp := p.isLt
  have hq := q.isLt
  have hw := ofNat32_inj_of_lt (m := (i 0).val * 512 + p.val) (n := (i 1).val * 1024 + q.val) (by omega) (by omega)
  rw [show (if BitVec.ofNat 32 ((i 0).val * 512 + p.val) = BitVec.ofNat 32 ((i 1).val * 1024 + q.val) then 1#1 else 0#1 : BitVec 1)
      = if (i 0).val * 512 + p.val = (i 1).val * 1024 + q.val then 1#1 else 0#1 from if_congr hw rfl rfl]
  by_cases hl : v24 (ix2 p (0 : Fin 1)) = v26 (ix2 (0 : Fin 1) q)
  · by_cases hd : (i 0).val * 512 + p.val = (i 1).val * 1024 + q.val
    · rw [if_pos hl, if_pos hd,
        if_neg (show ¬ (v24 (ix2 p (0 : Fin 1)) = v26 (ix2 (0 : Fin 1) q) ∧ (i 0).val * 512 + p.val ≠ (i 1).val * 1024 + q.val) from fun h => h.2 hd)]
      rfl
    · rw [if_pos hl, if_neg hd,
        if_pos (show v24 (ix2 p (0 : Fin 1)) = v26 (ix2 (0 : Fin 1) q) ∧ (i 0).val * 512 + p.val ≠ (i 1).val * 1024 + q.val from ⟨hl, hd⟩)]
      rfl
  · rw [if_neg hl,
      if_neg (show ¬ (v24 (ix2 p (0 : Fin 1)) = v26 (ix2 (0 : Fin 1) q) ∧ (i 0).val * 512 + p.val ≠ (i 1).val * 1024 + q.val) from fun h => hl h.1)]
    exact BitVec.zero_and

/-- the running maximum after one tile: the old value against the tile's maximum of the squared distances under the mask -/
theorem pay1_apply (v23 : FVec Ideal S512x1024 .f32) (v39 : IVec S512x1024 1) (v49 : Vec Ideal S512x1 .f32) (p : Fin 512) :
    k0_pay1 (F := Ideal) v23 v39 v49 (ix2 p (0 : Fin 1))
      = max (v49 (ix2 p (0 : Fin 1)))
          ((Finset.univ : Finset (Fin 1024)).fold max ⊥ (fun q => if v39 (ix2 p q) = 1#1 then v23 (ix2 p q) else ⊥)) := by
  unfold k0_pay1
  rw [shapeCast_self, maximumf_apply, shapeCast_col_apply]
  refine congrArg (max (v49 (ix2 p (0 : Fin 1)))) ((rowMax_apply _ _ _ _ p).trans ?_)
  refine congrArg (fun f => Finset.fold max (⊥ : EReal) f (Finset.univ : Finset (Fin 1024))) (funext fun q => ?_)
  show Scalar.select (v39 (ix2 p q)) (v23 (ix2 p q)) (Ideal.ofBits .f32 0xFF800000#32) = _
  rw [ofBits_ninf_f32]
  rfl

/-- the running minimum after one tile: the old value against the tile's minimum of the squared distances off the equal-label mask -/
theorem pay2_apply (v23 : FVec Ideal S512x1024 .f32) (v30 : IVec S512x1024 1) (v54 : Vec Ideal S512x1 .f32) (p : Fin 512) :
    k0_pay2 (F := Ideal) v23 v30 v54 (ix2 p (0 : Fin 1))
      = min (v54 (ix2 p (0 : Fin 1)))
          ((Finset.univ : Finset (Fin 1024)).fold min ⊤ (fun q => if v30 (ix2 p q) = 1#1 then ⊤ else v23 (ix2 p q))) := by
  unfold k0_pay2
  rw [shapeCast_self, minimumf_apply, shapeCast_col_apply]
  refine congrArg (min (v54 (ix2 p (0 : Fin 1)))) ((rowMin_apply _ _ _ _ p).trans ?_)
  refine congrArg (fun f => Finset.fold min (⊤ : EReal) f (Finset.univ : Finset (Fin 1024))) (funext fun q => ?_)
  show (if IntOp.xori (v30 (ix2 p q)) 1#1 = 1#1 then v23 (ix2 p q) else Ideal.ofBits .f32 0x7F800000#32) = _
  rw [ofBits_pinf_f32]
  by_cases h : v30 (ix2 p q) = 1#1
  · rw [if_pos h, if_neg (fun hx => (xori_one_eq_one_iff _).1 hx h)]
  · rw [if_neg h, if_pos ((xori_one_eq_one_iff _).2 h)]

theorem pay6_apply (j : S512x1.Idx) : k0_pay6 (F := Ideal) j = ⊥ := by
  unfold k0_pay6
  rw [shapeCast_self]
  exact ofBits_ninf_f32

theorem pay7_apply (j : S512x1.Idx) : k0_pay7 (F := Ideal) j = ⊤ := by
  unfold k0_pay7
  rw [shapeCast_self]
  exact ofBits_pinf_f32

/-- the per-row loss from the two carried extremes and the validity flag (a flag above one half selects the margin term) -/
theorem pay3_apply (v62 v66 v70 : Vec Ideal S512x1 .f32) (p : Fin 512) :
    k0_pay3 (F := Ideal) v62 v66 v70 (ix1 p)
      = max (if half < v70 (ix2 p (0 : Fin 1))
              then (Ideal.sqrt (max (v62 (ix2 p (0 : Fin 1))) eps) - Ideal.sqrt (max (v66 (ix2 p (0 : Fin 1))) eps)) + half
              else 0) 0 := by
  unfold k0_pay3
  rw [shapeCast_uncol_apply, shapeCast_self]
  show max (Scalar.select (Ideal.cmp .ogt (v70 (ix2 p (0 : Fin 1))) half)
      ((Ideal.sqrt (max (v62 (ix2 p (0 : Fin 1))) eps) - Ideal.sqrt (max (v66 (ix2 p (0 : Fin 1))) eps)) + half)
      (Ideal.ofBits .f32 0x00000000#32)) (Ideal.ofBits .f32 0x00000000#32) = _
  rw [Ideal.ofBits_zero_f32]
  show max (if BitVec.ofBool (decide (half < v70 (ix2 p (0 : Fin 1)))) = 1 then _ else _) _ = _
  by_cases h : half < v70 (ix2 p (0 : Fin 1))
  · rw [if_pos h, decide_eq_true h, if_pos (show BitVec.ofBool true = 1 from rfl)]
  · rw [if_neg h, decide_eq_false h, if_neg (show ¬ BitVec.ofBool false = 1 from by decide)]

theorem pay4_apply (v83 : Vec Ideal S512x1 .f32) (p : Fin 512) : k0_pay4 (F := Ideal) v83 (ix1 p) = v83 (ix2 p (0 : Fin 1)) := by
  unfold k0_pay4
  exact shapeCast_uncol_apply _ _ p

theorem pay5_apply (v86 : Vec Ideal S512x1 .f32) (p : Fin 512) : k0_pay5 (F := Ideal) v86 (ix1 p) = v86 (ix2 p (0 : Fin 1)) := by
  unfold k0_pay5
  exact shapeCast_uncol_apply _ _ p

/-- one half, the margin word, lies strictly between the two values a validity flag takes -/
theorem half_lt_one : half < (1 : EReal) := by
  rw [half_eq, ← EReal.coe_one, EReal.coe_lt_coe_iff]; norm_num
theorem not_half_lt_zero : ¬ half < (0 : EReal) := by
  rw [half_eq, ← EReal.coe_zero, EReal.coe_lt_coe_iff]; norm_num

end Cert.KPay

end
-- ==== Proof.KPayCe.lean ====
/-
  The kernel body's arithmetic for the cross-entropy and the center loss of one row block, read at an index at the ideal values.
-/
import proofs.«405195_j25804163514703_3_alg».proof.Proof.Spec
import proofs.«405195_j25804163514703_3_alg».proof.Proof.LibPlainDot
import proofs.«405195_j25804163514703_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KPay

open Idealize.ShloMosaic Idealize.ShloMosaic.ValueIdx Cert.Spec Cert.KernelIdeal Cert.KernelIdeal.Gen

/-- the log-softmax of one row of 1000 logits at class c, shifted by the row's maximum -/
def logpRow (row : Fin 1000 → EReal) (c : Fin 1000) : EReal :=
  (row c - (Finset.univ : Finset (Fin 1000)).fold max ⊥ row)
    - Ideal.log (∑ c' : Fin 1000, Ideal.exp (row c' - (Finset.univ : Finset (Fin 1000)).fold max ⊥ row))

/-- the specification's log-softmax is the row-level one of that row of the logits -/
theorem logp_eq_logpRow (lg : SLog.Idx → EReal) (r : Fin 4096) (c : Fin 1000) :
    logp lg r c = logpRow (fun c' => lg (ix2 r c')) c := rfl

/-- the one-hot selector of a label word at class c, as an extended real -/
def oneHot (l : BitVec 32) (c : Fin 1000) : EReal := if BitVec.ofNat 32 c.val = l then 1 else 0

/-! ## Layout operations of the literal shapes, read at an index -/

/-- a column [512, 1] broadcast along the lanes reads its row's entry -/
theorem bcast_col_apply {α : Type} (x : S512x1.Idx → α) (p : Fin 512) (c : Fin 1000) :
    broadcastTo S512x1000 x broadcasts_S512x1_S512x1000 (ix2 p c) = x (ix2 p (0 : Fin 1)) := by
  refine broadcastTo_apply x _ (ix2 p c) (ix2 p (0 : Fin 1)) fun a => ?_
  match a with
  | ⟨0, _⟩ => rfl
  | ⟨1, _⟩ => rfl

/-- a vector [512] viewed as a column [512, 1] reads its row's entry -/
theorem cast_col_apply {α : Type} (x : S512.Idx → α) (p : Fin 512) (q : Fin 1) :
    shapeCast S512x1 x shapeCasts_S512_S512x1 (ix2 p q) = x (ix1 p) := by
  refine shapeCast_apply x _ (ix2 p q) (ix1 p) ?_
  rw [Shape.rowMajor_val_one, Shape.rowMajor_val_two]
  have : (ix2 p q 1).val = 0 := by have := q.isLt; show q.val = 0; omega
  show p.val = p.val * 1 + (ix2 p q 1).val
  omega

/-- the sum over the lanes of a [512, 1000] block at row p -/
theorem rowSum1000_apply (x : FVec Ideal S512x1000 .f32) (p : Fin 512) :
    multiReduction .add [1] S512 x 0x00000000#32 reduces_S512x1000_S512 (.inl rfl) rfl (ix1 p)
      = ∑ c : Fin 1000, x (ix2 p c) := by
  refine (Ideal.multiReduction_add_single x _ reduces_S512x1000_S512 (.inl rfl) rfl (ix1 p)).trans ?_
  refine Finset.sum_congr rfl fun k _ => congrArg x ?_
  funext a
  match a with
  | ⟨0, _⟩ => rfl
  | ⟨1, _⟩ => rfl

/-- the sum over the lanes of a [512, 512] block at row p -/
theorem rowSum512_apply (x : FVec Ideal S512x512 .f32) (p : Fin 512) :
    multiReduction .add [1] S512 x 0x00000000#32 reduces_S512x512_S512 (.inl rfl) rfl (ix1 p)
      = ∑ k : Fin 512, x (ix2 p k) := by
  refine (Ideal.multiReduction_add_single x _ reduces_S512x512_S512 (.inl rfl) rfl (ix1 p)).trans ?_
  refine Finset.sum_congr rfl fun k _ => congrArg x ?_
  funext a
  match a with
  | ⟨0, _⟩ => rfl
  | ⟨1, _⟩ => rfl

/-- the maximum over the lanes of a [512, 1000] block at row p, from the accumulator minus infinity -/
theorem rowMax1000_apply (x : FVec Ideal S512x1000 .f32) (p : Fin 512) :
    multiReduction .maximumf [1] S512 x 0xFF800000#32 reduces_S512x1000_S512 (.inl rfl) rfl (ix1 p)
      = (Finset.univ : Finset (Fin 1000)).fold max ⊥ (fun c => x (ix2 p c)) := by
  refine (Ideal.multiReduction_maximumf_single x _ reduces_S512x1000_S512 (.inl rfl) rfl (ix1 p)).trans ?_
  have e : (x ∘ reduces_S512x1000_S512.lift (ix1 p)) = fun c : Fin 1000 => x (ix2 p c) :=
    funext fun k => congrArg x (funext fun a => match a with | ⟨0, _⟩ => rfl | ⟨1, _⟩ => rfl)
  rw [e]
  exact congrArg (fun b => (Finset.univ : Finset (Fin 1000)).fold max b fun c => x (ix2 p c)) ofBits_ninf_f32

/-! ## The one-hot row -/

/-- the widened bit of a word equality, converted to a float at the ideal values, is the indicator of the equality -/
theorem sitofp_eq_bit (x y : BitVec 32) :
    FloatOps.sitofp (F := Ideal) .f32 (BitVec.setWidth 32 (IntOp.cmpi .eq x y)) = if x = y then (1 : EReal) else 0 := by
  by_cases h : x = y
  · subst h
    rw [if_pos rfl]
    have e : IntOp.cmpi .eq x x = 1#1 := by simp [IntOp.cmpi]
    rw [e]
    show (((BitVec.setWidth 32 1#1).toInt : ℝ) : EReal) = 1
    have e2 : (BitVec.setWidth 32 1#1).toInt = 1 := by decide
    rw [e2]
    simp
  · rw [if_neg h]
    have hb : (x == y) = false := beq_eq_false_iff_ne.mpr h
    have e : IntOp.cmpi .eq x y = 0#1 := by
      show BitVec.ofBool (x == y) = 0#1
      rw [hb]
      rfl
    rw [e]
    show (((BitVec.setWidth 32 0#1).toInt : ℝ) : EReal) = 0
    have e2 : (BitVec.setWidth 32 0#1).toInt = 0 := by decide
    rw [e2]
    simp

/-- the one-hot block at (p, c) is the selector of row p's label word at class c -/
theorem pay8_apply (v81 : Vec Ideal S512x1 .i32) (p : Fin 512) (c : Fin 1000) :
    k0_pay8 (F := Ideal) v81 (ix2 p c) = oneHot (v81 (ix2 p (0 : Fin 1))) c := by
  unfold k0_pay8
  simp only [shapeCast_self]
  show FloatOps.sitofp (F := Ideal) .f32 ((IntOp.cmpi .eq (iota .tc S512x1000 32 [1] iota_S512x1000_d1_w32 (ix2 p c))
    (broadcastTo S512x1000 v81 broadcasts_S512x1_S512x1000 (ix2 p c))).setWidth 32) = _
  rw [iota_single_apply, bcast_col_apply]
  exact sitofp_eq_bit (BitVec.ofNat 32 c.val) (v81 (ix2 p (0 : Fin 1)))

/-- the narrowed one-hot block is the same at the ideal values -/
theorem pay10_apply (v81 : Vec Ideal S512x1 .i32) (p : Fin 512) (c : Fin 1000) :
    k0_pay10 (F := Ideal) v81 (ix2 p c) = oneHot (v81 (ix2 p (0 : Fin 1))) c :=
  pay8_apply v81 p c

/-! ## The cross-entropy term of a row -/

/-- an exponential at an index, at the ideal values -/
theorem exp_apply {s : Shape} {φ : FTy} (a : FVec Ideal s φ) (i : s.Idx) : exp a i = Ideal.exp (a i) := rfl
/-- a logarithm at an index, at the ideal values -/
theorem log_apply {s : Shape} {φ : FTy} (a : FVec Ideal s φ) (i : s.Idx) : log a i = Ideal.log (a i) := rfl

/-- a row's cross-entropy term: zero minus the one-hot row of the row's label against the row's log-softmax -/
theorem pay9_apply (v70 : Vec Ideal S512x1000 .f32) (v81 : Vec Ideal S512x1 .i32) (p : Fin 512) :
    k0_pay9 (F := Ideal) v70 v81 (ix2 p (0 : Fin 1))
      = 0 - ∑ c : Fin 1000, oneHot (v81 (ix2 p (0 : Fin 1))) c * logpRow (fun c' => v70 (ix2 p c')) c := by
  unfold k0_pay9
  simp only [shapeCast_self]
  refine (subf_apply _ _ _).trans ?_
  rw [broadcast_apply, cast_col_apply, rowSum1000_apply]
  refine congrArg₂ (· - ·) Ideal.ofBits_zero_f32 (Finset.sum_congr rfl fun c _ => ?_)
  rw [mulf_apply, pay8_apply]
  refine congrArg (oneHot _ c * ·) ?_
  rw [subf_apply, subf_apply, bcast_col_apply, bcast_col_apply, cast_col_apply, rowMax1000_apply]
  rw [log_apply, cast_col_apply, rowSum1000_apply]
  unfold logpRow
  refine congrArg (fun s => _ - Ideal.log s) (Finset.sum_congr rfl fun c' _ => ?_)
  rw [exp_apply, subf_apply, bcast_col_apply, cast_col_apply, rowMax1000_apply]

/-! ## The center term of a row -/

/-- the product of a [512, 1000] block with a [1000, 512] table into the zero accumulator, at (p, k) -/
theorem matmul_pick_apply (l : FVec Ideal S512x1000 .bf16) (r : FVec Ideal S1000x512 .bf16) (p k : Fin 512) :
    matmul dot_S512x1000_S1000x512_S512x512_1_0_0_1_n_n none l r (constant S512x512 .f32 0x00000000#32) (ix2 p k)
      = ∑ c : Fin 1000, l (ix2 p c) * r (ix2 c k) :=
  Cert.LibPlainDot.matmul_zero_apply dot_S512x1000_S1000x512_S512x512_1_0_0_1_n_n_wf none l r p k

/-- the one-hot block against the leading table, at (p, k) -/
theorem pay11_apply (v81 : Vec Ideal S512x1 .i32) (v97 : Vec Ideal S1000x512 .bf16) (p k : Fin 512) :
    k0_pay11 (F := Ideal) v81 v97 (ix2 p k) = ∑ c : Fin 1000, oneHot (v81 (ix2 p (0 : Fin 1))) c * v97 (ix2 c k) := by
  unfold k0_pay11
  simp only [shapeCast_self]
  rw [matmul_pick_apply]
  simp only [pay10_apply]

/-- a row's center term: the sum over the 512 columns of the squared difference of the embedding and the one-hot row against
    the leading table plus the one-hot row against the remainder table -/
theorem pay12_apply (v81 : Vec Ideal S512x1 .i32) (v97 v100 : Vec Ideal S1000x512 .bf16) (v104 : Vec Ideal S512x512 .f32) (p : Fin 512) :
    k0_pay12 (F := Ideal) (k0_pay10 v81) (k0_pay11 v81 v97) v100 v104 (ix2 p (0 : Fin 1))
      = ∑ k : Fin 512,
          (v104 (ix2 p k) - ((∑ c : Fin 1000, oneHot (v81 (ix2 p (0 : Fin 1))) c * v97 (ix2 c k))
              + ∑ c : Fin 1000, oneHot (v81 (ix2 p (0 : Fin 1))) c * v100 (ix2 c k)))
          * (v104 (ix2 p k) - ((∑ c : Fin 1000, oneHot (v81 (ix2 p (0 : Fin 1))) c * v97 (ix2 c k))
              + ∑ c : Fin 1000, oneHot (v81 (ix2 p (0 : Fin 1))) c * v100 (ix2 c k))) := by
  unfold k0_pay12
  simp only [shapeCast_self]
  rw [cast_col_apply, rowSum512_apply]
  refine Finset.sum_congr rfl fun k _ => ?_
  rw [mulf_apply, subf_apply, addf_apply, pay11_apply, matmul_pick_apply]
  simp only [pay10_apply]

end Cert.KPay

end
-- ==== Proof.KPieces.lean ====
/-
  What each control case of the body leaves in the carried scratch blocks and in the output blocks, as the body's
  arithmetic of the input blocks `x0 … x10` and of the previous scratch contents `xs0 … xs3`.

  The grid is 8 × 4; the point at `i` works on the 512 rows from row 512 * (i 0) of the embeddings (`rowBlk`) against the
  1024 columns from column 1024 * (i 1) of their transpose (`colBlk`): `tile` is the 512 × 1024 tile of squared distances.
    * first column (case A): the running maximum is the masked maximum of the tile over the reset value (`k0_pay6`, read back
      after the reset), the running minimum likewise over `k0_pay7`; the third block is the row's cross-entropy term, the
      fourth the row's center term;
    * middle columns (case B): the running maximum and minimum are updated over the previous contents;
    * last column (case C): the same update, and the three outputs are the row's triplet term of the updated maximum and
      minimum, and the third and fourth blocks reshaped to vectors of 512.
  Every lemma takes all its arguments explicitly, in the order of the definition it reads.
-/
import proofs.«405195_j25804163514703_3_alg».proof.Proof.Gen.KernelIdeal.Frame
import Idealize.ShloMosaic.Lib.Pipeline.Value
import Idealize.ShloMosaic.Lib.ValueIdx

set_option maxRecDepth 16384

noncomputable section

namespace Cert.KPieces

open Idealize.ShloMosaic Idealize.ShloMosaic.TcCoe Idealize.ShloMosaic.Tactic Idealize.SL.Sem
open Idealize.ShloMosaic.ValueIdx
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- The row block of the first resident array that the point at `i` loads: 512 rows from row `k0_off1 i 0`, all 512 columns. -/
abbrev rowBlk (i : grid0.Coords) (x0 : Vec F S4096x512 .bf16) : Vec F S512x512 .bf16 :=
  View.ld x0 (Rect.unit (s := S4096x512) (k0_off1 i) S512x512.size (k0_off1_inb i))

/-- The column block of the second resident array that the point at `i` loads: all 512 rows, 1024 columns from column `k0_off2 i 1`. -/
abbrev colBlk (i : grid0.Coords) (x1 : Vec F S512x4096 .bf16) : Vec F S512x1024 .bf16 :=
  View.ld x1 (Rect.unit (s := S512x4096) (k0_off2 i) S512x1024.size (k0_off2_inb i))

/-- The squared-distance tile of the point: the body's arithmetic of the two loaded blocks and the two norm blocks. -/
abbrev tile (i : grid0.Coords) (x0 : Vec F S4096x512 .bf16) (x1 : Vec F S512x4096 .bf16) (x3 : Vec F S512x1 .f32) (x4 : Vec F S1x1024 .f32) : FVec F S512x1024 .f32 :=
  k0_pay13 (rowBlk i x0) (colBlk i x1) x3 x4

/-- The row block read at an index: entry (p, k) of the block of the point at `i` is entry (512 * (i 0) + p, k) of the array. -/
theorem rowBlk_apply (i : grid0.Coords) (x0 : Vec F S4096x512 .bf16) (p k : Fin 512) :
    rowBlk i x0 (ix2 p k)
      = x0 (ix2 (⟨512 * (i 0).val + p.val, by have h8 : (i 0).val < 8 := (i 0).isLt; omega⟩ : Fin 4096) k) := by
  show x0 _ = x0 _
  congr 1
  funext a
  apply Fin.ext
  rw [LoadRect.idx_apply]
  simp only [Rect.off_unit, Rect.stride_unit, k0_off1_eq, Nat.one_mul]
  fin_cases a <;> simp

/-- The column block read at an index: entry (k, q) of the block of the point at `i` is entry (k, 1024 * (i 1) + q) of the array. -/
theorem colBlk_apply (i : grid0.Coords) (x1 : Vec F S512x4096 .bf16) (k : Fin 512) (q : Fin 1024) :
    colBlk i x1 (ix2 k q)
      = x1 (ix2 k (⟨1024 * (i 1).val + q.val, by have h4 : (i 1).val < 4 := (i 1).isLt; omega⟩ : Fin 4096)) := by
  show x1 _ = x1 _
  congr 1
  funext a
  apply Fin.ext
  rw [LoadRect.idx_apply]
  simp only [Rect.off_unit, Rect.stride_unit, k0_off2_eq, Nat.one_mul]
  fin_cases a <;> simp

/-! ## Last column (case C) -/

/-- Output 12 after the last column: the third scratch block, reshaped to a vector of 512. -/
theorem out_C_12 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay4 xs2 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_C
  dsimp only
  sl_unfold_words
  rw [View.canon_unit_zero hz1]
  simp only [View.readAt_eq_ld, harg18.read_unread, View.ld_unit_zero (S := S512x1) hz2]

/-- Output 13 after the last column: the fourth scratch block, reshaped to a vector of 512. -/
theorem out_C_13 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay5 xs3 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_C
  dsimp only
  sl_unfold_words
  rw [View.canon_unit_zero hz1]
  simp only [View.readAt_eq_ld, harg19.read_unread, View.ld_unit_zero (S := S512x1) hz2]

/-- The running maximum after the last column: the masked maximum of the tile over the previous contents. -/
theorem sout_C_0 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay1 (tile i x0 x1 x3 x4) (k0_pay15 i x5 x6) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg16.read_unread, harg17.read_unread, View.ld_unit_zero (S := S512x1) hz2, View.ld_unit_zero (S := S1x1024) hz2, View.readCov_unit_zero (S := S512x1) _ hz2]
  rfl

/-- The running minimum after the last column: the masked minimum of the tile over the previous contents. -/
theorem sout_C_1 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay2 (tile i x0 x1 x3 x4) (k0_pay14 x5 x6) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, harg9.read_unread, harg16.read_unread, harg17.read_unread, View.ld_unit_zero (S := S512x1) hz2, View.ld_unit_zero (S := S1x1024) hz2, View.readCov_unit_zero (S := S512x1) _ hz2]
  rfl

/-- Output 11 after the last column: the triplet term of the updated maximum and minimum and of the validity block. -/
theorem out_C_11 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay3 (k0_pay1 (tile i x0 x1 x3 x4) (k0_pay15 i x5 x6) xs0) (k0_pay2 (tile i x0 x1 x3 x4) (k0_pay14 x5 x6) xs1) x7 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_C
  dsimp only
  sl_unfold_words
  rw [View.canon_unit_zero hz1]
  simp only [View.readAt_eq_ld, harg2.read_unread, harg3.read_unread, harg5.read_unread, harg6.read_unread, harg7.read_unread, harg8.read_unread, harg9.read_unread, harg16.read_unread, harg17.read_unread, View.ld_unit_zero (S := S512x1) hz2, View.ld_unit_zero (S := S1x1024) hz2, View.readCov_unit_zero (S := S512x1) _ hz2]
  rfl

/-! ## Middle columns (case B) -/

/-- The running maximum after a middle column: the masked maximum of the tile over the previous contents. -/
theorem sout_B_0 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : ¬cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay1 (tile i x0 x1 x3 x4) (k0_pay15 i x5 x6) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg16.read_unread, harg17.read_unread, View.ld_unit_zero (S := S512x1) hz2, View.ld_unit_zero (S := S1x1024) hz2, View.readCov_unit_zero (S := S512x1) _ hz2]
  rfl

/-- The running minimum after a middle column: the masked minimum of the tile over the previous contents. -/
theorem sout_B_1 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : ¬cond0_0 i) (hc1 : ¬cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 = k0_pay2 (tile i x0 x1 x3 x4) (k0_pay14 x5 x6) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, harg16.read_unread, harg17.read_unread, View.ld_unit_zero (S := S512x1) hz2, View.ld_unit_zero (S := S1x1024) hz2, View.readCov_unit_zero (S := S512x1) _ hz2]
  rfl

/-! ## First column (case A) -/

/-- The running maximum after the first column: the masked maximum of the tile over the reset value. -/
theorem sout_A_0 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : cond0_0 i) (hc1 : ¬cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay1 (tile i x0 x1 x3 x4) (k0_pay15 i x5 x6) k0_pay6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S512x1) hz2, View.ld_unit_zero (S := S1x1024) hz2, View.ld_unit_zero (S := S512x512) hz2, View.ld_unit_zero (S := S512x1000) hz2, View.ld_unit_zero (S := S1000x512) hz2, View.readCov_unit_zero (S := S512x1) _ hz2]
  rfl

/-- The running minimum after the first column: the masked minimum of the tile over the reset value. -/
theorem sout_A_1 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : cond0_0 i) (hc1 : ¬cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay2 (tile i x0 x1 x3 x4) (k0_pay14 x5 x6) k0_pay7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  unfold kernelRun0_A
  dsimp only
  sl_unfold_words
  rw [View.canon_cons_unit_zero (S := S512x1) hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S512x1) hz2, View.ld_unit_zero (S := S1x1024) hz2, View.ld_unit_zero (S := S512x512) hz2, View.ld_unit_zero (S := S512x1000) hz2, View.ld_unit_zero (S := S1000x512) hz2, View.readCov_unit_zero (S := S512x1) _ hz2]
  rfl

/-- The third scratch block after the first column: the cross-entropy term of the logits block and the labels block. -/
theorem sout_A_2 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : cond0_0 i) (hc1 : ¬cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay9 x8 x5 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S512x1) hz2, View.ld_unit_zero (S := S1x1024) hz2, View.ld_unit_zero (S := S512x512) hz2, View.ld_unit_zero (S := S512x1000) hz2, View.ld_unit_zero (S := S1000x512) hz2, View.readCov_unit_zero (S := S512x1) _ hz2]

/-- The fourth scratch block after the first column: the center term of the labels block, the two parts of the centers and the embeddings block. -/
theorem sout_A_3 (c : Dev nD) (i : grid0.Coords) (arg2 : Memref sig .tc .vmem S4096x512 .bf16) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1 .i32) (harg7 : arg7.IsWhole) (arg8 : Memref sig .tc .vmem S1x1024 .i32) (harg8 : arg8.IsWhole) (arg9 : Memref sig .tc .vmem S512x1 .f32) (harg9 : arg9.IsWhole) (arg10 : Memref sig .tc .vmem S512x1000 .f32) (harg10 : arg10.IsWhole) (arg11 : Memref sig .tc .vmem S1000x512 .bf16) (harg11 : arg11.IsWhole) (arg12 : Memref sig .tc .vmem S1000x512 .bf16) (harg12 : arg12.IsWhole) (arg13 : Memref sig .tc .vmem S512 .f32) (harg13 : arg13.IsWhole) (arg14 : Memref sig .tc .vmem S512 .f32) (harg14 : arg14.IsWhole) (arg15 : Memref sig .tc .vmem S512 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (hc0 : cond0_0 i) (hc1 : ¬cond0_1 i)
    (x0 : Vec F S4096x512 .bf16) (x1 : Vec F S512x4096 .bf16) (x2 : Vec F S512x512 .f32) (x3 : Vec F S512x1 .f32) (x4 : Vec F S1x1024 .f32) (x5 : Vec F S512x1 .i32) (x6 : Vec F S1x1024 .i32) (x7 : Vec F S512x1 .f32) (x8 : Vec F S512x1000 .f32) (x9 : Vec F S1000x512 .bf16) (x10 : Vec F S1000x512 .bf16) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 = k0_pay12 (k0_pay10 x5) (k0_pay11 x5 x9) x10 x2 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, harg12.read_unread, View.ld_unit_zero (S := S512x1) hz2, View.ld_unit_zero (S := S1x1024) hz2, View.ld_unit_zero (S := S512x512) hz2, View.ld_unit_zero (S := S512x1000) hz2, View.ld_unit_zero (S := S1000x512) hz2, View.readCov_unit_zero (S := S512x1) _ hz2]

end Cert.KPieces

end
-- ==== Proof.KInv.lean ====
/-
  The kernel's grid induction. The grid is 8 row tiles by 4 column tiles; the body carries four [512, 1] scratch blocks from
  point to point. Within a row tile, after the column tile j the first block holds, for each of its 512 rows, the row's maximum
  squared distance to a positive among the columns of tiles 0 … j (bottom if none), the second the minimum over negatives (top
  if none), the third the row's cross-entropy term and the fourth its center term, both computed at the first column and kept.
  So at the last column the two extremes are those over all 4096 columns, and the three per-row outputs written there are the
  kernel-shaped per-row loss, cross-entropy term and center term of the specification.
-/
import proofs.«405195_j25804163514703_3_alg».proof.Proof.Spec
import proofs.«405195_j25804163514703_3_alg».proof.Proof.KHost
import proofs.«405195_j25804163514703_3_alg».proof.Proof.KBlocks
import proofs.«405195_j25804163514703_3_alg».proof.Proof.KPayTrip
import proofs.«405195_j25804163514703_3_alg».proof.Proof.KPayCe
import proofs.«405195_j25804163514703_3_alg».proof.Proof.KPieces
import proofs.«405195_j25804163514703_3_alg».proof.Proof.Gen.KernelIdeal.Frame
import Idealize.ShloMosaic.PureOps.Ideal.Laws
import Idealize.ShloMosaic.Lib.ValueIdx
import Idealize.ShloMosaic.Lib.Pipeline.Value

set_option maxRecDepth 16384

noncomputable section

namespace Cert.KInv

open Idealize.ShloMosaic Idealize.ShloMosaic.ValueIdx Idealize.ShloMosaic.TcCoe Idealize.SL.Sem Cert.Spec Cert.KernelIdeal Cert.KernelIdeal.Gen Cert.KHost Cert.KBlocks Cert.KPay Cert.KPieces

variable (m : (ℓ : Loc nD τ sig) → Buf (Elt Ideal) ℓ)

/-! ## The blocks of a point, at their literal types, read at an index of the argument arrays -/

abbrev B0 (c : Dev nD) (t : Fin cfg0.N) : Vec Ideal S4096x512 .bf16 := iblk m c 0 t
abbrev B1 (c : Dev nD) (t : Fin cfg0.N) : Vec Ideal S512x4096 .bf16 := iblk m c 1 t
abbrev B2 (c : Dev nD) (t : Fin cfg0.N) : Vec Ideal S512x512 .f32 := iblk m c 2 t
abbrev B3 (c : Dev nD) (t : Fin cfg0.N) : Vec Ideal S512x1 .f32 := iblk m c 3 t
abbrev B4 (c : Dev nD) (t : Fin cfg0.N) : Vec Ideal S1x1024 .f32 := iblk m c 4 t
abbrev B5 (c : Dev nD) (t : Fin cfg0.N) : Vec Ideal S512x1 .i32 := iblk m c 5 t
abbrev B6 (c : Dev nD) (t : Fin cfg0.N) : Vec Ideal S1x1024 .i32 := iblk m c 6 t
abbrev B7 (c : Dev nD) (t : Fin cfg0.N) : Vec Ideal S512x1 .f32 := iblk m c 7 t
abbrev B8 (c : Dev nD) (t : Fin cfg0.N) : Vec Ideal S512x1000 .f32 := iblk m c 8 t
abbrev B9 (c : Dev nD) (t : Fin cfg0.N) : Vec Ideal S1000x512 .bf16 := iblk m c 9 t
abbrev B10 (c : Dev nD) (t : Fin cfg0.N) : Vec Ideal S1000x512 .bf16 := iblk m c 10 t

theorem B0_apply (c : Dev nD) (t : Fin cfg0.N) (y : S4096x512.Idx) : B0 m c t y = embOf m c y :=
  (iblk0 m c t y).trans (V_embBf m c y)
theorem B1_apply (c : Dev nD) (t : Fin cfg0.N) (k : Fin 512) (r : Fin 4096) : B1 m c t (ix2 k r) = embOf m c (ix2 r k) :=
  (iblk1 m c t (ix2 k r)).trans (V_embT m c k r)
theorem B2_apply (c : Dev nD) (t : Fin cfg0.N) (p k : Fin 512) : B2 m c t (ix2 p k) = embOf m c (ix2 (gRow t p) k) :=
  (iblk2 m c t p k).trans (congrFun (V_main_arg0 m c) _)
theorem B3_apply (c : Dev nD) (t : Fin cfg0.N) (p : Fin 512) : B3 m c t (ix2 p (0 : Fin 1)) = sq (embOf m c) (gRow t p) :=
  (iblk3 m c t p).trans (V_sqCol m c _)
theorem B4_apply (c : Dev nD) (t : Fin cfg0.N) (q : Fin 1024) : B4 m c t (ix2 (0 : Fin 1) q) = sq (embOf m c) (gCol t q) :=
  (iblk4 m c t q).trans (V_sqRow m c _)
theorem B5_apply (c : Dev nD) (t : Fin cfg0.N) (p : Fin 512) : B5 m c t (ix2 p (0 : Fin 1)) = labOf m c (ix1 (gRow t p)) :=
  (iblk5 m c t p).trans (V_labCol m c _)
theorem B6_apply (c : Dev nD) (t : Fin cfg0.N) (q : Fin 1024) : B6 m c t (ix2 (0 : Fin 1) q) = labOf m c (ix1 (gCol t q)) :=
  (iblk6 m c t q).trans (V_labRow m c _)
theorem B7_apply (c : Dev nD) (hlab : LabelsInRange (labOf m c)) (t : Fin cfg0.N) (p : Fin 512) :
    B7 m c t (ix2 p (0 : Fin 1)) = if validK (labOf m c) (gRow t p) then (1 : EReal) else 0 :=
  (iblk7 m c t p).trans (V_valid m c hlab _)
theorem B8_apply (c : Dev nD) (t : Fin cfg0.N) (p : Fin 512) (cl : Fin 1000) : B8 m c t (ix2 p cl) = logOf m c (ix2 (gRow t p) cl) :=
  (iblk8 m c t p cl).trans (congrFun (V_main_arg1 m c) _)
theorem B9_apply (c : Dev nD) (t : Fin cfg0.N) (y : S1000x512.Idx) : B9 m c t y = cenOf m c y :=
  (iblk9 m c t y).trans (V_cenHi m c y)
theorem B10_apply (c : Dev nD) (t : Fin cfg0.N) (y : S1000x512.Idx) : B10 m c t y = cenOf m c y - cenOf m c y :=
  (iblk10 m c t y).trans (V_cenLo m c y)

/-! ## One tile of the pairwise part -/

/-- a row's squared distances to its positives, bottom elsewhere; to its negatives, top elsewhere -/
def posF (c : Dev nD) (r : Fin 4096) : Fin 4096 → EReal := fun q => if isPos (labOf m c) r q then d2 (embOf m c) r q else ⊥
def negF (c : Dev nD) (r : Fin 4096) : Fin 4096 → EReal := fun q => if isNeg (labOf m c) r q then d2 (embOf m c) r q else ⊤

/-- the column tile of a point -/
def colTile (t : Fin cfg0.N) : Fin 4 := ⟨t.val % 4, Nat.mod_lt _ (by decide)⟩

theorem gCol_eq (t : Fin cfg0.N) (q : Fin 1024) :
    (⟨(colTile t).val * 1024 + q.val, by have := (colTile t).isLt; have := q.isLt; omega⟩ : Fin 4096) = gCol t q := rfl

/-- the tile of squared distances of a point, at (p, q): rows of the row tile against rows of the column tile -/
theorem tile_apply (c : Dev nD) (t : Fin cfg0.N) (p : Fin 512) (q : Fin 1024) :
    (tile (grid0.coords t) (B0 m c t) (B1 m c t) (B3 m c t) (B4 m c t)) (ix2 p q) = d2 (embOf m c) (gRow t p) (gCol t q) := by
  show k0_pay13 (F := Ideal) (rowBlk (grid0.coords t) (B0 m c t)) (colBlk (grid0.coords t) (B1 m c t)) (B3 m c t) (B4 m c t) (ix2 p q) = _
  rw [pay13_apply, B3_apply, B4_apply]
  unfold d2 gram
  have hr : ∀ (h : 512 * ((grid0.coords t) 0).val + p.val < 4096), (⟨512 * ((grid0.coords t) 0).val + p.val, h⟩ : Fin 4096) = gRow t p :=
    fun h => Fin.ext (by show 512 * ((grid0.coords t) 0).val + p.val = t.val / 4 * 512 + p.val; rw [coords0]; omega)
  have hc : ∀ (h : 1024 * ((grid0.coords t) 1).val + q.val < 4096), (⟨1024 * ((grid0.coords t) 1).val + q.val, h⟩ : Fin 4096) = gCol t q :=
    fun h => Fin.ext (by show 1024 * ((grid0.coords t) 1).val + q.val = t.val % 4 * 1024 + q.val; rw [coords1]; omega)
  have hs : ∀ k : Fin 512, rowBlk (grid0.coords t) (B0 m c t) (ix2 p k) * colBlk (grid0.coords t) (B1 m c t) (ix2 k q)
      = embOf m c (ix2 (gRow t p) k) * embOf m c (ix2 (gCol t q) k) := fun k => by
    rw [rowBlk_apply, colBlk_apply, B0_apply, B1_apply, hr, hc]
  simp only [hs]

theorem posMask_apply (c : Dev nD) (t : Fin cfg0.N) (p : Fin 512) (q : Fin 1024) :
    (k0_pay15 (grid0.coords t) (B5 m c t) (B6 m c t)) (ix2 p q) = if isPos (labOf m c) (gRow t p) (gCol t q) then 1#1 else 0#1 := by
  rw [pay15_apply, B5_apply, B6_apply]
  have hne : ((grid0.coords t) 0).val * 512 + p.val ≠ ((grid0.coords t) 1).val * 1024 + q.val ↔ gRow t p ≠ gCol t q := by
    rw [coords0, coords1, Ne, Ne, Fin.ext_iff]; rfl
  unfold isPos
  exact if_congr (and_congr Iff.rfl hne) rfl rfl

theorem eqMask_apply (c : Dev nD) (t : Fin cfg0.N) (p : Fin 512) (q : Fin 1024) :
    (k0_pay14 (B5 m c t) (B6 m c t)) (ix2 p q) = if isNeg (labOf m c) (gRow t p) (gCol t q) then 0#1 else 1#1 := by
  rw [pay14_apply, B5_apply, B6_apply]
  unfold isNeg
  by_cases h : labOf m c (ix1 (gRow t p)) = labOf m c (ix1 (gCol t q)) <;> simp [h]

/-- the running maximum after a point's tile: the old value against the tile's part of the row's maximum over positives -/
theorem updPos (c : Dev nD) (t : Fin cfg0.N) (p : Fin 512) (xs0 : Vec Ideal S512x1 .f32) :
    k0_pay1 (F := Ideal) (tile (grid0.coords t) (B0 m c t) (B1 m c t) (B3 m c t) (B4 m c t)) (k0_pay15 (grid0.coords t) (B5 m c t) (B6 m c t)) xs0 (ix2 p (0 : Fin 1))
      = max (xs0 (ix2 p (0 : Fin 1))) (tileMax (posF m c (gRow t p)) (colTile t)) := by
  rw [pay1_apply]
  refine congrArg (max (xs0 (ix2 p (0 : Fin 1)))) ?_
  unfold tileMax
  refine congrArg (fun f => Finset.fold max ⊥ f Finset.univ) (funext fun q => ?_)
  rw [posMask_apply, tile_apply, gCol_eq]
  unfold posF
  by_cases h : isPos (labOf m c) (gRow t p) (gCol t q) <;> simp [h]

/-- the running minimum after a point's tile -/
theorem updNeg (c : Dev nD) (t : Fin cfg0.N) (p : Fin 512) (xs1 : Vec Ideal S512x1 .f32) :
    k0_pay2 (F := Ideal) (tile (grid0.coords t) (B0 m c t) (B1 m c t) (B3 m c t) (B4 m c t)) (k0_pay14 (B5 m c t) (B6 m c t)) xs1 (ix2 p (0 : Fin 1))
      = min (xs1 (ix2 p (0 : Fin 1))) (tileMin (negF m c (gRow t p)) (colTile t)) := by
  rw [pay2_apply]
  refine congrArg (min (xs1 (ix2 p (0 : Fin 1)))) ?_
  unfold tileMin
  refine congrArg (fun f => Finset.fold min ⊤ f Finset.univ) (funext fun q => ?_)
  rw [eqMask_apply, tile_apply, gCol_eq]
  unfold negF
  by_cases h : isNeg (labOf m c) (gRow t p) (gCol t q) <;> simp [h]

/-- a row block's cross-entropy and center terms -/
theorem ceBlock (c : Dev nD) (t : Fin cfg0.N) (p : Fin 512) :
    k0_pay9 (F := Ideal) (B8 m c t) (B5 m c t) (ix2 p (0 : Fin 1)) = ceRowK (logOf m c) (labOf m c) (gRow t p) := by
  rw [pay9_apply, B5_apply]
  unfold ceRowK
  refine congrArg (fun s => (0 : EReal) - s) (Finset.sum_congr rfl fun cl _ => ?_)
  rw [logp_eq_logpRow]
  have e : (fun c' => B8 m c t (ix2 p c')) = fun c' => logOf m c (ix2 (gRow t p) c') := funext fun c' => B8_apply m c t p c'
  rw [e]
  rfl

theorem centerBlock (c : Dev nD) (t : Fin cfg0.N) (p : Fin 512) :
    k0_pay12 (F := Ideal) (k0_pay10 (B5 m c t)) (k0_pay11 (B5 m c t) (B9 m c t)) (B10 m c t) (B2 m c t) (ix2 p (0 : Fin 1))
      = centerRowK (embOf m c) (labOf m c) (cenOf m c) (gRow t p) := by
  rw [pay12_apply, B5_apply]
  unfold centerRowK pickK
  refine Finset.sum_congr rfl fun k _ => ?_
  simp only [B2_apply, B9_apply, B10_apply]
  rfl

/-! ## What each case leaves, over the blocks of the point -/

theorem caseA_S0 (c : Dev nD) (t : Fin cfg0.N) (h0 : t.val % 4 = 0) (h1 : ¬t.val % 4 = 3) :
    (outsAt0 m c t.val t.isLt).2.2.2.1 = k0_pay1 (tile (grid0.coords t) (B0 m c t) (B1 m c t) (B3 m c t) (B4 m c t)) (k0_pay15 (grid0.coords t) (B5 m c t) (B6 m c t)) (k0_pay6 (F := Ideal)) := by
  rw [outsAt0_A m c t h0 h1]
  dsimp only
  exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)
theorem caseA_S1 (c : Dev nD) (t : Fin cfg0.N) (h0 : t.val % 4 = 0) (h1 : ¬t.val % 4 = 3) :
    (outsAt0 m c t.val t.isLt).2.2.2.2.1 = k0_pay2 (tile (grid0.coords t) (B0 m c t) (B1 m c t) (B3 m c t) (B4 m c t)) (k0_pay14 (B5 m c t) (B6 m c t)) (k0_pay7 (F := Ideal)) := by
  rw [outsAt0_A m c t h0 h1]
  dsimp only
  exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)
theorem caseA_S2 (c : Dev nD) (t : Fin cfg0.N) (h0 : t.val % 4 = 0) (h1 : ¬t.val % 4 = 3) :
    (outsAt0 m c t.val t.isLt).2.2.2.2.2.1 = k0_pay9 (B8 m c t) (B5 m c t) := by
  rw [outsAt0_A m c t h0 h1]
  dsimp only
  exact sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)
theorem caseA_S3 (c : Dev nD) (t : Fin cfg0.N) (h0 : t.val % 4 = 0) (h1 : ¬t.val % 4 = 3) :
    (outsAt0 m c t.val t.isLt).2.2.2.2.2.2 = k0_pay12 (k0_pay10 (B5 m c t)) (k0_pay11 (B5 m c t) (B9 m c t)) (B10 m c t) (B2 m c t) := by
  rw [outsAt0_A m c t h0 h1]
  dsimp only
  exact sout_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem caseB_S0 (c : Dev nD) (t : Fin cfg0.N) (h0 : ¬t.val % 4 = 0) (h1 : ¬t.val % 4 = 3) :
    (outsAt0 m c t.val t.isLt).2.2.2.1 = k0_pay1 (tile (grid0.coords t) (B0 m c t) (B1 m c t) (B3 m c t) (B4 m c t)) (k0_pay15 (grid0.coords t) (B5 m c t) (B6 m c t)) ((outsAt0 m c (t.val - 1) (Nat.lt_of_le_of_lt (Nat.sub_le _ _) t.isLt)).2.2.2.1) := by
  rw [outsAt0_B m c t h0 h1]
  dsimp only
  exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
theorem caseB_S1 (c : Dev nD) (t : Fin cfg0.N) (h0 : ¬t.val % 4 = 0) (h1 : ¬t.val % 4 = 3) :
    (outsAt0 m c t.val t.isLt).2.2.2.2.1 = k0_pay2 (tile (grid0.coords t) (B0 m c t) (B1 m c t) (B3 m c t) (B4 m c t)) (k0_pay14 (B5 m c t) (B6 m c t)) ((outsAt0 m c (t.val - 1) (Nat.lt_of_le_of_lt (Nat.sub_le _ _) t.isLt)).2.2.2.2.1) := by
  rw [outsAt0_B m c t h0 h1]
  dsimp only
  exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
theorem caseB_S2 (c : Dev nD) (t : Fin cfg0.N) (h0 : ¬t.val % 4 = 0) (h1 : ¬t.val % 4 = 3) :
    (outsAt0 m c t.val t.isLt).2.2.2.2.2.1 = (outsAt0 m c (t.val - 1) (Nat.lt_of_le_of_lt (Nat.sub_le _ _) t.isLt)).2.2.2.2.2.1 := by
  rw [outsAt0_B m c t h0 h1]
  rfl
theorem caseB_S3 (c : Dev nD) (t : Fin cfg0.N) (h0 : ¬t.val % 4 = 0) (h1 : ¬t.val % 4 = 3) :
    (outsAt0 m c t.val t.isLt).2.2.2.2.2.2 = (outsAt0 m c (t.val - 1) (Nat.lt_of_le_of_lt (Nat.sub_le _ _) t.isLt)).2.2.2.2.2.2 := by
  rw [outsAt0_B m c t h0 h1]
  rfl

theorem caseC_S0 (c : Dev nD) (t : Fin cfg0.N) (h0 : ¬t.val % 4 = 0) (h1 : t.val % 4 = 3) :
    (outsAt0 m c t.val t.isLt).2.2.2.1 = k0_pay1 (tile (grid0.coords t) (B0 m c t) (B1 m c t) (B3 m c t) (B4 m c t)) (k0_pay15 (grid0.coords t) (B5 m c t) (B6 m c t)) ((outsAt0 m c (t.val - 1) (Nat.lt_of_le_of_lt (Nat.sub_le _ _) t.isLt)).2.2.2.1) := by
  rw [outsAt0_C m c t h0 h1]
  dsimp only
  exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
theorem caseC_S1 (c : Dev nD) (t : Fin cfg0.N) (h0 : ¬t.val % 4 = 0) (h1 : t.val % 4 = 3) :
    (outsAt0 m c t.val t.isLt).2.2.2.2.1 = k0_pay2 (tile (grid0.coords t) (B0 m c t) (B1 m c t) (B3 m c t) (B4 m c t)) (k0_pay14 (B5 m c t) (B6 m c t)) ((outsAt0 m c (t.val - 1) (Nat.lt_of_le_of_lt (Nat.sub_le _ _) t.isLt)).2.2.2.2.1) := by
  rw [outsAt0_C m c t h0 h1]
  dsimp only
  exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
theorem caseC_S2 (c : Dev nD) (t : Fin cfg0.N) (h0 : ¬t.val % 4 = 0) (h1 : t.val % 4 = 3) :
    (outsAt0 m c t.val t.isLt).2.2.2.2.2.1 = (outsAt0 m c (t.val - 1) (Nat.lt_of_le_of_lt (Nat.sub_le _ _) t.isLt)).2.2.2.2.2.1 := by
  rw [outsAt0_C m c t h0 h1]
  rfl
theorem caseC_S3 (c : Dev nD) (t : Fin cfg0.N) (h0 : ¬t.val % 4 = 0) (h1 : t.val % 4 = 3) :
    (outsAt0 m c t.val t.isLt).2.2.2.2.2.2 = (outsAt0 m c (t.val - 1) (Nat.lt_of_le_of_lt (Nat.sub_le _ _) t.isLt)).2.2.2.2.2.2 := by
  rw [outsAt0_C m c t h0 h1]
  rfl
theorem caseC_O11 (c : Dev nD) (t : Fin cfg0.N) (h0 : ¬t.val % 4 = 0) (h1 : t.val % 4 = 3) :
    (outsAt0 m c t.val t.isLt).1
      = k0_pay3 (k0_pay1 (tile (grid0.coords t) (B0 m c t) (B1 m c t) (B3 m c t) (B4 m c t)) (k0_pay15 (grid0.coords t) (B5 m c t) (B6 m c t)) ((outsAt0 m c (t.val - 1) (Nat.lt_of_le_of_lt (Nat.sub_le _ _) t.isLt)).2.2.2.1)) (k0_pay2 (tile (grid0.coords t) (B0 m c t) (B1 m c t) (B3 m c t) (B4 m c t)) (k0_pay14 (B5 m c t) (B6 m c t)) ((outsAt0 m c (t.val - 1) (Nat.lt_of_le_of_lt (Nat.sub_le _ _) t.isLt)).2.2.2.2.1)) (B7 m c t) := by
  rw [outsAt0_C m c t h0 h1]
  dsimp only
  exact out_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
theorem caseC_O12 (c : Dev nD) (t : Fin cfg0.N) (h0 : ¬t.val % 4 = 0) (h1 : t.val % 4 = 3) :
    (outsAt0 m c t.val t.isLt).2.1 = k0_pay4 ((outsAt0 m c (t.val - 1) (Nat.lt_of_le_of_lt (Nat.sub_le _ _) t.isLt)).2.2.2.2.2.1) := by
  rw [outsAt0_C m c t h0 h1]
  dsimp only
  exact out_C_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2
theorem caseC_O13 (c : Dev nD) (t : Fin cfg0.N) (h0 : ¬t.val % 4 = 0) (h1 : t.val % 4 = 3) :
    (outsAt0 m c t.val t.isLt).2.2.1 = k0_pay5 ((outsAt0 m c (t.val - 1) (Nat.lt_of_le_of_lt (Nat.sub_le _ _) t.isLt)).2.2.2.2.2.2) := by
  rw [outsAt0_C m c t h0 h1]
  dsimp only
  exact out_C_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

/-! ## The running extremes over the column tiles, and the invariant of the scratch blocks -/

/-- a row's maximum over the column tiles 0 … j, from bottom; its minimum, from top -/
def accMax (f : Fin 4096 → EReal) : ℕ → EReal
  | 0 => max ⊥ (tileMax f 0)
  | j + 1 => max (accMax f j) (tileMax f ⟨(j + 1) % 4, Nat.mod_lt _ (by decide)⟩)
def accMin (f : Fin 4096 → EReal) : ℕ → EReal
  | 0 => min ⊤ (tileMin f 0)
  | j + 1 => min (accMin f j) (tileMin f ⟨(j + 1) % 4, Nat.mod_lt _ (by decide)⟩)

theorem accMax_three (f : Fin 4096 → EReal) : accMax f 3 = (Finset.univ : Finset (Fin 4096)).fold max ⊥ f := by
  rw [fold_max_tiles]; rfl
theorem accMin_three (f : Fin 4096 → EReal) : accMin f 3 = (Finset.univ : Finset (Fin 4096)).fold min ⊤ f := by
  rw [fold_min_tiles]; rfl

theorem accMax_step (f : Fin 4096 → EReal) (j : ℕ) (k : Fin 4) (hk : k.val = (j + 1) % 4) :
    accMax f (j + 1) = max (accMax f j) (tileMax f k) := by
  have e : (⟨(j + 1) % 4, Nat.mod_lt _ (by decide)⟩ : Fin 4) = k := Fin.ext hk.symm
  show max (accMax f j) (tileMax f ⟨(j + 1) % 4, Nat.mod_lt _ (by decide)⟩) = _
  rw [e]
theorem accMin_step (f : Fin 4096 → EReal) (j : ℕ) (k : Fin 4) (hk : k.val = (j + 1) % 4) :
    accMin f (j + 1) = min (accMin f j) (tileMin f k) := by
  have e : (⟨(j + 1) % 4, Nat.mod_lt _ (by decide)⟩ : Fin 4) = k := Fin.ext hk.symm
  show min (accMin f j) (tileMin f ⟨(j + 1) % 4, Nat.mod_lt _ (by decide)⟩) = _
  rw [e]

/-- after point n the four scratch blocks hold, for each row of the point's row tile: the row's maximum over positives and
    minimum over negatives in the column tiles seen so far, its cross-entropy term and its center term -/
structure Inv (c : Dev nD) (n : ℕ) (h : n < cfg0.N) : Prop where
  pos : ∀ p : Fin 512, (outsAt0 m c n h).2.2.2.1 (ix2 p (0 : Fin 1)) = accMax (posF m c (gRow ⟨n, h⟩ p)) (n % 4)
  neg : ∀ p : Fin 512, (outsAt0 m c n h).2.2.2.2.1 (ix2 p (0 : Fin 1)) = accMin (negF m c (gRow ⟨n, h⟩ p)) (n % 4)
  ce : ∀ p : Fin 512, (outsAt0 m c n h).2.2.2.2.2.1 (ix2 p (0 : Fin 1)) = ceRowK (logOf m c) (labOf m c) (gRow ⟨n, h⟩ p)
  cen : ∀ p : Fin 512, (outsAt0 m c n h).2.2.2.2.2.2 (ix2 p (0 : Fin 1))
      = centerRowK (embOf m c) (labOf m c) (cenOf m c) (gRow ⟨n, h⟩ p)

/-- the first column of a row tile resets the extremes and computes the row terms -/
theorem invA (c : Dev nD) (t : Fin cfg0.N) (h0 : t.val % 4 = 0) : Inv m c t.val t.isLt := by
  have h1 : ¬t.val % 4 = 3 := by omega
  have hk : colTile t = 0 := Fin.ext h0
  refine ⟨fun p => ?_, fun p => ?_, fun p => ?_, fun p => ?_⟩
  · rw [caseA_S0 m c t h0 h1, updPos, pay6_apply, hk, h0]; rfl
  · rw [caseA_S1 m c t h0 h1, updNeg, pay7_apply, hk, h0]; rfl
  · rw [caseA_S2 m c t h0 h1]; exact ceBlock m c t p
  · rw [caseA_S3 m c t h0 h1]; exact centerBlock m c t p

/-- a later column of the row tile updates the extremes and keeps the row terms -/
theorem invStep (c : Dev nD) (n : ℕ) (h : n + 1 < cfg0.N) (h0 : ¬(n + 1) % 4 = 0) (ih : Inv m c n (Nat.lt_of_succ_lt h)) :
    Inv m c (n + 1) h := by
  have hrow : ∀ p : Fin 512, gRow ⟨n + 1, h⟩ p = gRow ⟨n, Nat.lt_of_succ_lt h⟩ p := fun p =>
    Fin.ext (by show (n + 1) / 4 * 512 + p.val = n / 4 * 512 + p.val; omega)
  have hmod : (n + 1) % 4 = n % 4 + 1 := by omega
  have hk : (colTile ⟨n + 1, h⟩).val = (n % 4 + 1) % 4 := by show (n + 1) % 4 = (n % 4 + 1) % 4; omega
  have hS0 : ∀ p : Fin 512, (outsAt0 m c (n + 1) h).2.2.2.1 (ix2 p (0 : Fin 1))
      = max ((outsAt0 m c n (Nat.lt_of_succ_lt h)).2.2.2.1 (ix2 p (0 : Fin 1))) (tileMax (posF m c (gRow ⟨n + 1, h⟩ p)) (colTile ⟨n + 1, h⟩)) := fun p => by
    by_cases h1 : (n + 1) % 4 = 3
    · exact (congrFun (caseC_S0 m c ⟨n + 1, h⟩ h0 h1) _).trans (updPos m c ⟨n + 1, h⟩ p _)
    · exact (congrFun (caseB_S0 m c ⟨n + 1, h⟩ h0 h1) _).trans (updPos m c ⟨n + 1, h⟩ p _)
  have hS1 : ∀ p : Fin 512, (outsAt0 m c (n + 1) h).2.2.2.2.1 (ix2 p (0 : Fin 1))
      = min ((outsAt0 m c n (Nat.lt_of_succ_lt h)).2.2.2.2.1 (ix2 p (0 : Fin 1))) (tileMin (negF m c (gRow ⟨n + 1, h⟩ p)) (colTile ⟨n + 1, h⟩)) := fun p => by
    by_cases h1 : (n + 1) % 4 = 3
    · exact (congrFun (caseC_S1 m c ⟨n + 1, h⟩ h0 h1) _).trans (updNeg m c ⟨n + 1, h⟩ p _)
    · exact (congrFun (caseB_S1 m c ⟨n + 1, h⟩ h0 h1) _).trans (updNeg m c ⟨n + 1, h⟩ p _)
  have hS2 : (outsAt0 m c (n + 1) h).2.2.2.2.2.1 = (outsAt0 m c n (Nat.lt_of_succ_lt h)).2.2.2.2.2.1 := by
    by_cases h1 : (n + 1) % 4 = 3
    · exact caseC_S2 m c ⟨n + 1, h⟩ h0 h1
    · exact caseB_S2 m c ⟨n + 1, h⟩ h0 h1
  have hS3 : (outsAt0 m c (n + 1) h).2.2.2.2.2.2 = (outsAt0 m c n (Nat.lt_of_succ_lt h)).2.2.2.2.2.2 := by
    by_cases h1 : (n + 1) % 4 = 3
    · exact caseC_S3 m c ⟨n + 1, h⟩ h0 h1
    · exact caseB_S3 m c ⟨n + 1, h⟩ h0 h1
  refine ⟨fun p => ?_, fun p => ?_, fun p => ?_, fun p => ?_⟩
  · rw [hS0 p, ih.pos p, hrow p, hmod]
    exact (accMax_step _ (n % 4) (colTile ⟨n + 1, h⟩) hk).symm
  · rw [hS1 p, ih.neg p, hrow p, hmod]
    exact (accMin_step _ (n % 4) (colTile ⟨n + 1, h⟩) hk).symm
  · rw [hS2, ih.ce p, hrow p]
  · rw [hS3, ih.cen p, hrow p]

theorem inv (c : Dev nD) : ∀ (n : ℕ) (h : n < cfg0.N), Inv m c n h
  | 0, h => invA m c ⟨0, h⟩ rfl
  | n + 1, h => by
    by_cases h0 : (n + 1) % 4 = 0
    · exact invA m c ⟨n + 1, h⟩ h0
    · exact invStep m c n h h0 (inv c n (Nat.lt_of_succ_lt h))

/-! ## The three outputs at the last column of a row tile -/

theorem out11_at (c : Dev nD) (hlab : LabelsInRange (labOf m c)) (t : Fin cfg0.N) (h3 : t.val % 4 = 3) (p : Fin 512) :
    (outsAt0 m c t.val t.isLt).1 (ix1 p) = lossRowK (embOf m c) (labOf m c) (gRow t p) := by
  have h0 : ¬t.val % 4 = 0 := by omega
  rw [caseC_O11 m c t h0 h3, ← caseC_S0 m c t h0 h3, ← caseC_S1 m c t h0 h3, pay3_apply,
    (inv m c t.val t.isLt).pos p, (inv m c t.val t.isLt).neg p, B7_apply m c hlab, h3, accMax_three, accMin_three]
  unfold lossRowK posMaxK negMinK
  by_cases hv : validK (labOf m c) (gRow t p)
  · simp only [hv, if_true, half_lt_one]; rfl
  · simp only [hv, if_false, not_half_lt_zero]

theorem out12_at (c : Dev nD) (t : Fin cfg0.N) (h3 : t.val % 4 = 3) (p : Fin 512) :
    (outsAt0 m c t.val t.isLt).2.1 (ix1 p) = ceRowK (logOf m c) (labOf m c) (gRow t p) := by
  have h0 : ¬t.val % 4 = 0 := by omega
  rw [caseC_O12 m c t h0 h3, ← caseC_S2 m c t h0 h3, pay4_apply]
  exact (inv m c t.val t.isLt).ce p

theorem out13_at (c : Dev nD) (t : Fin cfg0.N) (h3 : t.val % 4 = 3) (p : Fin 512) :
    (outsAt0 m c t.val t.isLt).2.2.1 (ix1 p) = centerRowK (embOf m c) (labOf m c) (cenOf m c) (gRow t p) := by
  have h0 : ¬t.val % 4 = 0 := by omega
  rw [caseC_O13 m c t h0 h3, ← caseC_S3 m c t h0 h3, pay5_apply]
  exact (inv m c t.val t.isLt).cen p

end Cert.KInv

end
-- ==== Proof.KValue.lean ====
/-
  The kernel's three per-row result arrays and its three scalar results as functions of the argument arrays. Each of the three
  output windows is written back once per row tile, at the tile's last column, with the block of 512 rows the induction
  describes; the eight blocks tile the 4096 rows, so each array ends holding its per-row function. The host operations after
  the region then sum the rows and divide: the results are the kernel-shaped triplet loss, cross-entropy and total.
-/
import proofs.«405195_j25804163514703_3_alg».proof.Proof.Spec
import proofs.«405195_j25804163514703_3_alg».proof.Proof.KHost
import proofs.«405195_j25804163514703_3_alg».proof.Proof.KBlocks
import proofs.«405195_j25804163514703_3_alg».proof.Proof.KTail
import proofs.«405195_j25804163514703_3_alg».proof.Proof.KInv
import proofs.«405195_j25804163514703_3_alg».proof.Proof.Gen.KernelIdeal.Frame
import Idealize.ShloMosaic.PureOps.Ideal.Laws
import Idealize.ShloMosaic.Lib.ValueIdx
import Idealize.ShloMosaic.Lib.Pipeline.Value

noncomputable section

namespace Cert.KValue

open Idealize.ShloMosaic Idealize.ShloMosaic.ValueIdx Idealize.ShloMosaic.TcCoe Idealize.SL.Sem Cert.Spec Cert.KernelIdeal Cert.KernelIdeal.Gen Cert.KHost Cert.KBlocks Cert.KTail
open Idealize.ShloMosaic.Pipeline (Dat)

variable (m : (ℓ : Loc nD τ sig) → Buf (Elt Ideal) ℓ) (ρ : Dev nD → PrngReg)

/-- the row an index of a per-row array names -/
def rowIx (i : S4096.Idx) : Fin 4096 := ⟨(i 0).val, (i 0).isLt⟩

theorem rowIx_ix1 (r : Fin 4096) : rowIx (ix1 r) = r := rfl

/-- the three per-row arrays the region leaves, as functions of the argument arrays -/
def lossG (c : Dev nD) : S4096.Idx → EReal := fun i => lossRowK (embOf m c) (labOf m c) (rowIx i)
def ceG (c : Dev nD) : S4096.Idx → EReal := fun i => ceRowK (logOf m c) (labOf m c) (rowIx i)
def centerG (c : Dev nD) : S4096.Idx → EReal := fun i => centerRowK (embOf m c) (labOf m c) (cenOf m c) (rowIx i)

/-- the three output windows' blocks move with the row tile: block t / 4 at point t -/
theorem idx_out : ∀ t : Fin cfg0.N, win0_11.index t (0 : Fin 1) = t.val / 4 ∧ win0_12.index t (0 : Fin 1) = t.val / 4
    ∧ win0_13.index t (0 : Fin 1) = t.val / 4 :=
  (by decide +kernel : ∀ t : Fin grid0.N, _)

/-- row p of the block written back at point t is global row (t / 4) * 512 + p -/
theorem emb11 (t : Fin cfg0.N) (p : Fin 512) : rowIx (((cfg0.win 11).blk t).view.emb (ix1 p)) = gRow t p := by
  apply Fin.ext
  show win0_11.index t (0 : Fin 1) * 512 + 1 * p.val = (t.val / 4) * 512 + p.val
  rw [(idx_out t).1]; omega
theorem emb12 (t : Fin cfg0.N) (p : Fin 512) : rowIx (((cfg0.win 12).blk t).view.emb (ix1 p)) = gRow t p := by
  apply Fin.ext
  show win0_12.index t (0 : Fin 1) * 512 + 1 * p.val = (t.val / 4) * 512 + p.val
  rw [(idx_out t).2.1]; omega
theorem emb13 (t : Fin cfg0.N) (p : Fin 512) : rowIx (((cfg0.win 13).blk t).view.emb (ix1 p)) = gRow t p := by
  apply Fin.ext
  show win0_13.index t (0 : Fin 1) * 512 + 1 * p.val = (t.val / 4) * 512 + p.val
  rw [(idx_out t).2.2]; omega

/-- what a write-back of the loss window writes is its block of the per-row loss -/
theorem flushed11 (c : Dev nD) (hlab : LabelsInRange (labOf m c)) (t : Fin cfg0.N) (hf : (cfg0.win 11).flush t = true) :
    (dats m 0 c).flushed 11 t = ((cfg0.win 11).blk t).view.read (Elt Ideal) (lossG m c) := by
  have h3 : t.val % 4 = 3 := (flush0_11 t).mp hf
  show (cfg0.win 11).cut (grid0.coords t) ((dats m 0 c).after 11 t) = _
  rw [after0_11]
  funext y
  obtain ⟨p, rfl⟩ : ∃ p : Fin 512, y = ix1 p := ⟨y 0, eq_ix1 y⟩
  show (outsAt0 m c t.val t.isLt).1 (ix1 p) = lossG m c (((cfg0.win 11).blk t).view.emb (ix1 p))
  rw [Cert.KInv.out11_at m c hlab t h3 p]
  unfold lossG
  rw [emb11]

theorem flushed12 (c : Dev nD) (t : Fin cfg0.N) (hf : (cfg0.win 12).flush t = true) :
    (dats m 0 c).flushed 12 t = ((cfg0.win 12).blk t).view.read (Elt Ideal) (ceG m c) := by
  have h3 : t.val % 4 = 3 := (flush0_12 t).mp hf
  show (cfg0.win 12).cut (grid0.coords t) ((dats m 0 c).after 12 t) = _
  rw [after0_12]
  funext y
  obtain ⟨p, rfl⟩ : ∃ p : Fin 512, y = ix1 p := ⟨y 0, eq_ix1 y⟩
  show (outsAt0 m c t.val t.isLt).2.1 (ix1 p) = ceG m c (((cfg0.win 12).blk t).view.emb (ix1 p))
  rw [Cert.KInv.out12_at m c t h3 p]
  unfold ceG
  rw [emb12]

theorem flushed13 (c : Dev nD) (t : Fin cfg0.N) (hf : (cfg0.win 13).flush t = true) :
    (dats m 0 c).flushed 13 t = ((cfg0.win 13).blk t).view.read (Elt Ideal) (centerG m c) := by
  have h3 : t.val % 4 = 3 := (flush0_13 t).mp hf
  show (cfg0.win 13).cut (grid0.coords t) ((dats m 0 c).after 13 t) = _
  rw [after0_13]
  funext y
  obtain ⟨p, rfl⟩ : ∃ p : Fin 512, y = ix1 p := ⟨y 0, eq_ix1 y⟩
  show (outsAt0 m c t.val t.isLt).2.2.1 (ix1 p) = centerG m c (((cfg0.win 13).blk t).view.emb (ix1 p))
  rw [Cert.KInv.out13_at m c t h3 p]
  unfold centerG
  rw [emb13]

/-- the last point of row tile i / 512 covers row i -/
def lastPt (i : S4096.Idx) : Fin cfg0.N := ⟨((i 0).val / 512) * 4 + 3, by
  have h : (i 0).val < 4096 := (i 0).isLt
  show _ < grid0.N
  rw [N_0]; omega⟩

theorem lastPt_mod (i : S4096.Idx) : (lastPt i).val % 4 = 3 := by
  show (((i 0).val / 512) * 4 + 3) % 4 = 3
  omega

theorem lastPt_div (i : S4096.Idx) : (lastPt i).val / 4 = (i 0).val / 512 := by
  show (((i 0).val / 512) * 4 + 3) / 4 = (i 0).val / 512
  omega

theorem cover11 (i : S4096.Idx) : ∃ t : Fin cfg0.N, (cfg0.win 11).flush t = true ∧ i ∈ ((cfg0.win 11).blk t).view.set := by
  refine ⟨lastPt i, (flush0_11 _).mpr (lastPt_mod i), ?_⟩
  show i ∈ ((View.whole main_v35_0).slice (win0_11.rect (lastPt i))).set
  rw [View.set_slice_whole, Rect.mem_set_unit]
  intro a
  have h0 : (i 0).val < 4096 := (i 0).isLt
  match a with
  | ⟨0, _⟩ =>
    show win0_11.index (lastPt i) (0 : Fin 1) * 512 ≤ (i 0).val ∧ (i 0).val < win0_11.index (lastPt i) (0 : Fin 1) * 512 + 512
    rw [(idx_out (lastPt i)).1, lastPt_div]; omega

theorem cover12 (i : S4096.Idx) : ∃ t : Fin cfg0.N, (cfg0.win 12).flush t = true ∧ i ∈ ((cfg0.win 12).blk t).view.set := by
  refine ⟨lastPt i, (flush0_12 _).mpr (lastPt_mod i), ?_⟩
  show i ∈ ((View.whole main_v35_1).slice (win0_12.rect (lastPt i))).set
  rw [View.set_slice_whole, Rect.mem_set_unit]
  intro a
  have h0 : (i 0).val < 4096 := (i 0).isLt
  match a with
  | ⟨0, _⟩ =>
    show win0_12.index (lastPt i) (0 : Fin 1) * 512 ≤ (i 0).val ∧ (i 0).val < win0_12.index (lastPt i) (0 : Fin 1) * 512 + 512
    rw [(idx_out (lastPt i)).2.1, lastPt_div]; omega

theorem cover13 (i : S4096.Idx) : ∃ t : Fin cfg0.N, (cfg0.win 13).flush t = true ∧ i ∈ ((cfg0.win 13).blk t).view.set := by
  refine ⟨lastPt i, (flush0_13 _).mpr (lastPt_mod i), ?_⟩
  show i ∈ ((View.whole main_v35_2).slice (win0_13.rect (lastPt i))).set
  rw [View.set_slice_whole, Rect.mem_set_unit]
  intro a
  have h0 : (i 0).val < 4096 := (i 0).isLt
  match a with
  | ⟨0, _⟩ =>
    show win0_13.index (lastPt i) (0 : Fin 1) * 512 ≤ (i 0).val ∧ (i 0).val < win0_13.index (lastPt i) (0 : Fin 1) * 512 + 512
    rw [(idx_out (lastPt i)).2.2, lastPt_div]; omega

/-- the three arrays after the region -/
theorem final11 (c : Dev nD) (hlab : LabelsInRange (labOf m c)) : (dats m 0 c).arrAt 11 cfg0.N = lossG m c :=
  (dats m 0 c).arrAt_eq_of_cover 11 (lossG m c) (flushed11 m c hlab) cover11
theorem final12 (c : Dev nD) : (dats m 0 c).arrAt 12 cfg0.N = ceG m c :=
  (dats m 0 c).arrAt_eq_of_cover 12 (ceG m c) (flushed12 m c) cover12
theorem final13 (c : Dev nD) : (dats m 0 c).arrAt 13 cfg0.N = centerG m c :=
  (dats m 0 c).arrAt_eq_of_cover 13 (centerG m c) (flushed13 m c) cover13

/-- the tail's three scalars are the kernel-shaped forms of the argument arrays -/
theorem tripOf_eq (c : Dev nD) (hlab : LabelsInRange (labOf m c)) : tripOf m c = tripK (embOf m c) (labOf m c) := by
  unfold tripOf tripK nValidK
  have e1 : ∀ r : Fin 4096, lossArr m c (ix1 r) = lossRowK (embOf m c) (labOf m c) r := fun r => by
    show ((dats m 0 c).arrAt 11 cfg0.N) (ix1 r) = _
    rw [final11 m c hlab]; rfl
  have e2 : ∀ r : Fin 4096, validCol m c (ix2 r (0 : Fin 1)) = if validK (labOf m c) r then (1 : EReal) else 0 := fun r =>
    V_valid m c hlab r
  simp only [e1, e2]

theorem ceOf_eq (c : Dev nD) : ceOf m c = ceK (logOf m c) (labOf m c) := by
  unfold ceOf ceK
  have e1 : ∀ r : Fin 4096, ceArr m c (ix1 r) = ceRowK (logOf m c) (labOf m c) r := fun r => by
    show ((dats m 0 c).arrAt 12 cfg0.N) (ix1 r) = _
    rw [final12 m c]; rfl
  simp only [e1]

theorem centerOf_eq (c : Dev nD) : centerOf m c = centerK (embOf m c) (labOf m c) (cenOf m c) := by
  unfold centerOf centerK
  have e1 : ∀ r : Fin 4096, centerArr m c (ix1 r) = centerRowK (embOf m c) (labOf m c) (cenOf m c) r := fun r => by
    show ((dats m 0 c).arrAt 13 cfg0.N) (ix1 r) = _
    rw [final13 m c]; rfl
  simp only [e1]

/-- THE KERNEL'S RUN, READ: every weakly fair execution terminates with the three results at the kernel-shaped forms of the
    argument arrays, and the arguments unchanged. -/
theorem run (hlab : ∀ c : Dev nD, LabelsInRange (labOf m c)) :
    θ_run defs (onTc (τ := τ) (main (F := Ideal))) ⟨m, fun _ => 0, ρ⟩ fun r => ∀ c : Dev nD,
      r.2.mem ((c.tc : Thread nD τ).loc main_v48) = (fun _ => totalK (embOf m c) (logOf m c) (labOf m c) (cenOf m c))
      ∧ r.2.mem ((c.tc : Thread nD τ).loc main_v41) = (fun _ => ceK (logOf m c) (labOf m c))
      ∧ r.2.mem ((c.tc : Thread nD τ).loc main_v39) = (fun _ => tripK (embOf m c) (labOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v48 (Pipeline.mem_restRefs_of main_v48 (by decide) (by decide))).trans
        ((tail_total m c).trans (by
          funext _
          show (wCe * ceOf m c + wTrip * tripOf m c) + wCenter * centerOf m c = totalK _ _ _ _
          rw [ceOf_eq, tripOf_eq m c (hlab c), centerOf_eq]; rfl)),
      ((h c).2 main_v41 (Pipeline.mem_restRefs_of main_v41 (by decide) (by decide))).trans
        ((tail_ce m c).trans (by funext _; exact ceOf_eq m c)),
      ((h c).2 main_v39 (Pipeline.mem_restRefs_of main_v39 (by decide) (by decide))).trans
        ((tail_trip m c).trans (by funext _; exact tripOf_eq m c (hlab c))),
      ((h c).1 2).trans (((dats m 0 c).arrAt_in 2 rfl _).trans ((A_eq m c 2).trans (V_main_arg0 m c))),
      ((h c).1 8).trans (((dats m 0 c).arrAt_in 8 rfl _).trans ((A_eq m c 8).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KValue

end
-- ==== Proof.lean ====
/-
  The certificate's claims.

  Both programs compute a cross-entropy, a batch-hard triplet loss and their weighted total with a center loss from embeddings,
  logits, labels and class centers. The kernel's run ends with its three results at the kernel-shaped forms of the
  specification (the grid induction over the region, then the host sums), the reference's run at the reference-shaped forms (its
  operations read one at a time); under the precondition — real-valued float inputs, every label a class index — the two
  forms are equal: the root of the clamped squared distance is monotone, so it commutes with a row's minimum over negatives and,
  for a valid row, with its maximum over positives; a label occurring at least twice and not everywhere is exactly a row with
  a positive and a negative; a one-hot row against a vector picks the vector's entry at the label; the remainder of the centers
  after their leading part is zero over the reals.
  The three frames: the kernel's two are the generated frame certificates; the reference's is its run with the results dropped.
  The idealization rewrote nothing, so what it preserves is trivial.
-/
import proofs.«405195_j25804163514703_3_alg».proof.Defs
import proofs.«405195_j25804163514703_3_alg».proof.Proof.Gen.Kernel
import proofs.«405195_j25804163514703_3_alg».proof.Proof.Gen.Kernel.Skeleton
import proofs.«405195_j25804163514703_3_alg».proof.Proof.Gen.Kernel.Launch
import proofs.«405195_j25804163514703_3_alg».proof.Proof.Gen.Kernel.Points
import proofs.«405195_j25804163514703_3_alg».proof.Proof.Gen.Kernel.Frame
import proofs.«405195_j25804163514703_3_alg».proof.Proof.Gen.KernelIdeal
import proofs.«405195_j25804163514703_3_alg».proof.Proof.Gen.KernelIdeal.Skeleton
import proofs.«405195_j25804163514703_3_alg».proof.Proof.Gen.KernelIdeal.Launch
import proofs.«405195_j25804163514703_3_alg».proof.Proof.Gen.KernelIdeal.Points
import proofs.«405195_j25804163514703_3_alg».proof.Proof.Gen.KernelIdeal.Frame
import proofs.«405195_j25804163514703_3_alg».proof.Proof.Gen.ReferenceIdeal
import proofs.«405195_j25804163514703_3_alg».proof.Proof.RefRead
import proofs.«405195_j25804163514703_3_alg».proof.Proof.RefRun
import proofs.«405195_j25804163514703_3_alg».proof.Proof.Gen.Pre_finite_inputs
import proofs.«405195_j25804163514703_3_alg».proof.Proof.Spec
import proofs.«405195_j25804163514703_3_alg».proof.Proof.PreFacts
import proofs.«405195_j25804163514703_3_alg».proof.Proof.BridgeTrip
import proofs.«405195_j25804163514703_3_alg».proof.Proof.BridgeCe
import proofs.«405195_j25804163514703_3_alg».proof.Proof.RefTotal
import proofs.«405195_j25804163514703_3_alg».proof.Proof.KValue
import Idealize.ShloMosaic.Adequacy
import Idealize.ShloMosaic.Init

noncomputable section

namespace Cert.Proof

open Idealize.ShloMosaic Idealize.ShloMosaic.TcCoe Idealize.SL.Sem Cert.Spec

/-- the totals agree once the three parts do -/
theorem total_eq (e : SEmb.Idx → EReal) (lg : SLog.Idx → EReal) (lab : SLab.Idx → BitVec 32) (cen : SCen.Idx → EReal)
    (hlg : Finite lg) (hcen : Finite cen) (hlab : LabelsInRange lab) : totalK e lg lab cen = totalR e lg lab cen := by
  unfold totalK totalR
  rw [Cert.Bridge.ce_eq lg lab hlg hlab, Cert.Bridge.trip_eq e lab, Cert.Bridge.center_eq e lab cen hcen hlab]

theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.RefRun.run (F := Ideal) m ρ)

theorem algebraic [Cert.KernelIdeal.Facts] [Cert.ReferenceIdeal.Facts] [Cert.Pre_finite_inputs.Facts] :
    Cert.algebraic_KernelIdeal_ReferenceIdeal := by
  intro m ρ m' ρ' hpre hagree
  have hP := fun c : Dev Cert.KernelIdeal.nD => Cert.PreFacts.of_pre _ _ _ _ (hpre c)
  refine ⟨_, _, _, Cert.KValue.run m ρ (fun c => (hP c).2.2.2), ?_⟩
  refine (θ_run Cert.ReferenceIdeal.defs _ _).mono (fun _ h c => ?_) (Cert.RefRun.run (F := Ideal) m' ρ')
  obtain ⟨h69, h6, h53, ha0, ha1, ha2, ha3⟩ := h c
  obtain ⟨g0, g1, g2, g3⟩ := hagree c
  obtain ⟨-, hlg, hcen, hlab⟩ := hP c
  refine ⟨?_, ?_, ?_, ha0, ha1, ha2, ha3⟩
  · rw [h69, g0, g1, g2, g3, Cert.RefValue.ref_total _ _ _ _ hlab]
    funext _
    exact (total_eq _ _ _ _ hlg hcen hlab).symm
  · rw [h6, g1, g2, Cert.RefValue.ref_ce _ _ hlab]
    funext _
    exact (Cert.Bridge.ce_eq _ _ hlg hlab).symm
  · rw [h53, g0, g2, Cert.RefValue.ref_trip]
    funext _
    exact (Cert.Bridge.trip_eq _ _).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
